-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x640000 32 := broadcastInDim S2x640000 ![] bcast_S_S2x640000 main_c_8
  let main_v25 : IVec S2x640000 1 := cmpi .sge main_arg1 main_v24
  let main_c_9 : IVec S_ 32 := constantI S_ 32 10000#32
  let main_v26 : IVec S2x640000 32 := broadcastInDim S2x640000 ![] bcast_S_S2x640000 main_c_9
  let main_v27 : IVec S2x640000 1 := cmpi .slt main_arg1 main_v26
  let main_v28 : IVec S2x640000 1 := andi main_v25 main_v27
  let main_c_10 : IVec S_ 1 := constantI S_ 1 1#1
  let main_v29 : IVec S_ 1 := (fun x v => Host.reduce IntOp.andi x v reducesTo_S2x640000_S_d0_1 h_S_) main_v28 main_c_10
  let main_v30 : IVec S_ 1 := andi main_v23 main_v29
  main_v30

def fn {F : FTy → Type} [FloatOps F] (main_arg0 : FVec F S10000x128 .f32) (main_arg1 : IVec S2x640000 32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S10240x10240 : Shape := ⟨2, ![10240, 10240]⟩
abbrev S650000x2 : Shape := ⟨2, ![650000, 2]⟩
abbrev S10240x128 : Shape := ⟨2, ![10240, 128]⟩
abbrev S1024x128 : Shape := ⟨2, ![1024, 128]⟩
abbrev S1x128 : Shape := ⟨2, ![1, 128]⟩
abbrev S1024x2048 : Shape := ⟨2, ![1024, 2048]⟩
abbrev S2048x128 : Shape := ⟨2, ![2048, 128]⟩
abbrev S10240 : Shape := ⟨1, ![10240]⟩
abbrev S10240x1 : Shape := ⟨2, ![10240, 1]⟩

abbrev nBuf : Space → Nat
  | .hbm => 85
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S10000, .i32⟩
  | .hbm, ⟨11, _⟩ => ⟨S650000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S_, .f32⟩
  | .hbm, ⟨47, _⟩ => ⟨S10240x10240, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S_, .i32⟩
  | .hbm, ⟨56, _⟩ => ⟨S650000, .i32⟩
  | .hbm, ⟨57, _⟩ => ⟨S650000, .i1⟩
  | .hbm, ⟨58, _⟩ => ⟨S_, .i32⟩
  | .hbm, ⟨59, _⟩ => ⟨S650000, .i32⟩
  | .hbm, ⟨60, _⟩ => ⟨S650000, .i32⟩
  | .hbm, ⟨61, _⟩ => ⟨S650000, .i32⟩
  | .hbm, ⟨62, _⟩ => ⟨S650000x1, .i32⟩
  | .hbm, ⟨63, _⟩ => ⟨S650000x1, .i32⟩
  | .hbm, ⟨64, _⟩ => ⟨S650000x2, .i32⟩
  | .hbm, ⟨65, _⟩ => ⟨S10240x10240, .f32⟩
  | .hbm, ⟨66, _⟩ => ⟨S10240x10240, .bf16⟩
  | .hbm, ⟨67, _⟩ => ⟨S_, .i32⟩
  | .hbm, ⟨68, _⟩ => ⟨S_, .f32⟩
  | .hbm, ⟨69, _⟩ => ⟨S10240x128, .f32⟩
  | .hbm, ⟨70, _⟩ => ⟨S10240x128, .bf16⟩
  | .hbm, ⟨71, _⟩ => ⟨S1x128, .f32⟩
  | .hbm, ⟨72, _⟩ => ⟨S10240x128, .f32⟩
  | .hbm, ⟨73, _⟩ => ⟨S10240, .i32⟩
  | .hbm, ⟨74, _⟩ => ⟨S_, .i32⟩
  | .hbm, ⟨75, _⟩ => ⟨S10240, .i32⟩
  | .hbm, ⟨76, _⟩ => ⟨S10240, .i1⟩
  | .hbm, ⟨77, _⟩ => ⟨S10240, .f32⟩
  | .hbm, ⟨78, _⟩ => ⟨S10240x1, .f32⟩
  | .hbm, ⟨79, _⟩ => ⟨S10240x128, .f32⟩
  | .hbm, ⟨80, _⟩ => ⟨S10240x128, .f32⟩
  | .hbm, ⟨81, _⟩ => ⟨S10240x128, .bf16⟩
  | .hbm, ⟨82, _⟩ => ⟨S1x128, .f32⟩
  | .hbm, ⟨83, _⟩ => ⟨S10240x128, .f32⟩
  | .hbm, ⟨84, _⟩ => ⟨S10000x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x128, .bf16⟩
  | .local _ .vmem, ⟨4, _⟩ => ⟨S1024x128, .bf16⟩
  | .local _ .vmem, ⟨5, _⟩ => ⟨S1024x2048, .bf16⟩
  | .local _ .vmem, ⟨6, _⟩ => ⟨S1024x2048, .bf16⟩
  | .local _ .vmem, ⟨7, _⟩ => ⟨S2048x128, .bf16⟩
  | .local _ .vmem, ⟨8, _⟩ => ⟨S2048x128, .bf16⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S128x128, .f32⟩
  | .local _ .vmem, ⟨16, _⟩ => ⟨S1024x128, .bf16⟩
  | .local _ .vmem, ⟨17, _⟩ => ⟨S1024x128, .bf16⟩
  | .local _ .vmem, ⟨18, _⟩ => ⟨S1024x2048, .bf16⟩
  | .local _ .vmem, ⟨19, _⟩ => ⟨S1024x2048, .bf16⟩
  | .local _ .vmem, ⟨20, _⟩ => ⟨S2048x128, .bf16⟩
  | .local _ .vmem, ⟨21, _⟩ => ⟨S2048x128, .bf16⟩
  | .local _ .vmem, ⟨22, _⟩ => ⟨S1x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![10, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![10, 5], ![false, false]⟩

def k3_cond2 (i : grid3.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S_S10240x10240 : S_.BroadcastsInDim S10240x10240 (![] : Fin 0 → Fin S10240x10240.rank)
  concatenates_S650000x1_S650000x1_S650000x2_d1 : Shape.Concatenates [S650000x1, S650000x1] S650000x2 1
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  packedbf16_S1024x128_S1024x128_0_0 : (Rect.unit (s := S1024x128) ![0, 0] S1024x128.size inb_S1024x128_S1024x128_0_0).PackedRows (EltTy.packing .bf16)
  shapeCasts_S128_S1x128 : S128.ShapeCasts S1x128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  bcast_S_S10240 : S_.BroadcastsInDim S10240 (![] : Fin 0 → Fin S10240.rank)
  bcast_S10240_S10240x1_0 : S10240.BroadcastsInDim S10240x1 (![0] : Fin 1 → Fin S10240x1.rank)
  bcast_S10240x1_S10240x128_0_1 : S10240x1.BroadcastsInDim S10240x128 (![0, 1] : Fin 2 → Fin S10240x128.rank)
  slices_S10240x128_S10000x128_0_0 : S10240x128.Slices ![0, 0] S10000x128
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  scatter_S10240x10240_S650000x2_S650000_n_01_01_1_wf : ScatterDims.WF S10240x10240 S650000x2 S650000 [] [0, 1] [0, 1] 1
  dot_S1024x128_S128x128_S1024x128_1_0_0_1_n_n_wf : DotDims.WF S1024x128 S128x128 S1024x128 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S10240x128.size a
  hwx0_0 : ∀ i : grid0.Coords, EltTy.bits .f32 = 32 ∨ (Rect.block (s := S10240x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S10240x128.size a
  hwx0_2 : ∀ i : grid0.Coords, EltTy.bits .bf16 = 32 ∨ (Rect.block (s := S10240x128) S1024x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S10240x10240.size a
  hwx1_0 : ∀ i : grid1.Coords, EltTy.bits .bf16 = 32 ∨ (Rect.block (s := S10240x10240) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S10240x128.size a
  hwx1_1 : ∀ i : grid1.Coords, EltTy.bits .bf16 = 32 ∨ (Rect.block (s := S10240x128) S2048x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S10240x128.size a
  hwx1_3 : ∀ i : grid1.Coords, EltTy.bits .f32 = 32 ∨ (Rect.block (s := S10240x128) S1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S10240x128.size a
  hwx2_0 : ∀ i : grid2.Coords, EltTy.bits .f32 = 32 ∨ (Rect.block (s := S10240x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S10240x128.size a
  hwx2_2 : ∀ i : grid2.Coords, EltTy.bits .bf16 = 32 ∨ (Rect.block (s := S10240x128) S1024x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S10240x10240.size a
  hwx3_0 : ∀ i : grid3.Coords, EltTy.bits .bf16 = 32 ∨ (Rect.block (s := S10240x10240) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S10240x128.size a
  hwx3_1 : ∀ i : grid3.Coords, EltTy.bits .bf16 = 32 ∨ (Rect.block (s := S10240x128) S2048x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S10240x128.size a
  hwx3_3 : ∀ i : grid3.Coords, EltTy.bits .f32 = 32 ∨ (Rect.block (s := S10240x128) S1024x128.size (cc3_transform_3 i) (hinb3_3 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def scatter_S10240x10240_S650000x2_S650000_n_01_01_1 : ScatterDims S10240x10240 S650000x2 S650000 where
  updateWindowDims := []
  insertedWindowDims := [0, 1]
  scatterDimsToOperandDims := [0, 1]
  indexVectorDim := 1
  wf := scatter_S10240x10240_S650000x2_S650000_n_01_01_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v46) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v56) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 86
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S10000, .i32⟩
  | .hbm, ⟨11, _⟩ => ⟨S650000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S10000x128, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S10000x128, .f32⟩
  | .hbm, ⟨61, _⟩ => ⟨S650000x1, .i32⟩
  | .hbm, ⟨62, _⟩ => ⟨S10000x128, .f32⟩
  | .hbm, ⟨63, _⟩ => ⟨S1x128, .f32⟩
  | .hbm, ⟨64, _⟩ => ⟨S10000x128, .f32⟩
  | .hbm, ⟨65, _⟩ => ⟨S10000x128, .f32⟩
  | .hbm, ⟨66, _⟩ => ⟨S10000x128, .f32⟩
  | .hbm, ⟨67, _⟩ => ⟨S_, .i32⟩
  | .hbm, ⟨68, _⟩ => ⟨S650000, .i32⟩
  | .hbm, ⟨69, _⟩ => ⟨S650000, .i1⟩
  | .hbm, ⟨70, _⟩ => ⟨S_, .i32⟩
  | .hbm, ⟨71, _⟩ => ⟨S650000, .i32⟩
  | .hbm, ⟨72, _⟩ => ⟨S650000, .i32⟩
  | .hbm, ⟨73, _⟩ => ⟨S650000, .i32⟩
  | .hbm, ⟨74, _⟩ => ⟨S650000x1, .i32⟩
  | .hbm, ⟨75, _⟩ => ⟨S650000x128, .f32⟩
  | .hbm, ⟨76, _⟩ => ⟨S650000x1, .f32⟩
  | .hbm, ⟨77, _⟩ => ⟨S650000x128, .f32⟩
  | .hbm, ⟨78, _⟩ => ⟨S650000x128, .f32⟩
  | .hbm, ⟨79, _⟩ => ⟨S_, .f32⟩
  | .hbm, ⟨80, _⟩ => ⟨S10000x128, .f32⟩
  | .hbm, ⟨81, _⟩ => ⟨S650000x1, .i32⟩
  | .hbm, ⟨82, _⟩ => ⟨S10000x128, .f32⟩
  | .hbm, ⟨83, _⟩ => ⟨S1x128, .f32⟩
  | .hbm, ⟨84, _⟩ => ⟨S10000x128, .f32⟩
  | .hbm, ⟨85, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x128_S10000x128_1_0_0_1_n_n_wf : DotDims.WF S10000x128 S128x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf

class Facts : Prop extends Facts₀ where

variable [Facts]
-- ==== Proof.KLin0.lean ====
import proofs.«424741_j64287070486608_2_alg».proof.Proof.Gen.Kernel.Launch
import proofs.«424741_j64287070486608_2_alg».proof.Proof.Gen.Kernel.Skeleton
import proofs.«424741_j64287070486608_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the first linear layer, one block of 1024 rows per grid point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S1024x128 := Rect.unit (s := S1024x128) ![0, 0] S1024x128.size inb_S1024x128_S1024x128_0_0
abbrev rW0 : Rect S128x128 := Rect.unit (s := S128x128) ![0, 0] S128x128.size inb_S128x128_S128x128_0_0

/-- The output block after the body: its one whole-block store of the product of the two input blocks. -/
def out0_2 (x0 : Vec F S1024x128 .f32) (x1 : Vec F S128x128 .f32) : Vec F S1024x128 .bf16 :=
  View.canon [⟨rX0, k0_pay1 (View.ld x0 rX0) (View.ld x1 rW0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- The table window's current buffer holds its block of 1024 rows at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weight window is fetched once, at the first point; its block index never moves, so its buffer holds the
    whole weight at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The one store is of the whole block, so it covers the buffer. -/
theorem cover0_2 (p0 : Vec F S1024x128 .bf16) (y : S1024x128.Idx) :
    ∃ pc ∈ ([⟨rX0, p0⟩] : List (View.Piece (Elt F) S1024x128 .bf16)), y ∈ pc.1.set :=
  View.cover_of_tiled [⟨rX0, p0⟩] S1024x128.size (by rfl) y

set_option maxHeartbeats 1000000 in
/-- The kernel body on whole staging memrefs: it reads the table block and the weight, reads the output buffer (the
    value is not used) and stores the product over the whole output buffer. -/
theorem sound_kernel0 (c : Dev nD) (E : Set ℕ) (i : grid0.Coords)
    (arg0 : Memref sig .tc .vmem S1024x128 .f32) (harg0 : arg0.IsWhole)
    (arg1 : Memref sig .tc .vmem S128x128 .f32) (harg1 : arg1.IsWhole)
    (arg2 : Memref sig .tc .vmem S1024x128 .bf16) (harg2 : arg2.IsWhole)
    (x0 : Vec F S1024x128 .f32) (x1 : Vec F S128x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  show (Pipeline.ΦA spec0 c : sProp 𝕄) ⊢ Pipeline.ΦA spec0 c
  exact Entails.refl _

theorem hout0 (c : Dev nD) : (dat0 V c).Φ (Fin.last cfg0.N) ⊢ (Pipeline.ΦA spec0 c : sProp 𝕄) := by
  show (Pipeline.ΦA spec0 c : sProp 𝕄) ⊢ Pipeline.ΦA spec0 c
  exact Entails.refl _

end Cert.Kernel.Hand

end
-- ==== Proof.KAgg1.lean ====
import proofs.«424741_j64287070486608_2_alg».proof.Proof.Gen.Kernel.Launch
import proofs.«424741_j64287070486608_2_alg».proof.Proof.Gen.Kernel.Skeleton
import proofs.«424741_j64287070486608_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the first aggregation, the dense adjacency times the table, five column tiles per row tile -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two conditions of the body, over the grid -/

/-- The first `scf.if`: the column tile is the first one (the accumulator is reset). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)

/-- The second `scf.if`: the column tile is the last one (the output block is stored). -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last column tile the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S1024x128 .f32 := Memref.whole cc1_scratch0

/-- The scoped rest split at the accumulator; every other scoped buffer stays unopened. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc1_scratch0), ((c : Thread nD τ).loc cc1_scratch0) ↦{fullShare} f)
          ∗ Pipeline.scopedRestBut (Ix := Ix) (Name := Name) (U := U) (Lvl := Lvl) (Val := Val) spec1 c [cc1_scratch0]) :=
  Pipeline.scopedRest_split_of_list spec1 c [cc1_scratch0] (by decide) (by decide)

/-- The remainder of the scoped rest, which the body never touches. -/
abbrev restBut1 (c : Dev nD) : sProp 𝕄 :=
  Pipeline.scopedRestBut (Ix := Unit) (Name := ℕ) (U := UR sig nD τ) (Lvl := ℕ) (Val := Elt F) spec1 c [cc1_scratch0]

/-- The class-A invariant with the accumulator as a memref owned at some contents. -/
theorem PhiA1_eq (c : Dev nD) :
    (Pipeline.ΦA spec1 c : sProp 𝕄)
      = iprop(iprop((∃ d, owns (c : Thread nD τ) scM1_0 fullShare d) ∗ restBut1 (F := F) c) ∗ (∃ r, prngReg c r)) := by
  unfold Pipeline.ΦA; rw [scopedRest1_split]; simp only [scM1_0, owns_whole]; try rfl

theorem zeros1_2 : (![0, 0] : Fin 2 → ℕ) = fun _ => 0 := by
  funext a; fin_cases a <;> rfl

/-- A load of a whole buffer (the unit rectangle at zero offsets over the buffer's own sizes) reads its contents. -/
theorem readAt_whole1 {S : Shape} {e : EltTy} (v : View sig .tc .vmem S e) (f : v.ty.Contents (Elt F)) {off : Fin S.rank → ℕ}
    (h : off = fun _ => 0) (inb : ∀ a, off a + S.size a ≤ S.size a) :
    View.readAt (Elt F) v (Rect.unit off S.size inb).toLoadRect f = v.read (Elt F) f :=
  View.ld_unit_zero h inb (v.read (Elt F) f)

/-- After a store of a whole buffer, whatever was stored before, the buffer reads the stored value. -/
theorem read_writes_whole1 {S : Shape} {e : EltTy} (v : View sig .tc .vmem S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

set_option maxHeartbeats 1000000 in
/-- The first column tile: the accumulator is reset to zeros, then gains the product; the output block is left as it was. -/
theorem sound_kernel1_A (c : Dev nD) (E : Set ℕ) (i : grid1.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hcA : cond1_0 i) (hcB : ¬cond1_1 i)
    (xa : Vec F S1024x2048 .bf16) (xb : Vec F S2048x128 .bf16) (xc : Vec F S1x128 .f32) (xo : Vec F S1024x128 .f32)
    (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare xo ∗ (∃ d, owns (c : Thread nD τ) arg6 fullShare d)
        ∗ (iprop(owns (c : Thread nD τ) arg2 fullShare xa ∗ owns (c : Thread nD τ) arg3 fullShare xb ∗ owns (c : Thread nD τ) arg4 fullShare xc
            ∗ owns (c : Thread nD τ) arg5 fullShare xo ∗ owns (c : Thread nD τ) arg6 fullShare (k1_pay2 (k1_pay1 (F := F)) xa xb)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%fa, %hfa, Ha⟩, ⟨%fb, %hfb, Hb⟩, ⟨%fc, %hfc, Hc⟩, ⟨%fo, %hfo, Ho⟩, ⟨%ds, %fs, -, Hs⟩, Hk⟩
  subst hfa; subst hfb; subst hfc; subst hfo
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists fo; isplitr; · ipureintro; rfl
    iexact Ho
  iexists _; isplitr
  swap; · iexact Hs
  ipureintro
  refine (read_writes_whole1 _ _ zeros1_2 _ _ _).trans ?_
  unfold sound_kernel1_A.sl.v3 sound_kernel1_A.sl.Hs_1
  rw [View.readCov_unit_zero _ zeros1_2, readAt_whole1 _ _ zeros1_2, readAt_whole1 _ _ zeros1_2]

set_option maxHeartbeats 1000000 in
/-- A middle column tile: the accumulator gains the product of the two blocks; the output block is left as it was. -/
theorem sound_kernel1_B (c : Dev nD) (E : Set ℕ) (i : grid1.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hcA : ¬cond1_0 i) (hcB : ¬cond1_1 i)
    (xa : Vec F S1024x2048 .bf16) (xb : Vec F S2048x128 .bf16) (xc : Vec F S1x128 .f32) (xo : Vec F S1024x128 .f32) (xs : Vec F S1024x128 .f32)
    (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare xo ∗ owns (c : Thread nD τ) arg6 fullShare xs
        ∗ (iprop(owns (c : Thread nD τ) arg2 fullShare xa ∗ owns (c : Thread nD τ) arg3 fullShare xb ∗ owns (c : Thread nD τ) arg4 fullShare xc
            ∗ owns (c : Thread nD τ) arg5 fullShare xo ∗ owns (c : Thread nD τ) arg6 fullShare (k1_pay2 xs xa xb)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%fa, %hfa, Ha⟩, ⟨%fb, %hfb, Hb⟩, ⟨%fc, %hfc, Hc⟩, ⟨%fo, %hfo, Ho⟩, ⟨%fs, %hfs, Hs⟩, Hk⟩
  subst hfa; subst hfb; subst hfc; subst hfo; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists fo; isplitr; · ipureintro; rfl
    iexact Ho
  iexists _; isplitr
  swap; · iexact Hs
  ipureintro
  refine (read_writes_whole1 _ _ zeros1_2 _ _ _).trans ?_
  rw [readAt_whole1 _ _ zeros1_2, readAt_whole1 _ _ zeros1_2, readAt_whole1 _ _ zeros1_2]

set_option maxHeartbeats 1000000 in
/-- The last column tile: the accumulator gains the product, and the output block becomes the accumulator plus the bias row. -/
theorem sound_kernel1_C (c : Dev nD) (E : Set ℕ) (i : grid1.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hcA : ¬cond1_0 i) (hcB : cond1_1 i)
    (xa : Vec F S1024x2048 .bf16) (xb : Vec F S2048x128 .bf16) (xc : Vec F S1x128 .f32) (xs : Vec F S1024x128 .f32)
    (K : PUnit → sProp 𝕄) :
    iprop(owns (c : Thread nD τ) arg2 fullShare xa ∗ owns (c : Thread nD τ) arg3 fullShare xb ∗ owns (c : Thread nD τ) arg4 fullShare xc
        ∗ (∃ d, owns (c : Thread nD τ) arg5 fullShare d) ∗ owns (c : Thread nD τ) arg6 fullShare xs
        ∗ (iprop(owns (c : Thread nD τ) arg2 fullShare xa ∗ owns (c : Thread nD τ) arg3 fullShare xb ∗ owns (c : Thread nD τ) arg4 fullShare xc
            ∗ owns (c : Thread nD τ) arg5 fullShare (k1_pay3 (k1_pay2 xs xa xb) xc) ∗ owns (c : Thread nD τ) arg6 fullShare (k1_pay2 xs xa xb)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%fa, %hfa, Ha⟩, ⟨%fb, %hfb, Hb⟩, ⟨%fc, %hfc, Hc⟩, ⟨%dO, %fo, -, Ho⟩, ⟨%fs, %hfs, Hs⟩, Hk⟩
  subst hfa; subst hfb; subst hfc; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    refine (read_writes_whole1 _ _ zeros1_2 _ _ _).trans ?_
    unfold sound_kernel1_C.sl.v16 sound_kernel1_C.sl.Hs_1
    rw [View.readCov_unit_zero _ zeros1_2, readAt_whole1 _ _ zeros1_2, readAt_whole1 _ _ zeros1_2, readAt_whole1 _ _ zeros1_2, readAt_whole1 _ _ zeros1_2]
  iexists _; isplitr
  swap; · iexact Hs
  ipureintro
  unfold sound_kernel1_C.sl.Hs_1
  refine (read_writes_whole1 _ _ zeros1_2 _ _ _).trans ?_
  rw [readAt_whole1 _ _ zeros1_2, readAt_whole1 _ _ zeros1_2, readAt_whole1 _ _ zeros1_2]

/-! ## Each input's staging buffer holds its block, fetched at the point or kept from an earlier one -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- What the accumulator holds after the body at position `n`: at the first column tile of a row tile the product of the
    point's two blocks added to zeros, afterwards added to what the point before left. -/
def accAt1 (c : Dev nD) : (n : ℕ) → n < cfg1.N → Vec F S1024x128 .f32
  | 0, hn => k1_pay2 (k1_pay1 (F := F)) (iblk1 V c 0 ⟨0, hn⟩) (iblk1 V c 1 ⟨0, hn⟩)
  | n + 1, hn =>
    if (n + 1) % 5 = 0 then k1_pay2 (k1_pay1 (F := F)) (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

theorem accAt1_reset (c : Dev nD) (t : Fin cfg1.N) (hA : t.val % 5 = 0) :
    accAt1 V c t.val t.isLt = k1_pay2 (k1_pay1 (F := F)) (iblk1 V c 0 t) (iblk1 V c 1 t) := by
  obtain ⟨n, hn⟩ := t
  cases n with
  | zero => exact rfl
  | succ n => exact (if_pos hA).trans rfl

theorem accAt1_step (c : Dev nD) (t : Fin cfg1.N) (hA : ¬t.val % 5 = 0) :
    accAt1 V c t.val t.isLt
      = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) hA
  | succ n => exact (if_neg hA).trans rfl

/-- What the output block holds after the body at a last column tile: the accumulator plus the bias row. -/
def outAt1 (c : Dev nD) (t : Fin cfg1.N) : Vec F S1024x128 .f32 :=
  k1_pay3 (accAt1 V c t.val t.isLt) (iblk1 V c 2 t)

/-! ## The invariant: the accumulator at what the point before left -/

def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (accAt1 V c n hn) ∗ restBut1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (accAt1 V c (n - 1) (by omega)) ∗ restBut1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point, by the position of its column tile: the first (the accumulator reset, whatever it held), a middle
    one, the last (the output block stored); the invariant hands the accumulator over at what the point before left and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  by_cases hA : t.val % 5 = 0
  · have hB : ¬t.val % 5 = 4 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t (fun h => hB ((hcond1_1 t).mp h))) (noFlush1_3 t (fun h => hB ((hcond1_1 t).mp h)))]
    rw [accAt1_reset V c t hA]
    by_cases hz : t.val = 0
    · rw [PhiS1_castSucc V c t, PhiS1_zero V c _ _ hz, PhiA1_eq]
      iintro ⟨⟨⟨HS, Hr⟩, Hg⟩, Ho, ⟨%da, Ha⟩, ⟨%db, Hb⟩, ⟨%dc, Hc⟩, ⟨%dd, Hd⟩⟩
      iapply (sound_kernel1_A c Set.univ (grid1.coords t) _ _ _ _ _ _ _ _ _ _ ((hcond1_0 t).mpr hA) (fun h => hB ((hcond1_1 t).mp h))
        (iblk1 V c 0 t) (iblk1 V c 1 t) (iblk1 V c 2 t) ((dat1 V c).before 3 t dd) _)
      isplitl [Ha]; · iexact Ha
      isplitl [Hb]; · iexact Hb
      isplitl [Hc]; · iexact Hc
      isplitl [Hd]; · iexact Hd
      isplitl [HS]; · iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexists dd; iexact Hd
    · rw [PhiS1_castSucc V c t, PhiS1_pos V c _ _ hz]
      iintro ⟨⟨⟨HS, Hr⟩, Hg⟩, Ho, ⟨%da, Ha⟩, ⟨%db, Hb⟩, ⟨%dc, Hc⟩, ⟨%dd, Hd⟩⟩
      iapply (sound_kernel1_A c Set.univ (grid1.coords t) _ _ _ _ _ _ _ _ _ _ ((hcond1_0 t).mpr hA) (fun h => hB ((hcond1_1 t).mp h))
        (iblk1 V c 0 t) (iblk1 V c 1 t) (iblk1 V c 2 t) ((dat1 V c).before 3 t dd) _)
      isplitl [Ha]; · iexact Ha
      isplitl [Hb]; · iexact Hb
      isplitl [Hc]; · iexact Hc
      isplitl [Hd]; · iexact Hd
      isplitl [HS]; · iexists _; iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexists dd; iexact Hd
  · have hz : t.val ≠ 0 := fun h => hA (by rw [h])
    by_cases hB : t.val % 5 = 4
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr hB)], after1_3]
      unfold outAt1
      rw [accAt1_step V c t hA]
      rw [PhiS1_castSucc V c t, PhiS1_pos V c _ _ hz]
      iintro ⟨⟨⟨HS, Hr⟩, Hg⟩, Ho, ⟨%da, Ha⟩, ⟨%db, Hb⟩, ⟨%dc, Hc⟩, ⟨%dd, Hd⟩⟩
      iapply (sound_kernel1_C c Set.univ (grid1.coords t) _ _ _ _ _ _ _ _ _ _ (fun h => hA ((hcond1_0 t).mp h)) ((hcond1_1 t).mpr hB)
        (iblk1 V c 0 t) (iblk1 V c 1 t) (iblk1 V c 2 t) _ _)
      isplitl [Ha]; · iexact Ha
      isplitl [Hb]; · iexact Hb
      isplitl [Hc]; · iexact Hc
      isplitl [Hd]; · iexists _; iexact Hd
      isplitl [HS]; · iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexact Hd
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => hB ((hcond1_1 t).mp h))) (noFlush1_3 t (fun h => hB ((hcond1_1 t).mp h)))]
      rw [accAt1_step V c t hA]
      rw [PhiS1_castSucc V c t, PhiS1_pos V c _ _ hz]
      iintro ⟨⟨⟨HS, Hr⟩, Hg⟩, Ho, ⟨%da, Ha⟩, ⟨%db, Hb⟩, ⟨%dc, Hc⟩, ⟨%dd, Hd⟩⟩
      iapply (sound_kernel1_B c Set.univ (grid1.coords t) _ _ _ _ _ _ _ _ _ _ (fun h => hA ((hcond1_0 t).mp h)) (fun h => hB ((hcond1_1 t).mp h))
        (iblk1 V c 0 t) (iblk1 V c 1 t) (iblk1 V c 2 t) ((dat1 V c).before 3 t dd) _ _)
      isplitl [Ha]; · iexact Ha
      isplitl [Hb]; · iexact Hb
      isplitl [Hc]; · iexact Hc
      isplitl [Hd]; · iexact Hd
      isplitl [HS]; · iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexists dd; iexact Hd

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class-A invariant back: what the accumulator holds is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS, Hr⟩, Hg⟩
  isplitl [HS Hr]
  · isplitl [HS]; · iexists _; iexact HS
    iexact Hr
  iexact Hg

theorem hout1 (c : Dev nD) : (dat1 V c).Φ (Fin.last cfg1.N) ⊢ (Pipeline.ΦA spec1 c : sProp 𝕄) :=
  Phi_out1 V c _ (by rw [Fin.val_last]; have : cfg1.N = 50 := N_1; omega)

end Cert.Kernel.Hand

end
-- ==== Proof.KLin2.lean ====
import proofs.«424741_j64287070486608_2_alg».proof.Proof.Gen.Kernel.Launch
import proofs.«424741_j64287070486608_2_alg».proof.Proof.Gen.Kernel.Skeleton
import proofs.«424741_j64287070486608_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the first linear layer, one block of 1024 rows per grid point -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S1024x128 := Rect.unit (s := S1024x128) ![0, 0] S1024x128.size inb_S1024x128_S1024x128_0_0
abbrev rW2 : Rect S128x128 := Rect.unit (s := S128x128) ![0, 0] S128x128.size inb_S128x128_S128x128_0_0

/-- The output block after the body: its one whole-block store of the product of the two input blocks. -/
def out2_2 (x0 : Vec F S1024x128 .f32) (x1 : Vec F S128x128 .f32) : Vec F S1024x128 .bf16 :=
  View.canon [⟨rX2, k2_pay1 (View.ld x0 rX2) (View.ld x1 rW2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- The table window's current buffer holds its block of 1024 rows at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The weight window is fetched once, at the first point; its block index never moves, so its buffer holds the
    whole weight at every point. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- The one store is of the whole block, so it covers the buffer. -/
theorem cover2_2 (p0 : Vec F S1024x128 .bf16) (y : S1024x128.Idx) :
    ∃ pc ∈ ([⟨rX2, p0⟩] : List (View.Piece (Elt F) S1024x128 .bf16)), y ∈ pc.1.set :=
  View.cover_of_tiled [⟨rX2, p0⟩] S1024x128.size (by rfl) y

set_option maxHeartbeats 1000000 in
/-- The kernel body on whole staging memrefs: it reads the table block and the weight, reads the output buffer (the
    value is not used) and stores the product over the whole output buffer. -/
theorem sound_kernel2 (c : Dev nD) (E : Set ℕ) (i : grid2.Coords)
    (arg0 : Memref sig .tc .vmem S1024x128 .f32) (harg0 : arg0.IsWhole)
    (arg1 : Memref sig .tc .vmem S128x128 .f32) (harg1 : arg1.IsWhole)
    (arg2 : Memref sig .tc .vmem S1024x128 .bf16) (harg2 : arg2.IsWhole)
    (x0 : Vec F S1024x128 .f32) (x1 : Vec F S128x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  show (Pipeline.ΦA spec2 c : sProp 𝕄) ⊢ Pipeline.ΦA spec2 c
  exact Entails.refl _

theorem hout2 (c : Dev nD) : (dat2 V c).Φ (Fin.last cfg2.N) ⊢ (Pipeline.ΦA spec2 c : sProp 𝕄) := by
  show (Pipeline.ΦA spec2 c : sProp 𝕄) ⊢ Pipeline.ΦA spec2 c
  exact Entails.refl _

end Cert.Kernel.Hand

end
-- ==== Proof.KAgg3.lean ====
import proofs.«424741_j64287070486608_2_alg».proof.Proof.Gen.Kernel.Launch
import proofs.«424741_j64287070486608_2_alg».proof.Proof.Gen.Kernel.Skeleton
import proofs.«424741_j64287070486608_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the first aggregation, the dense adjacency times the table, five column tiles per row tile -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The two conditions of the body, over the grid -/

/-- The first `scf.if`: the column tile is the first one (the accumulator is reset). -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 5 = 0 :=
  (by decide +kernel : ∀ t : Fin grid3.N, cond3_0 (grid3.coords t) ↔ t.val % 5 = 0)

/-- The second `scf.if`: the column tile is the last one (the output block is stored). -/
abbrev cond3_1 (i : grid3.Coords) : Prop := k3_cond2 i = 1#1
theorem hcond3_1 : ∀ t : Fin cfg3.N, cond3_1 (grid3.coords t) ↔ t.val % 5 = 4 :=
  (by decide +kernel : ∀ t : Fin grid3.N, cond3_1 (grid3.coords t) ↔ t.val % 5 = 4)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last column tile the output window is idle and is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The memrefs the body is called with -/

abbrev ms3_0 (t : Fin cfg3.N) : Memref sig .tc .vmem S1024x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x128 .f32 := win3_3.stage (cfg3.slots t 3)
abbrev hs3_3 (t : Fin cfg3.N) : (ms3_3 t).IsWhole := hstage3_3 ((cfg3.slots t 3).cast nbuf3_3)
/-- The accumulator: a whole scoped buffer of the kernel's own, carried from point to point. -/
abbrev scM3_0 : Memref sig .tc .vmem S1024x128 .f32 := Memref.whole cc3_scratch0

/-- The scoped rest split at the accumulator; every other scoped buffer stays unopened. -/
theorem scopedRest3_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop((∃ f : Buf Val ((c : Thread nD τ).loc cc3_scratch0), ((c : Thread nD τ).loc cc3_scratch0) ↦{fullShare} f)
          ∗ Pipeline.scopedRestBut (Ix := Ix) (Name := Name) (U := U) (Lvl := Lvl) (Val := Val) spec3 c [cc3_scratch0]) :=
  Pipeline.scopedRest_split_of_list spec3 c [cc3_scratch0] (by decide) (by decide)

/-- The remainder of the scoped rest, which the body never touches. -/
abbrev restBut3 (c : Dev nD) : sProp 𝕄 :=
  Pipeline.scopedRestBut (Ix := Unit) (Name := ℕ) (U := UR sig nD τ) (Lvl := ℕ) (Val := Elt F) spec3 c [cc3_scratch0]

/-- The class-A invariant with the accumulator as a memref owned at some contents. -/
theorem PhiA3_eq (c : Dev nD) :
    (Pipeline.ΦA spec3 c : sProp 𝕄)
      = iprop(iprop((∃ d, owns (c : Thread nD τ) scM3_0 fullShare d) ∗ restBut3 (F := F) c) ∗ (∃ r, prngReg c r)) := by
  unfold Pipeline.ΦA; rw [scopedRest3_split]; simp only [scM3_0, owns_whole]; try rfl

theorem zeros3_2 : (![0, 0] : Fin 2 → ℕ) = fun _ => 0 := by
  funext a; fin_cases a <;> rfl

/-- A load of a whole buffer (the unit rectangle at zero offsets over the buffer's own sizes) reads its contents. -/
theorem readAt_whole3 {S : Shape} {e : EltTy} (v : View sig .tc .vmem S e) (f : v.ty.Contents (Elt F)) {off : Fin S.rank → ℕ}
    (h : off = fun _ => 0) (inb : ∀ a, off a + S.size a ≤ S.size a) :
    View.readAt (Elt F) v (Rect.unit off S.size inb).toLoadRect f = v.read (Elt F) f :=
  View.ld_unit_zero h inb (v.read (Elt F) f)

/-- After a store of a whole buffer, whatever was stored before, the buffer reads the stored value. -/
theorem read_writes_whole3 {S : Shape} {e : EltTy} (v : View sig .tc .vmem S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

set_option maxHeartbeats 1000000 in
/-- The first column tile: the accumulator is reset to zeros, then gains the product; the output block is left as it was. -/
theorem sound_kernel3_A (c : Dev nD) (E : Set ℕ) (i : grid3.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hcA : cond3_0 i) (hcB : ¬cond3_1 i)
    (xa : Vec F S1024x2048 .bf16) (xb : Vec F S2048x128 .bf16) (xc : Vec F S1x128 .f32) (xo : Vec F S1024x128 .f32)
    (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare xo ∗ (∃ d, owns (c : Thread nD τ) arg6 fullShare d)
        ∗ (iprop(owns (c : Thread nD τ) arg2 fullShare xa ∗ owns (c : Thread nD τ) arg3 fullShare xb ∗ owns (c : Thread nD τ) arg4 fullShare xc
            ∗ owns (c : Thread nD τ) arg5 fullShare xo ∗ owns (c : Thread nD τ) arg6 fullShare (k3_pay2 (k3_pay1 (F := F)) xa xb)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%fa, %hfa, Ha⟩, ⟨%fb, %hfb, Hb⟩, ⟨%fc, %hfc, Hc⟩, ⟨%fo, %hfo, Ho⟩, ⟨%ds, %fs, -, Hs⟩, Hk⟩
  subst hfa; subst hfb; subst hfc; subst hfo
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists fo; isplitr; · ipureintro; rfl
    iexact Ho
  iexists _; isplitr
  swap; · iexact Hs
  ipureintro
  refine (read_writes_whole3 _ _ zeros3_2 _ _ _).trans ?_
  unfold sound_kernel3_A.sl.v3 sound_kernel3_A.sl.Hs_1
  rw [View.readCov_unit_zero _ zeros3_2, readAt_whole3 _ _ zeros3_2, readAt_whole3 _ _ zeros3_2]

set_option maxHeartbeats 1000000 in
/-- A middle column tile: the accumulator gains the product of the two blocks; the output block is left as it was. -/
theorem sound_kernel3_B (c : Dev nD) (E : Set ℕ) (i : grid3.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hcA : ¬cond3_0 i) (hcB : ¬cond3_1 i)
    (xa : Vec F S1024x2048 .bf16) (xb : Vec F S2048x128 .bf16) (xc : Vec F S1x128 .f32) (xo : Vec F S1024x128 .f32) (xs : Vec F S1024x128 .f32)
    (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare xo ∗ owns (c : Thread nD τ) arg6 fullShare xs
        ∗ (iprop(owns (c : Thread nD τ) arg2 fullShare xa ∗ owns (c : Thread nD τ) arg3 fullShare xb ∗ owns (c : Thread nD τ) arg4 fullShare xc
            ∗ owns (c : Thread nD τ) arg5 fullShare xo ∗ owns (c : Thread nD τ) arg6 fullShare (k3_pay2 xs xa xb)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%fa, %hfa, Ha⟩, ⟨%fb, %hfb, Hb⟩, ⟨%fc, %hfc, Hc⟩, ⟨%fo, %hfo, Ho⟩, ⟨%fs, %hfs, Hs⟩, Hk⟩
  subst hfa; subst hfb; subst hfc; subst hfo; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists fo; isplitr; · ipureintro; rfl
    iexact Ho
  iexists _; isplitr
  swap; · iexact Hs
  ipureintro
  refine (read_writes_whole3 _ _ zeros3_2 _ _ _).trans ?_
  rw [readAt_whole3 _ _ zeros3_2, readAt_whole3 _ _ zeros3_2, readAt_whole3 _ _ zeros3_2]

set_option maxHeartbeats 1000000 in
/-- The last column tile: the accumulator gains the product, and the output block becomes the accumulator plus the bias row. -/
theorem sound_kernel3_C (c : Dev nD) (E : Set ℕ) (i : grid3.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hcA : ¬cond3_0 i) (hcB : cond3_1 i)
    (xa : Vec F S1024x2048 .bf16) (xb : Vec F S2048x128 .bf16) (xc : Vec F S1x128 .f32) (xs : Vec F S1024x128 .f32)
    (K : PUnit → sProp 𝕄) :
    iprop(owns (c : Thread nD τ) arg2 fullShare xa ∗ owns (c : Thread nD τ) arg3 fullShare xb ∗ owns (c : Thread nD τ) arg4 fullShare xc
        ∗ (∃ d, owns (c : Thread nD τ) arg5 fullShare d) ∗ owns (c : Thread nD τ) arg6 fullShare xs
        ∗ (iprop(owns (c : Thread nD τ) arg2 fullShare xa ∗ owns (c : Thread nD τ) arg3 fullShare xb ∗ owns (c : Thread nD τ) arg4 fullShare xc
            ∗ owns (c : Thread nD τ) arg5 fullShare (k3_pay3 (k3_pay2 xs xa xb) xc) ∗ owns (c : Thread nD τ) arg6 fullShare (k3_pay2 xs xa xb)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%fa, %hfa, Ha⟩, ⟨%fb, %hfb, Hb⟩, ⟨%fc, %hfc, Hc⟩, ⟨%dO, %fo, -, Ho⟩, ⟨%fs, %hfs, Hs⟩, Hk⟩
  subst hfa; subst hfb; subst hfc; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    refine (read_writes_whole3 _ _ zeros3_2 _ _ _).trans ?_
    unfold sound_kernel3_C.sl.v16 sound_kernel3_C.sl.Hs_1
    rw [View.readCov_unit_zero _ zeros3_2, readAt_whole3 _ _ zeros3_2, readAt_whole3 _ _ zeros3_2, readAt_whole3 _ _ zeros3_2, readAt_whole3 _ _ zeros3_2]
  iexists _; isplitr
  swap; · iexact Hs
  ipureintro
  unfold sound_kernel3_C.sl.Hs_1
  refine (read_writes_whole3 _ _ zeros3_2 _ _ _).trans ?_
  rw [readAt_whole3 _ _ zeros3_2, readAt_whole3 _ _ zeros3_2, readAt_whole3 _ _ zeros3_2]

/-! ## Each input's staging buffer holds its block, fetched at the point or kept from an earlier one -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator, point by point -/

/-- What the accumulator holds after the body at position `n`: at the first column tile of a row tile the product of the
    point's two blocks added to zeros, afterwards added to what the point before left. -/
def accAt3 (c : Dev nD) : (n : ℕ) → n < cfg3.N → Vec F S1024x128 .f32
  | 0, hn => k3_pay2 (k3_pay1 (F := F)) (iblk3 V c 0 ⟨0, hn⟩) (iblk3 V c 1 ⟨0, hn⟩)
  | n + 1, hn =>
    if (n + 1) % 5 = 0 then k3_pay2 (k3_pay1 (F := F)) (iblk3 V c 0 ⟨n + 1, hn⟩) (iblk3 V c 1 ⟨n + 1, hn⟩)
    else k3_pay2 (accAt3 c n (Nat.lt_of_succ_lt hn)) (iblk3 V c 0 ⟨n + 1, hn⟩) (iblk3 V c 1 ⟨n + 1, hn⟩)

theorem accAt3_reset (c : Dev nD) (t : Fin cfg3.N) (hA : t.val % 5 = 0) :
    accAt3 V c t.val t.isLt = k3_pay2 (k3_pay1 (F := F)) (iblk3 V c 0 t) (iblk3 V c 1 t) := by
  obtain ⟨n, hn⟩ := t
  cases n with
  | zero => exact rfl
  | succ n => exact (if_pos hA).trans rfl

theorem accAt3_step (c : Dev nD) (t : Fin cfg3.N) (hA : ¬t.val % 5 = 0) :
    accAt3 V c t.val t.isLt
      = k3_pay2 (accAt3 V c (t.val - 1) (Nat.lt_of_le_of_lt (Nat.sub_le _ _) t.isLt)) (iblk3 V c 0 t) (iblk3 V c 1 t) := by
  obtain ⟨n, hn⟩ := t
  cases n with
  | zero => exact absurd (Nat.zero_mod _) hA
  | succ n => exact (if_neg hA).trans rfl

/-- What the output block holds after the body at a last column tile: the accumulator plus the bias row. -/
def outAt3 (c : Dev nD) (t : Fin cfg3.N) : Vec F S1024x128 .f32 :=
  k3_pay3 (accAt3 V c t.val t.isLt) (iblk3 V c 2 t)

/-! ## The invariant: the accumulator at what the point before left -/

def PhiS3 (c : Dev nD) : (n : ℕ) → n ≤ cfg3.N → sProp 𝕄
  | 0, _ => Pipeline.ΦA spec3 c
  | n + 1, hn => iprop(iprop(owns (c : Thread nD τ) scM3_0 fullShare (accAt3 V c n hn) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (accAt3 V c n hn) ∗ restBut3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (accAt3 V c (n - 1) (by omega)) ∗ restBut3 (F := F) c) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point, by the position of its column tile: the first (the accumulator reset, whatever it held), a middle
    one, the last (the output block stored); the invariant hands the accumulator over at what the point before left and
    takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 50 := lt_of_lt_of_eq t.isLt (show cfg3.N = 50 from N_3)
  by_cases hA : t.val % 5 = 0
  · have hB : ¬t.val % 5 = 4 := by omega
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [show (dat3 V c).leavesExact 2 t = owns (c : Thread nD τ) (ms3_2 t) fullShare ((dat3 V c).after 2 t) from by
      unfold Dat.leavesExact; rw [liveAt3_2 t], after3_2]
    rw [Dat.leavesExact_idle (dat3 V c) 3 t (idleAt3_3 t (fun h => hB ((hcond3_1 t).mp h))) (noFlush3_3 t (fun h => hB ((hcond3_1 t).mp h)))]
    rw [accAt3_reset V c t hA]
    by_cases hz : t.val = 0
    · rw [PhiS3_castSucc V c t, PhiS3_zero V c _ _ hz, PhiA3_eq]
      iintro ⟨⟨⟨HS, Hr⟩, Hg⟩, Ho, ⟨%da, Ha⟩, ⟨%db, Hb⟩, ⟨%dc, Hc⟩, ⟨%dd, Hd⟩⟩
      iapply (sound_kernel3_A c Set.univ (grid3.coords t) _ _ _ _ _ _ _ _ _ _ ((hcond3_0 t).mpr hA) (fun h => hB ((hcond3_1 t).mp h))
        (iblk3 V c 0 t) (iblk3 V c 1 t) (iblk3 V c 2 t) ((dat3 V c).before 3 t dd) _)
      isplitl [Ha]; · iexact Ha
      isplitl [Hb]; · iexact Hb
      isplitl [Hc]; · iexact Hc
      isplitl [Hd]; · iexact Hd
      isplitl [HS]; · iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexists dd; iexact Hd
    · rw [PhiS3_castSucc V c t, PhiS3_pos V c _ _ hz]
      iintro ⟨⟨⟨HS, Hr⟩, Hg⟩, Ho, ⟨%da, Ha⟩, ⟨%db, Hb⟩, ⟨%dc, Hc⟩, ⟨%dd, Hd⟩⟩
      iapply (sound_kernel3_A c Set.univ (grid3.coords t) _ _ _ _ _ _ _ _ _ _ ((hcond3_0 t).mpr hA) (fun h => hB ((hcond3_1 t).mp h))
        (iblk3 V c 0 t) (iblk3 V c 1 t) (iblk3 V c 2 t) ((dat3 V c).before 3 t dd) _)
      isplitl [Ha]; · iexact Ha
      isplitl [Hb]; · iexact Hb
      isplitl [Hc]; · iexact Hc
      isplitl [Hd]; · iexact Hd
      isplitl [HS]; · iexists _; iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexists dd; iexact Hd
  · have hz : t.val ≠ 0 := fun h => hA (by rw [h])
    by_cases hB : t.val % 5 = 4
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t ((hcond3_1 t).mpr hB)], after3_3]
      unfold outAt3
      rw [accAt3_step V c t hA]
      rw [PhiS3_castSucc V c t, PhiS3_pos V c _ _ hz]
      iintro ⟨⟨⟨HS, Hr⟩, Hg⟩, Ho, ⟨%da, Ha⟩, ⟨%db, Hb⟩, ⟨%dc, Hc⟩, ⟨%dd, Hd⟩⟩
      iapply (sound_kernel3_C c Set.univ (grid3.coords t) _ _ _ _ _ _ _ _ _ _ (fun h => hA ((hcond3_0 t).mp h)) ((hcond3_1 t).mpr hB)
        (iblk3 V c 0 t) (iblk3 V c 1 t) (iblk3 V c 2 t) _ _)
      isplitl [Ha]; · iexact Ha
      isplitl [Hb]; · iexact Hb
      isplitl [Hc]; · iexact Hc
      isplitl [Hd]; · iexists _; iexact Hd
      isplitl [HS]; · iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexact Hd
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => hB ((hcond3_1 t).mp h))) (noFlush3_3 t (fun h => hB ((hcond3_1 t).mp h)))]
      rw [accAt3_step V c t hA]
      rw [PhiS3_castSucc V c t, PhiS3_pos V c _ _ hz]
      iintro ⟨⟨⟨HS, Hr⟩, Hg⟩, Ho, ⟨%da, Ha⟩, ⟨%db, Hb⟩, ⟨%dc, Hc⟩, ⟨%dd, Hd⟩⟩
      iapply (sound_kernel3_B c Set.univ (grid3.coords t) _ _ _ _ _ _ _ _ _ _ (fun h => hA ((hcond3_0 t).mp h)) (fun h => hB ((hcond3_1 t).mp h))
        (iblk3 V c 0 t) (iblk3 V c 1 t) (iblk3 V c 2 t) ((dat3 V c).before 3 t dd) _ _)
      isplitl [Ha]; · iexact Ha
      isplitl [Hb]; · iexact Hb
      isplitl [Hc]; · iexact Hc
      isplitl [Hd]; · iexact Hd
      isplitl [HS]; · iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexists dd; iexact Hd

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class-A invariant back: what the accumulator holds is forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS, Hr⟩, Hg⟩
  isplitl [HS Hr]
  · isplitl [HS]; · iexists _; iexact HS
    iexact Hr
  iexact Hg

theorem hout3 (c : Dev nD) : (dat3 V c).Φ (Fin.last cfg3.N) ⊢ (Pipeline.ΦA spec3 c : sProp 𝕄) :=
  Phi_out3 V c _ (by rw [Fin.val_last]; have : cfg3.N = 50 := N_3; omega)

end Cert.Kernel.Hand

end
-- ==== Proof.KRun.lean ====
import proofs.«424741_j64287070486608_2_alg».proof.Proof.Gen.Kernel.Regions
import proofs.«424741_j64287070486608_2_alg».proof.Proof.Gen.Kernel.Launch
import proofs.«424741_j64287070486608_2_alg».proof.Proof.Gen.Kernel.Skeleton
import proofs.«424741_j64287070486608_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«424741_j64287070486608_2_alg».proof.Proof.KLin0
import proofs.«424741_j64287070486608_2_alg».proof.Proof.KAgg1
import proofs.«424741_j64287070486608_2_alg».proof.Proof.KLin2
import proofs.«424741_j64287070486608_2_alg».proof.Proof.KAgg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: four host stretches, then four regions each followed by a host stretch

## The buffer contents at each of the thirteen boundaries, a fold from the launch memory

A host stretch maps the contents through its operations (`StableHlo.after`); a region leaves its windows' arrays at
what its write-backs fold to (`Dat.arrAt … N`) and every other buffer as it found it (`Pipeline.withArrays`). -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- A reference `hostOps0` does not write holds after it what it held before. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After `hostOps0_1`. -/
abbrev W2 : Dev nD → Valuation τ sig (Elt F) := fun c => StableHlo.after hostOps0_1 (W1 m ρ c)
/-- The same read at the TensorCore's references. -/
abbrev V2 : (c : Dev nD) → (b : Ref sig .tc) → Buf (Elt F) ((c : Thread nD τ).loc b) := fun c b => W2 m ρ c b
/-- A reference `hostOps0_1` does not write holds after it what it held before. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- After `hostOps0_2`. -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b
/-- A reference `hostOps0_2` does not write holds after it what it held before. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

/-- After `hostOps0_3`: the contents region 0 is entered from. -/
abbrev W4 : Dev nD → Valuation τ sig (Elt F) := fun c => StableHlo.after hostOps0_3 (W3 m ρ c)
/-- The same read at the TensorCore's references. -/
abbrev V4 : (c : Dev nD) → (b : Ref sig .tc) → Buf (Elt F) ((c : Thread nD τ).loc b) := fun c b => W4 m ρ c b
/-- A reference `hostOps0_3` does not write holds after it what it held before. -/
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

/-- At region 0's exit (the first linear layer): its arrays at what the pipeline leaves — the inputs as entered, the output's
    write-backs folded —, every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
/-- The same read at the TensorCore's references. -/
abbrev V5 : (c : Dev nD) → (b : Ref sig .tc) → Buf (Elt F) ((c : Thread nD τ).loc b) := fun c b => W5 m ρ c b
/-- At region 0's exit each of its arrays holds what the pipeline leaves (`hF0`) and every other buffer what it held at
    entry (`hrest0`). -/
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After `hostOps1`: the contents region 1 is entered from. -/
abbrev W6 : Dev nD → Valuation τ sig (Elt F) := fun c => StableHlo.after hostOps1 (W5 m ρ c)
/-- The same read at the TensorCore's references. -/
abbrev V6 : (c : Dev nD) → (b : Ref sig .tc) → Buf (Elt F) ((c : Thread nD τ).loc b) := fun c b => W6 m ρ c b
/-- A reference `hostOps1` does not write holds after it what it held before. -/
theorem W6_of (c : Dev nD) (r : Ref sig .tc) (h : r ∉ hostOps1_W) :
    W6 m ρ c (Proc.devRef .tc r) = W5 m ρ c (Proc.devRef .tc r) :=
  StableHlo.after_of_writes_sub hostOps1 _ hostOps1_writes h

/-- At region 1's exit (the first aggregation): its arrays at what the pipeline leaves — the inputs as entered, the output's
    write-backs folded —, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references. -/
abbrev V7 : (c : Dev nD) → (b : Ref sig .tc) → Buf (Elt F) ((c : Thread nD τ).loc b) := fun c b => W7 m ρ c b
/-- At region 1's exit each of its arrays holds what the pipeline leaves (`hF1`) and every other buffer what it held at
    entry (`hrest1`). -/
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After `hostOps2`: the contents region 2 is entered from. -/
abbrev W8 : Dev nD → Valuation τ sig (Elt F) := fun c => StableHlo.after hostOps2 (W7 m ρ c)
/-- The same read at the TensorCore's references. -/
abbrev V8 : (c : Dev nD) → (b : Ref sig .tc) → Buf (Elt F) ((c : Thread nD τ).loc b) := fun c b => W8 m ρ c b
/-- A reference `hostOps2` does not write holds after it what it held before. -/
theorem W8_of (c : Dev nD) (r : Ref sig .tc) (h : r ∉ hostOps2_W) :
    W8 m ρ c (Proc.devRef .tc r) = W7 m ρ c (Proc.devRef .tc r) :=
  StableHlo.after_of_writes_sub hostOps2 _ hostOps2_writes h

/-- At region 2's exit (the second linear layer): its arrays at what the pipeline leaves — the inputs as entered, the output's
    write-backs folded —, every other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
/-- The same read at the TensorCore's references. -/
abbrev V9 : (c : Dev nD) → (b : Ref sig .tc) → Buf (Elt F) ((c : Thread nD τ).loc b) := fun c b => W9 m ρ c b
/-- At region 2's exit each of its arrays holds what the pipeline leaves (`hF2`) and every other buffer what it held at
    entry (`hrest2`). -/
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After `hostOps3`: the contents region 3 is entered from. -/
abbrev W10 : Dev nD → Valuation τ sig (Elt F) := fun c => StableHlo.after hostOps3 (W9 m ρ c)
/-- The same read at the TensorCore's references. -/
abbrev V10 : (c : Dev nD) → (b : Ref sig .tc) → Buf (Elt F) ((c : Thread nD τ).loc b) := fun c b => W10 m ρ c b
/-- A reference `hostOps3` does not write holds after it what it held before. -/
theorem W10_of (c : Dev nD) (r : Ref sig .tc) (h : r ∉ hostOps3_W) :
    W10 m ρ c (Proc.devRef .tc r) = W9 m ρ c (Proc.devRef .tc r) :=
  StableHlo.after_of_writes_sub hostOps3 _ hostOps3_writes h

/-- At region 3's exit (the second aggregation): its arrays at what the pipeline leaves — the inputs as entered, the output's
    write-backs folded —, every other buffer as entered. -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
/-- The same read at the TensorCore's references. -/
abbrev V11 : (c : Dev nD) → (b : Ref sig .tc) → Buf (Elt F) ((c : Thread nD τ).loc b) := fun c b => W11 m ρ c b
/-- At region 3's exit each of its arrays holds what the pipeline leaves (`hF3`) and every other buffer what it held at
    entry (`hrest3`). -/
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)

/-- After `hostOps4`: the contents at the return. -/
abbrev W12 : Dev nD → Valuation τ sig (Elt F) := fun c => StableHlo.after hostOps4 (W11 m ρ c)
/-- The same read at the TensorCore's references. -/
abbrev V12 : (c : Dev nD) → (b : Ref sig .tc) → Buf (Elt F) ((c : Thread nD τ).loc b) := fun c b => W12 m ρ c b
/-- A reference `hostOps4` does not write holds after it what it held before. -/
theorem W12_of (c : Dev nD) (r : Ref sig .tc) (h : r ∉ hostOps4_W) :
    W12 m ρ c (Proc.devRef .tc r) = W11 m ρ c (Proc.devRef .tc r) :=
  StableHlo.after_of_writes_sub hostOps4 _ hostOps4_writes h

/-! ### The arguments end as launched: no host stretch writes one, and a region either bypasses it or reads it through
    an input window, whose array the pipeline leaves as entered -/

/-- `main_arg0` reaches the return as launched. -/
theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of m ρ c main_arg0 (by decide)
    _ = W10 m ρ c (Proc.devRef .tc main_arg0) := W11_of_ne m ρ c main_arg0 (by decide)
    _ = W9 m ρ c (Proc.devRef .tc main_arg0) := W10_of m ρ c main_arg0 (by decide)
    _ = W8 m ρ c (Proc.devRef .tc main_arg0) := W9_of_ne m ρ c main_arg0 (by decide)
    _ = W7 m ρ c (Proc.devRef .tc main_arg0) := W8_of m ρ c main_arg0 (by decide)
    _ = W6 m ρ c (Proc.devRef .tc main_arg0) := W7_of_ne m ρ c main_arg0 (by decide)
    _ = W5 m ρ c (Proc.devRef .tc main_arg0) := W6_of m ρ c main_arg0 (by decide)
    _ = W4 m ρ c (Proc.devRef .tc main_arg0) := W5_of_ne m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl

/-- `main_arg1` reaches the return as launched. -/
theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of m ρ c main_arg1 (by decide)
    _ = W10 m ρ c (Proc.devRef .tc main_arg1) := W11_of_ne m ρ c main_arg1 (by decide)
    _ = W9 m ρ c (Proc.devRef .tc main_arg1) := W10_of m ρ c main_arg1 (by decide)
    _ = W8 m ρ c (Proc.devRef .tc main_arg1) := W9_of_ne m ρ c main_arg1 (by decide)
    _ = W7 m ρ c (Proc.devRef .tc main_arg1) := W8_of m ρ c main_arg1 (by decide)
    _ = W6 m ρ c (Proc.devRef .tc main_arg1) := W7_of_ne m ρ c main_arg1 (by decide)
    _ = W5 m ρ c (Proc.devRef .tc main_arg1) := W6_of m ρ c main_arg1 (by decide)
    _ = W4 m ρ c (Proc.devRef .tc main_arg1) := W5_of_ne m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl

/-- `main_arg2` reaches the return as launched. -/
theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of m ρ c main_arg2 (by decide)
    _ = W10 m ρ c (Proc.devRef .tc main_arg2) := W11_of_ne m ρ c main_arg2 (by decide)
    _ = W9 m ρ c (Proc.devRef .tc main_arg2) := W10_of m ρ c main_arg2 (by decide)
    _ = W8 m ρ c (Proc.devRef .tc main_arg2) := W9_of_ne m ρ c main_arg2 (by decide)
    _ = W7 m ρ c (Proc.devRef .tc main_arg2) := W8_of m ρ c main_arg2 (by decide)
    _ = W6 m ρ c (Proc.devRef .tc main_arg2) := W7_of_ne m ρ c main_arg2 (by decide)
    _ = W5 m ρ c (Proc.devRef .tc main_arg2) := W6_of m ρ c main_arg2 (by decide)
    _ = W4 m ρ c (Proc.devRef .tc main_arg2) := (W5_arr m ρ c 1).trans (((dat0 (V4 m ρ) c).arrAt_in 1 rfl _).trans (A_eq0 (V4 m ρ) c 1))
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl

/-- `main_arg3` reaches the return as launched. -/
theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of m ρ c main_arg3 (by decide)
    _ = W10 m ρ c (Proc.devRef .tc main_arg3) := W11_of_ne m ρ c main_arg3 (by decide)
    _ = W9 m ρ c (Proc.devRef .tc main_arg3) := W10_of m ρ c main_arg3 (by decide)
    _ = W8 m ρ c (Proc.devRef .tc main_arg3) := W9_of_ne m ρ c main_arg3 (by decide)
    _ = W7 m ρ c (Proc.devRef .tc main_arg3) := W8_of m ρ c main_arg3 (by decide)
    _ = W6 m ρ c (Proc.devRef .tc main_arg3) := W7_of_ne m ρ c main_arg3 (by decide)
    _ = W5 m ρ c (Proc.devRef .tc main_arg3) := W6_of m ρ c main_arg3 (by decide)
    _ = W4 m ρ c (Proc.devRef .tc main_arg3) := W5_of_ne m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl

/-- `main_arg4` reaches the return as launched. -/
theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of m ρ c main_arg4 (by decide)
    _ = W10 m ρ c (Proc.devRef .tc main_arg4) := W11_of_ne m ρ c main_arg4 (by decide)
    _ = W9 m ρ c (Proc.devRef .tc main_arg4) := W10_of m ρ c main_arg4 (by decide)
    _ = W8 m ρ c (Proc.devRef .tc main_arg4) := (W9_arr m ρ c 1).trans (((dat2 (V8 m ρ) c).arrAt_in 1 rfl _).trans (A_eq2 (V8 m ρ) c 1))
    _ = W7 m ρ c (Proc.devRef .tc main_arg4) := W8_of m ρ c main_arg4 (by decide)
    _ = W6 m ρ c (Proc.devRef .tc main_arg4) := W7_of_ne m ρ c main_arg4 (by decide)
    _ = W5 m ρ c (Proc.devRef .tc main_arg4) := W6_of m ρ c main_arg4 (by decide)
    _ = W4 m ρ c (Proc.devRef .tc main_arg4) := W5_of_ne m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl

/-- `main_arg5` reaches the return as launched. -/
theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of m ρ c main_arg5 (by decide)
    _ = W10 m ρ c (Proc.devRef .tc main_arg5) := W11_of_ne m ρ c main_arg5 (by decide)
    _ = W9 m ρ c (Proc.devRef .tc main_arg5) := W10_of m ρ c main_arg5 (by decide)
    _ = W8 m ρ c (Proc.devRef .tc main_arg5) := W9_of_ne m ρ c main_arg5 (by decide)
    _ = W7 m ρ c (Proc.devRef .tc main_arg5) := W8_of m ρ c main_arg5 (by decide)
    _ = W6 m ρ c (Proc.devRef .tc main_arg5) := W7_of_ne m ρ c main_arg5 (by decide)
    _ = W5 m ρ c (Proc.devRef .tc main_arg5) := W6_of m ρ c main_arg5 (by decide)
    _ = W4 m ρ c (Proc.devRef .tc main_arg5) := W5_of_ne m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
  | ⟨2, _⟩ => fun c => dat2 (V8 m ρ) c
  | ⟨3, _⟩ => fun c => dat3 (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the contents at the return, the generator register at
    some state. -/
abbrev Tₙ (c : Dev nD) : sProp 𝕄 := iprop(StableHlo.held (c : Thread nD τ) (Pipeline.ucRefs τ sig) (W12 m ρ c) ∗ ∃ r, prngReg c r)

/-! ## The regions as segments -/

-- the library's lemmas are stated over the pinned configuration `pin pcs a p`: matching them against the printed one
-- takes unfolding plain definitions inside types
set_option backward.isDefEq.respectTransparency.types false in
/-- REGION 0 (the first linear layer) over the thread state: entered from every unscoped buffer at `W4`, left at `W5`. Its arrays
    split out of the unscoped buffers and put back at the exit contents; the generator register and the scoped rest into
    the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun w => A_eq0 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V4 m ρ) c)
    unfold Pipeline.ΦA
    iintro ⟨Hp, -, Hr⟩
    isplitl [Hr]; · iexact Hr
    iexact Hp
  hout c := by
    rw [Pipeline.ownSems0_none]
    refine BIBase.Entails.trans (hout0 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`: matching them against the printed one
-- takes unfolding plain definitions inside types
set_option backward.isDefEq.respectTransparency.types false in
/-- REGION 1 (the first aggregation) over the thread state: entered from every unscoped buffer at `W6`, left at `W7`. Its arrays
    split out of the unscoped buffers and put back at the exit contents; the generator register and the scoped rest into
    the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun w => A_eq1 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V6 m ρ) c)
    unfold Pipeline.ΦA
    iintro ⟨Hp, -, Hr⟩
    isplitl [Hr]; · iexact Hr
    iexact Hp
  hout c := by
    rw [Pipeline.ownSems0_none]
    refine BIBase.Entails.trans (hout1 (V6 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`: matching them against the printed one
-- takes unfolding plain definitions inside types
set_option backward.isDefEq.respectTransparency.types false in
/-- REGION 2 (the second linear layer) over the thread state: entered from every unscoped buffer at `W8`, left at `W9`. Its arrays
    split out of the unscoped buffers and put back at the exit contents; the generator register and the scoped rest into
    the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun w => A_eq2 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V8 m ρ) c)
    unfold Pipeline.ΦA
    iintro ⟨Hp, -, Hr⟩
    isplitl [Hr]; · iexact Hr
    iexact Hp
  hout c := by
    rw [Pipeline.ownSems0_none]
    refine BIBase.Entails.trans (hout2 (V8 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`: matching them against the printed one
-- takes unfolding plain definitions inside types
set_option backward.isDefEq.respectTransparency.types false in
/-- REGION 3 (the second aggregation) over the thread state: entered from every unscoped buffer at `W10`, left at `W11`. Its arrays
    split out of the unscoped buffers and put back at the exit contents; the generator register and the scoped rest into
    the region's invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun w => A_eq3 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V10 m ρ) c)
    unfold Pipeline.ΦA
    iintro ⟨Hp, -, Hr⟩
    isplitl [Hr]; · iexact Hr
    iexact Hp
  hout c := by
    rw [Pipeline.ownSems0_none]
    refine BIBase.Entails.trans (hout3 (V10 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's twelve segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .region (reg1 m ρ),
    .host (hseg hostOps2 hostOps2_sub hostOps2_fresh (W7 m ρ)),
    .region (reg2 m ρ),
    .host (hseg hostOps3 hostOps3_sub hostOps3_fresh (W9 m ρ)),
    .region (reg3 m ρ),
    .host (hseg hostOps4 hostOps4_sub hostOps4_fresh (W11 m ρ)) ]

-- the launch theorem's implicit arguments are read off this statement, which takes unfolding plain definitions inside types
set_option backward.isDefEq.respectTransparency.types false in
/-- THE RUN: from any memory with zero counters, every weakly fair execution of @main on the TensorCores terminates, nothing
    faulting, and every final state holds each unscoped buffer of each core at the fold's last contents `W12`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W12 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- THE FRAME: every argument array ends holding its launch contents, each read off `W12` back through the fold. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c)⟩) (run_all m ρ)

end Cert.Kernel.Hand

end
-- ==== Proof.Lin0.lean ====
import proofs.«424741_j64287070486608_2_alg».proof.Proof.Gen.KernelIdeal.Launch
import proofs.«424741_j64287070486608_2_alg».proof.Proof.Gen.KernelIdeal.Skeleton
import proofs.«424741_j64287070486608_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the first linear layer, one block of 1024 rows per grid point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S1024x128 := Rect.unit (s := S1024x128) ![0, 0] S1024x128.size inb_S1024x128_S1024x128_0_0
abbrev rW0 : Rect S128x128 := Rect.unit (s := S128x128) ![0, 0] S128x128.size inb_S128x128_S128x128_0_0

/-- The output block after the body: its one whole-block store of the product of the two input blocks. -/
def out0_2 (x0 : Vec F S1024x128 .f32) (x1 : Vec F S128x128 .f32) : Vec F S1024x128 .bf16 :=
  View.canon [⟨rX0, k0_pay1 (View.ld x0 rX0) (View.ld x1 rW0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- The table window's current buffer holds its block of 1024 rows at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weight window is fetched once, at the first point; its block index never moves, so its buffer holds the
    whole weight at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The one store is of the whole block, so it covers the buffer. -/
theorem cover0_2 (p0 : Vec F S1024x128 .bf16) (y : S1024x128.Idx) :
    ∃ pc ∈ ([⟨rX0, p0⟩] : List (View.Piece (Elt F) S1024x128 .bf16)), y ∈ pc.1.set :=
  View.cover_of_tiled [⟨rX0, p0⟩] S1024x128.size (by rfl) y

set_option maxHeartbeats 1000000 in
/-- The kernel body on whole staging memrefs: it reads the table block and the weight, reads the output buffer (the
    value is not used) and stores the product over the whole output buffer. -/
theorem sound_kernel0 (c : Dev nD) (E : Set ℕ) (i : grid0.Coords)
    (arg0 : Memref sig .tc .vmem S1024x128 .f32) (harg0 : arg0.IsWhole)
    (arg1 : Memref sig .tc .vmem S128x128 .f32) (harg1 : arg1.IsWhole)
    (arg2 : Memref sig .tc .vmem S1024x128 .bf16) (harg2 : arg2.IsWhole)
    (x0 : Vec F S1024x128 .f32) (x1 : Vec F S128x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  show (Pipeline.ΦA spec0 c : sProp 𝕄) ⊢ Pipeline.ΦA spec0 c
  exact Entails.refl _

theorem hout0 (c : Dev nD) : (dat0 V c).Φ (Fin.last cfg0.N) ⊢ (Pipeline.ΦA spec0 c : sProp 𝕄) := by
  show (Pipeline.ΦA spec0 c : sProp 𝕄) ⊢ Pipeline.ΦA spec0 c
  exact Entails.refl _

end Cert.KernelIdeal.Hand

end
-- ==== Proof.Agg1.lean ====
import proofs.«424741_j64287070486608_2_alg».proof.Proof.Gen.KernelIdeal.Launch
import proofs.«424741_j64287070486608_2_alg».proof.Proof.Gen.KernelIdeal.Skeleton
import proofs.«424741_j64287070486608_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the first aggregation, the dense adjacency times the table, five column tiles per row tile -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two conditions of the body, over the grid -/

/-- The first `scf.if`: the column tile is the first one (the accumulator is reset). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)

/-- The second `scf.if`: the column tile is the last one (the output block is stored). -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last column tile the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S1024x128 .f32 := Memref.whole cc1_scratch0

/-- The scoped rest split at the accumulator; every other scoped buffer stays unopened. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc1_scratch0), ((c : Thread nD τ).loc cc1_scratch0) ↦{fullShare} f)
          ∗ Pipeline.scopedRestBut (Ix := Ix) (Name := Name) (U := U) (Lvl := Lvl) (Val := Val) spec1 c [cc1_scratch0]) :=
  Pipeline.scopedRest_split_of_list spec1 c [cc1_scratch0] (by decide) (by decide)

/-- The remainder of the scoped rest, which the body never touches. -/
abbrev restBut1 (c : Dev nD) : sProp 𝕄 :=
  Pipeline.scopedRestBut (Ix := Unit) (Name := ℕ) (U := UR sig nD τ) (Lvl := ℕ) (Val := Elt F) spec1 c [cc1_scratch0]

/-- The class-A invariant with the accumulator as a memref owned at some contents. -/
theorem PhiA1_eq (c : Dev nD) :
    (Pipeline.ΦA spec1 c : sProp 𝕄)
      = iprop(iprop((∃ d, owns (c : Thread nD τ) scM1_0 fullShare d) ∗ restBut1 (F := F) c) ∗ (∃ r, prngReg c r)) := by
  unfold Pipeline.ΦA; rw [scopedRest1_split]; simp only [scM1_0, owns_whole]; try rfl

theorem zeros1_2 : (![0, 0] : Fin 2 → ℕ) = fun _ => 0 := by
  funext a; fin_cases a <;> rfl

/-- A load of a whole buffer (the unit rectangle at zero offsets over the buffer's own sizes) reads its contents. -/
theorem readAt_whole1 {S : Shape} {e : EltTy} (v : View sig .tc .vmem S e) (f : v.ty.Contents (Elt F)) {off : Fin S.rank → ℕ}
    (h : off = fun _ => 0) (inb : ∀ a, off a + S.size a ≤ S.size a) :
    View.readAt (Elt F) v (Rect.unit off S.size inb).toLoadRect f = v.read (Elt F) f :=
  View.ld_unit_zero h inb (v.read (Elt F) f)

/-- After a store of a whole buffer, whatever was stored before, the buffer reads the stored value. -/
theorem read_writes_whole1 {S : Shape} {e : EltTy} (v : View sig .tc .vmem S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

set_option maxHeartbeats 1000000 in
/-- The first column tile: the accumulator is reset to zeros, then gains the product; the output block is left as it was. -/
theorem sound_kernel1_A (c : Dev nD) (E : Set ℕ) (i : grid1.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hcA : cond1_0 i) (hcB : ¬cond1_1 i)
    (xa : Vec F S1024x2048 .bf16) (xb : Vec F S2048x128 .bf16) (xc : Vec F S1x128 .f32) (xo : Vec F S1024x128 .f32)
    (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare xo ∗ (∃ d, owns (c : Thread nD τ) arg6 fullShare d)
        ∗ (iprop(owns (c : Thread nD τ) arg2 fullShare xa ∗ owns (c : Thread nD τ) arg3 fullShare xb ∗ owns (c : Thread nD τ) arg4 fullShare xc
            ∗ owns (c : Thread nD τ) arg5 fullShare xo ∗ owns (c : Thread nD τ) arg6 fullShare (k1_pay2 (k1_pay1 (F := F)) xa xb)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%fa, %hfa, Ha⟩, ⟨%fb, %hfb, Hb⟩, ⟨%fc, %hfc, Hc⟩, ⟨%fo, %hfo, Ho⟩, ⟨%ds, %fs, -, Hs⟩, Hk⟩
  subst hfa; subst hfb; subst hfc; subst hfo
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists fo; isplitr; · ipureintro; rfl
    iexact Ho
  iexists _; isplitr
  swap; · iexact Hs
  ipureintro
  refine (read_writes_whole1 _ _ zeros1_2 _ _ _).trans ?_
  unfold sound_kernel1_A.sl.v3 sound_kernel1_A.sl.Hs_1
  rw [View.readCov_unit_zero _ zeros1_2, readAt_whole1 _ _ zeros1_2, readAt_whole1 _ _ zeros1_2]

set_option maxHeartbeats 1000000 in
/-- A middle column tile: the accumulator gains the product of the two blocks; the output block is left as it was. -/
theorem sound_kernel1_B (c : Dev nD) (E : Set ℕ) (i : grid1.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hcA : ¬cond1_0 i) (hcB : ¬cond1_1 i)
    (xa : Vec F S1024x2048 .bf16) (xb : Vec F S2048x128 .bf16) (xc : Vec F S1x128 .f32) (xo : Vec F S1024x128 .f32) (xs : Vec F S1024x128 .f32)
    (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare xo ∗ owns (c : Thread nD τ) arg6 fullShare xs
        ∗ (iprop(owns (c : Thread nD τ) arg2 fullShare xa ∗ owns (c : Thread nD τ) arg3 fullShare xb ∗ owns (c : Thread nD τ) arg4 fullShare xc
            ∗ owns (c : Thread nD τ) arg5 fullShare xo ∗ owns (c : Thread nD τ) arg6 fullShare (k1_pay2 xs xa xb)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%fa, %hfa, Ha⟩, ⟨%fb, %hfb, Hb⟩, ⟨%fc, %hfc, Hc⟩, ⟨%fo, %hfo, Ho⟩, ⟨%fs, %hfs, Hs⟩, Hk⟩
  subst hfa; subst hfb; subst hfc; subst hfo; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists fo; isplitr; · ipureintro; rfl
    iexact Ho
  iexists _; isplitr
  swap; · iexact Hs
  ipureintro
  refine (read_writes_whole1 _ _ zeros1_2 _ _ _).trans ?_
  rw [readAt_whole1 _ _ zeros1_2, readAt_whole1 _ _ zeros1_2, readAt_whole1 _ _ zeros1_2]

set_option maxHeartbeats 1000000 in
/-- The last column tile: the accumulator gains the product, and the output block becomes the accumulator plus the bias row. -/
theorem sound_kernel1_C (c : Dev nD) (E : Set ℕ) (i : grid1.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hcA : ¬cond1_0 i) (hcB : cond1_1 i)
    (xa : Vec F S1024x2048 .bf16) (xb : Vec F S2048x128 .bf16) (xc : Vec F S1x128 .f32) (xs : Vec F S1024x128 .f32)
    (K : PUnit → sProp 𝕄) :
    iprop(owns (c : Thread nD τ) arg2 fullShare xa ∗ owns (c : Thread nD τ) arg3 fullShare xb ∗ owns (c : Thread nD τ) arg4 fullShare xc
        ∗ (∃ d, owns (c : Thread nD τ) arg5 fullShare d) ∗ owns (c : Thread nD τ) arg6 fullShare xs
        ∗ (iprop(owns (c : Thread nD τ) arg2 fullShare xa ∗ owns (c : Thread nD τ) arg3 fullShare xb ∗ owns (c : Thread nD τ) arg4 fullShare xc
            ∗ owns (c : Thread nD τ) arg5 fullShare (k1_pay3 (k1_pay2 xs xa xb) xc) ∗ owns (c : Thread nD τ) arg6 fullShare (k1_pay2 xs xa xb)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%fa, %hfa, Ha⟩, ⟨%fb, %hfb, Hb⟩, ⟨%fc, %hfc, Hc⟩, ⟨%dO, %fo, -, Ho⟩, ⟨%fs, %hfs, Hs⟩, Hk⟩
  subst hfa; subst hfb; subst hfc; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    refine (read_writes_whole1 _ _ zeros1_2 _ _ _).trans ?_
    unfold sound_kernel1_C.sl.v16 sound_kernel1_C.sl.Hs_1
    rw [View.readCov_unit_zero _ zeros1_2, readAt_whole1 _ _ zeros1_2, readAt_whole1 _ _ zeros1_2, readAt_whole1 _ _ zeros1_2, readAt_whole1 _ _ zeros1_2]
  iexists _; isplitr
  swap; · iexact Hs
  ipureintro
  unfold sound_kernel1_C.sl.Hs_1
  refine (read_writes_whole1 _ _ zeros1_2 _ _ _).trans ?_
  rw [readAt_whole1 _ _ zeros1_2, readAt_whole1 _ _ zeros1_2, readAt_whole1 _ _ zeros1_2]

/-! ## Each input's staging buffer holds its block, fetched at the point or kept from an earlier one -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- What the accumulator holds after the body at position `n`: at the first column tile of a row tile the product of the
    point's two blocks added to zeros, afterwards added to what the point before left. -/
def accAt1 (c : Dev nD) : (n : ℕ) → n < cfg1.N → Vec F S1024x128 .f32
  | 0, hn => k1_pay2 (k1_pay1 (F := F)) (iblk1 V c 0 ⟨0, hn⟩) (iblk1 V c 1 ⟨0, hn⟩)
  | n + 1, hn =>
    if (n + 1) % 5 = 0 then k1_pay2 (k1_pay1 (F := F)) (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

theorem accAt1_reset (c : Dev nD) (t : Fin cfg1.N) (hA : t.val % 5 = 0) :
    accAt1 V c t.val t.isLt = k1_pay2 (k1_pay1 (F := F)) (iblk1 V c 0 t) (iblk1 V c 1 t) := by
  obtain ⟨n, hn⟩ := t
  cases n with
  | zero => exact rfl
  | succ n => exact (if_pos hA).trans rfl

theorem accAt1_step (c : Dev nD) (t : Fin cfg1.N) (hA : ¬t.val % 5 = 0) :
    accAt1 V c t.val t.isLt
      = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) hA
  | succ n => exact (if_neg hA).trans rfl

/-- What the output block holds after the body at a last column tile: the accumulator plus the bias row. -/
def outAt1 (c : Dev nD) (t : Fin cfg1.N) : Vec F S1024x128 .f32 :=
  k1_pay3 (accAt1 V c t.val t.isLt) (iblk1 V c 2 t)

/-! ## The invariant: the accumulator at what the point before left -/

def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (accAt1 V c n hn) ∗ restBut1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (accAt1 V c (n - 1) (by omega)) ∗ restBut1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point, by the position of its column tile: the first (the accumulator reset, whatever it held), a middle
    one, the last (the output block stored); the invariant hands the accumulator over at what the point before left and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  by_cases hA : t.val % 5 = 0
  · have hB : ¬t.val % 5 = 4 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t (fun h => hB ((hcond1_1 t).mp h))) (noFlush1_3 t (fun h => hB ((hcond1_1 t).mp h)))]
    rw [accAt1_reset V c t hA]
    by_cases hz : t.val = 0
    · rw [PhiS1_castSucc V c t, PhiS1_zero V c _ _ hz, PhiA1_eq]
      iintro ⟨⟨⟨HS, Hr⟩, Hg⟩, Ho, ⟨%da, Ha⟩, ⟨%db, Hb⟩, ⟨%dc, Hc⟩, ⟨%dd, Hd⟩⟩
      iapply (sound_kernel1_A c Set.univ (grid1.coords t) _ _ _ _ _ _ _ _ _ _ ((hcond1_0 t).mpr hA) (fun h => hB ((hcond1_1 t).mp h))
        (iblk1 V c 0 t) (iblk1 V c 1 t) (iblk1 V c 2 t) ((dat1 V c).before 3 t dd) _)
      isplitl [Ha]; · iexact Ha
      isplitl [Hb]; · iexact Hb
      isplitl [Hc]; · iexact Hc
      isplitl [Hd]; · iexact Hd
      isplitl [HS]; · iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexists dd; iexact Hd
    · rw [PhiS1_castSucc V c t, PhiS1_pos V c _ _ hz]
      iintro ⟨⟨⟨HS, Hr⟩, Hg⟩, Ho, ⟨%da, Ha⟩, ⟨%db, Hb⟩, ⟨%dc, Hc⟩, ⟨%dd, Hd⟩⟩
      iapply (sound_kernel1_A c Set.univ (grid1.coords t) _ _ _ _ _ _ _ _ _ _ ((hcond1_0 t).mpr hA) (fun h => hB ((hcond1_1 t).mp h))
        (iblk1 V c 0 t) (iblk1 V c 1 t) (iblk1 V c 2 t) ((dat1 V c).before 3 t dd) _)
      isplitl [Ha]; · iexact Ha
      isplitl [Hb]; · iexact Hb
      isplitl [Hc]; · iexact Hc
      isplitl [Hd]; · iexact Hd
      isplitl [HS]; · iexists _; iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexists dd; iexact Hd
  · have hz : t.val ≠ 0 := fun h => hA (by rw [h])
    by_cases hB : t.val % 5 = 4
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr hB)], after1_3]
      unfold outAt1
      rw [accAt1_step V c t hA]
      rw [PhiS1_castSucc V c t, PhiS1_pos V c _ _ hz]
      iintro ⟨⟨⟨HS, Hr⟩, Hg⟩, Ho, ⟨%da, Ha⟩, ⟨%db, Hb⟩, ⟨%dc, Hc⟩, ⟨%dd, Hd⟩⟩
      iapply (sound_kernel1_C c Set.univ (grid1.coords t) _ _ _ _ _ _ _ _ _ _ (fun h => hA ((hcond1_0 t).mp h)) ((hcond1_1 t).mpr hB)
        (iblk1 V c 0 t) (iblk1 V c 1 t) (iblk1 V c 2 t) _ _)
      isplitl [Ha]; · iexact Ha
      isplitl [Hb]; · iexact Hb
      isplitl [Hc]; · iexact Hc
      isplitl [Hd]; · iexists _; iexact Hd
      isplitl [HS]; · iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexact Hd
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => hB ((hcond1_1 t).mp h))) (noFlush1_3 t (fun h => hB ((hcond1_1 t).mp h)))]
      rw [accAt1_step V c t hA]
      rw [PhiS1_castSucc V c t, PhiS1_pos V c _ _ hz]
      iintro ⟨⟨⟨HS, Hr⟩, Hg⟩, Ho, ⟨%da, Ha⟩, ⟨%db, Hb⟩, ⟨%dc, Hc⟩, ⟨%dd, Hd⟩⟩
      iapply (sound_kernel1_B c Set.univ (grid1.coords t) _ _ _ _ _ _ _ _ _ _ (fun h => hA ((hcond1_0 t).mp h)) (fun h => hB ((hcond1_1 t).mp h))
        (iblk1 V c 0 t) (iblk1 V c 1 t) (iblk1 V c 2 t) ((dat1 V c).before 3 t dd) _ _)
      isplitl [Ha]; · iexact Ha
      isplitl [Hb]; · iexact Hb
      isplitl [Hc]; · iexact Hc
      isplitl [Hd]; · iexact Hd
      isplitl [HS]; · iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexists dd; iexact Hd

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class-A invariant back: what the accumulator holds is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS, Hr⟩, Hg⟩
  isplitl [HS Hr]
  · isplitl [HS]; · iexists _; iexact HS
    iexact Hr
  iexact Hg

theorem hout1 (c : Dev nD) : (dat1 V c).Φ (Fin.last cfg1.N) ⊢ (Pipeline.ΦA spec1 c : sProp 𝕄) :=
  Phi_out1 V c _ (by rw [Fin.val_last]; have : cfg1.N = 50 := N_1; omega)

end Cert.KernelIdeal.Hand

end
-- ==== Proof.Lin2.lean ====
import proofs.«424741_j64287070486608_2_alg».proof.Proof.Gen.KernelIdeal.Launch
import proofs.«424741_j64287070486608_2_alg».proof.Proof.Gen.KernelIdeal.Skeleton
import proofs.«424741_j64287070486608_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the first linear layer, one block of 1024 rows per grid point -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S1024x128 := Rect.unit (s := S1024x128) ![0, 0] S1024x128.size inb_S1024x128_S1024x128_0_0
abbrev rW2 : Rect S128x128 := Rect.unit (s := S128x128) ![0, 0] S128x128.size inb_S128x128_S128x128_0_0

/-- The output block after the body: its one whole-block store of the product of the two input blocks. -/
def out2_2 (x0 : Vec F S1024x128 .f32) (x1 : Vec F S128x128 .f32) : Vec F S1024x128 .bf16 :=
  View.canon [⟨rX2, k2_pay1 (View.ld x0 rX2) (View.ld x1 rW2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- The table window's current buffer holds its block of 1024 rows at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The weight window is fetched once, at the first point; its block index never moves, so its buffer holds the
    whole weight at every point. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- The one store is of the whole block, so it covers the buffer. -/
theorem cover2_2 (p0 : Vec F S1024x128 .bf16) (y : S1024x128.Idx) :
    ∃ pc ∈ ([⟨rX2, p0⟩] : List (View.Piece (Elt F) S1024x128 .bf16)), y ∈ pc.1.set :=
  View.cover_of_tiled [⟨rX2, p0⟩] S1024x128.size (by rfl) y

set_option maxHeartbeats 1000000 in
/-- The kernel body on whole staging memrefs: it reads the table block and the weight, reads the output buffer (the
    value is not used) and stores the product over the whole output buffer. -/
theorem sound_kernel2 (c : Dev nD) (E : Set ℕ) (i : grid2.Coords)
    (arg0 : Memref sig .tc .vmem S1024x128 .f32) (harg0 : arg0.IsWhole)
    (arg1 : Memref sig .tc .vmem S128x128 .f32) (harg1 : arg1.IsWhole)
    (arg2 : Memref sig .tc .vmem S1024x128 .bf16) (harg2 : arg2.IsWhole)
    (x0 : Vec F S1024x128 .f32) (x1 : Vec F S128x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  show (Pipeline.ΦA spec2 c : sProp 𝕄) ⊢ Pipeline.ΦA spec2 c
  exact Entails.refl _

theorem hout2 (c : Dev nD) : (dat2 V c).Φ (Fin.last cfg2.N) ⊢ (Pipeline.ΦA spec2 c : sProp 𝕄) := by
  show (Pipeline.ΦA spec2 c : sProp 𝕄) ⊢ Pipeline.ΦA spec2 c
  exact Entails.refl _

end Cert.KernelIdeal.Hand

end
-- ==== Proof.Agg3.lean ====
import proofs.«424741_j64287070486608_2_alg».proof.Proof.Gen.KernelIdeal.Launch
import proofs.«424741_j64287070486608_2_alg».proof.Proof.Gen.KernelIdeal.Skeleton
import proofs.«424741_j64287070486608_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the first aggregation, the dense adjacency times the table, five column tiles per row tile -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The two conditions of the body, over the grid -/

/-- The first `scf.if`: the column tile is the first one (the accumulator is reset). -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 5 = 0 :=
  (by decide +kernel : ∀ t : Fin grid3.N, cond3_0 (grid3.coords t) ↔ t.val % 5 = 0)

/-- The second `scf.if`: the column tile is the last one (the output block is stored). -/
abbrev cond3_1 (i : grid3.Coords) : Prop := k3_cond2 i = 1#1
theorem hcond3_1 : ∀ t : Fin cfg3.N, cond3_1 (grid3.coords t) ↔ t.val % 5 = 4 :=
  (by decide +kernel : ∀ t : Fin grid3.N, cond3_1 (grid3.coords t) ↔ t.val % 5 = 4)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last column tile the output window is idle and is not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem liveAt3_3 : ∀ t : Fin cfg3.N, cond3_1 (grid3.coords t) → cfg3.idle 3 (grid3.coords t) = false := by decide +kernel

/-! ## The memrefs the body is called with -/

abbrev ms3_0 (t : Fin cfg3.N) : Memref sig .tc .vmem S1024x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x128 .f32 := win3_3.stage (cfg3.slots t 3)
abbrev hs3_3 (t : Fin cfg3.N) : (ms3_3 t).IsWhole := hstage3_3 ((cfg3.slots t 3).cast nbuf3_3)
/-- The accumulator: a whole scoped buffer of the kernel's own, carried from point to point. -/
abbrev scM3_0 : Memref sig .tc .vmem S1024x128 .f32 := Memref.whole cc3_scratch0

/-- The scoped rest split at the accumulator; every other scoped buffer stays unopened. -/
theorem scopedRest3_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop((∃ f : Buf Val ((c : Thread nD τ).loc cc3_scratch0), ((c : Thread nD τ).loc cc3_scratch0) ↦{fullShare} f)
          ∗ Pipeline.scopedRestBut (Ix := Ix) (Name := Name) (U := U) (Lvl := Lvl) (Val := Val) spec3 c [cc3_scratch0]) :=
  Pipeline.scopedRest_split_of_list spec3 c [cc3_scratch0] (by decide) (by decide)

/-- The remainder of the scoped rest, which the body never touches. -/
abbrev restBut3 (c : Dev nD) : sProp 𝕄 :=
  Pipeline.scopedRestBut (Ix := Unit) (Name := ℕ) (U := UR sig nD τ) (Lvl := ℕ) (Val := Elt F) spec3 c [cc3_scratch0]

/-- The class-A invariant with the accumulator as a memref owned at some contents. -/
theorem PhiA3_eq (c : Dev nD) :
    (Pipeline.ΦA spec3 c : sProp 𝕄)
      = iprop(iprop((∃ d, owns (c : Thread nD τ) scM3_0 fullShare d) ∗ restBut3 (F := F) c) ∗ (∃ r, prngReg c r)) := by
  unfold Pipeline.ΦA; rw [scopedRest3_split]; simp only [scM3_0, owns_whole]; try rfl

theorem zeros3_2 : (![0, 0] : Fin 2 → ℕ) = fun _ => 0 := by
  funext a; fin_cases a <;> rfl

/-- A load of a whole buffer (the unit rectangle at zero offsets over the buffer's own sizes) reads its contents. -/
theorem readAt_whole3 {S : Shape} {e : EltTy} (v : View sig .tc .vmem S e) (f : v.ty.Contents (Elt F)) {off : Fin S.rank → ℕ}
    (h : off = fun _ => 0) (inb : ∀ a, off a + S.size a ≤ S.size a) :
    View.readAt (Elt F) v (Rect.unit off S.size inb).toLoadRect f = v.read (Elt F) f :=
  View.ld_unit_zero h inb (v.read (Elt F) f)

/-- After a store of a whole buffer, whatever was stored before, the buffer reads the stored value. -/
theorem read_writes_whole3 {S : Shape} {e : EltTy} (v : View sig .tc .vmem S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

set_option maxHeartbeats 1000000 in
/-- The first column tile: the accumulator is reset to zeros, then gains the product; the output block is left as it was. -/
theorem sound_kernel3_A (c : Dev nD) (E : Set ℕ) (i : grid3.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hcA : cond3_0 i) (hcB : ¬cond3_1 i)
    (xa : Vec F S1024x2048 .bf16) (xb : Vec F S2048x128 .bf16) (xc : Vec F S1x128 .f32) (xo : Vec F S1024x128 .f32)
    (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare xo ∗ (∃ d, owns (c : Thread nD τ) arg6 fullShare d)
        ∗ (iprop(owns (c : Thread nD τ) arg2 fullShare xa ∗ owns (c : Thread nD τ) arg3 fullShare xb ∗ owns (c : Thread nD τ) arg4 fullShare xc
            ∗ owns (c : Thread nD τ) arg5 fullShare xo ∗ owns (c : Thread nD τ) arg6 fullShare (k3_pay2 (k3_pay1 (F := F)) xa xb)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%fa, %hfa, Ha⟩, ⟨%fb, %hfb, Hb⟩, ⟨%fc, %hfc, Hc⟩, ⟨%fo, %hfo, Ho⟩, ⟨%ds, %fs, -, Hs⟩, Hk⟩
  subst hfa; subst hfb; subst hfc; subst hfo
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists fo; isplitr; · ipureintro; rfl
    iexact Ho
  iexists _; isplitr
  swap; · iexact Hs
  ipureintro
  refine (read_writes_whole3 _ _ zeros3_2 _ _ _).trans ?_
  unfold sound_kernel3_A.sl.v3 sound_kernel3_A.sl.Hs_1
  rw [View.readCov_unit_zero _ zeros3_2, readAt_whole3 _ _ zeros3_2, readAt_whole3 _ _ zeros3_2]

set_option maxHeartbeats 1000000 in
/-- A middle column tile: the accumulator gains the product of the two blocks; the output block is left as it was. -/
theorem sound_kernel3_B (c : Dev nD) (E : Set ℕ) (i : grid3.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hcA : ¬cond3_0 i) (hcB : ¬cond3_1 i)
    (xa : Vec F S1024x2048 .bf16) (xb : Vec F S2048x128 .bf16) (xc : Vec F S1x128 .f32) (xo : Vec F S1024x128 .f32) (xs : Vec F S1024x128 .f32)
    (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare xo ∗ owns (c : Thread nD τ) arg6 fullShare xs
        ∗ (iprop(owns (c : Thread nD τ) arg2 fullShare xa ∗ owns (c : Thread nD τ) arg3 fullShare xb ∗ owns (c : Thread nD τ) arg4 fullShare xc
            ∗ owns (c : Thread nD τ) arg5 fullShare xo ∗ owns (c : Thread nD τ) arg6 fullShare (k3_pay2 xs xa xb)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%fa, %hfa, Ha⟩, ⟨%fb, %hfb, Hb⟩, ⟨%fc, %hfc, Hc⟩, ⟨%fo, %hfo, Ho⟩, ⟨%fs, %hfs, Hs⟩, Hk⟩
  subst hfa; subst hfb; subst hfc; subst hfo; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists fo; isplitr; · ipureintro; rfl
    iexact Ho
  iexists _; isplitr
  swap; · iexact Hs
  ipureintro
  refine (read_writes_whole3 _ _ zeros3_2 _ _ _).trans ?_
  rw [readAt_whole3 _ _ zeros3_2, readAt_whole3 _ _ zeros3_2, readAt_whole3 _ _ zeros3_2]

set_option maxHeartbeats 1000000 in
/-- The last column tile: the accumulator gains the product, and the output block becomes the accumulator plus the bias row. -/
theorem sound_kernel3_C (c : Dev nD) (E : Set ℕ) (i : grid3.Coords)
    (arg2 : Memref sig .tc .vmem S1024x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hcA : ¬cond3_0 i) (hcB : cond3_1 i)
    (xa : Vec F S1024x2048 .bf16) (xb : Vec F S2048x128 .bf16) (xc : Vec F S1x128 .f32) (xs : Vec F S1024x128 .f32)
    (K : PUnit → sProp 𝕄) :
    iprop(owns (c : Thread nD τ) arg2 fullShare xa ∗ owns (c : Thread nD τ) arg3 fullShare xb ∗ owns (c : Thread nD τ) arg4 fullShare xc
        ∗ (∃ d, owns (c : Thread nD τ) arg5 fullShare d) ∗ owns (c : Thread nD τ) arg6 fullShare xs
        ∗ (iprop(owns (c : Thread nD τ) arg2 fullShare xa ∗ owns (c : Thread nD τ) arg3 fullShare xb ∗ owns (c : Thread nD τ) arg4 fullShare xc
            ∗ owns (c : Thread nD τ) arg5 fullShare (k3_pay3 (k3_pay2 xs xa xb) xc) ∗ owns (c : Thread nD τ) arg6 fullShare (k3_pay2 xs xa xb)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel
  unfold owns
  iintro ⟨⟨%fa, %hfa, Ha⟩, ⟨%fb, %hfb, Hb⟩, ⟨%fc, %hfc, Hc⟩, ⟨%dO, %fo, -, Ho⟩, ⟨%fs, %hfs, Hs⟩, Hk⟩
  subst hfa; subst hfb; subst hfc; subst hfs
  sl_exec (disch := first | exact hcA | exact hcB)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Ho]
  · iexists _; isplitr
    swap; · iexact Ho
    ipureintro
    refine (read_writes_whole3 _ _ zeros3_2 _ _ _).trans ?_
    unfold sound_kernel3_C.sl.v16 sound_kernel3_C.sl.Hs_1
    rw [View.readCov_unit_zero _ zeros3_2, readAt_whole3 _ _ zeros3_2, readAt_whole3 _ _ zeros3_2, readAt_whole3 _ _ zeros3_2, readAt_whole3 _ _ zeros3_2]
  iexists _; isplitr
  swap; · iexact Hs
  ipureintro
  unfold sound_kernel3_C.sl.Hs_1
  refine (read_writes_whole3 _ _ zeros3_2 _ _ _).trans ?_
  rw [readAt_whole3 _ _ zeros3_2, readAt_whole3 _ _ zeros3_2, readAt_whole3 _ _ zeros3_2]

/-! ## Each input's staging buffer holds its block, fetched at the point or kept from an earlier one -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator, point by point -/

/-- What the accumulator holds after the body at position `n`: at the first column tile of a row tile the product of the
    point's two blocks added to zeros, afterwards added to what the point before left. -/
def accAt3 (c : Dev nD) : (n : ℕ) → n < cfg3.N → Vec F S1024x128 .f32
  | 0, hn => k3_pay2 (k3_pay1 (F := F)) (iblk3 V c 0 ⟨0, hn⟩) (iblk3 V c 1 ⟨0, hn⟩)
  | n + 1, hn =>
    if (n + 1) % 5 = 0 then k3_pay2 (k3_pay1 (F := F)) (iblk3 V c 0 ⟨n + 1, hn⟩) (iblk3 V c 1 ⟨n + 1, hn⟩)
    else k3_pay2 (accAt3 c n (Nat.lt_of_succ_lt hn)) (iblk3 V c 0 ⟨n + 1, hn⟩) (iblk3 V c 1 ⟨n + 1, hn⟩)

theorem accAt3_reset (c : Dev nD) (t : Fin cfg3.N) (hA : t.val % 5 = 0) :
    accAt3 V c t.val t.isLt = k3_pay2 (k3_pay1 (F := F)) (iblk3 V c 0 t) (iblk3 V c 1 t) := by
  obtain ⟨n, hn⟩ := t
  cases n with
  | zero => exact rfl
  | succ n => exact (if_pos hA).trans rfl

theorem accAt3_step (c : Dev nD) (t : Fin cfg3.N) (hA : ¬t.val % 5 = 0) :
    accAt3 V c t.val t.isLt
      = k3_pay2 (accAt3 V c (t.val - 1) (Nat.lt_of_le_of_lt (Nat.sub_le _ _) t.isLt)) (iblk3 V c 0 t) (iblk3 V c 1 t) := by
  obtain ⟨n, hn⟩ := t
  cases n with
  | zero => exact absurd (Nat.zero_mod _) hA
  | succ n => exact (if_neg hA).trans rfl

/-- What the output block holds after the body at a last column tile: the accumulator plus the bias row. -/
def outAt3 (c : Dev nD) (t : Fin cfg3.N) : Vec F S1024x128 .f32 :=
  k3_pay3 (accAt3 V c t.val t.isLt) (iblk3 V c 2 t)

/-! ## The invariant: the accumulator at what the point before left -/

def PhiS3 (c : Dev nD) : (n : ℕ) → n ≤ cfg3.N → sProp 𝕄
  | 0, _ => Pipeline.ΦA spec3 c
  | n + 1, hn => iprop(iprop(owns (c : Thread nD τ) scM3_0 fullShare (accAt3 V c n hn) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (accAt3 V c n hn) ∗ restBut3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (accAt3 V c (n - 1) (by omega)) ∗ restBut3 (F := F) c) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point, by the position of its column tile: the first (the accumulator reset, whatever it held), a middle
    one, the last (the output block stored); the invariant hands the accumulator over at what the point before left and
    takes it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 50 := lt_of_lt_of_eq t.isLt (show cfg3.N = 50 from N_3)
  by_cases hA : t.val % 5 = 0
  · have hB : ¬t.val % 5 = 4 := by omega
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [show (dat3 V c).leavesExact 2 t = owns (c : Thread nD τ) (ms3_2 t) fullShare ((dat3 V c).after 2 t) from by
      unfold Dat.leavesExact; rw [liveAt3_2 t], after3_2]
    rw [Dat.leavesExact_idle (dat3 V c) 3 t (idleAt3_3 t (fun h => hB ((hcond3_1 t).mp h))) (noFlush3_3 t (fun h => hB ((hcond3_1 t).mp h)))]
    rw [accAt3_reset V c t hA]
    by_cases hz : t.val = 0
    · rw [PhiS3_castSucc V c t, PhiS3_zero V c _ _ hz, PhiA3_eq]
      iintro ⟨⟨⟨HS, Hr⟩, Hg⟩, Ho, ⟨%da, Ha⟩, ⟨%db, Hb⟩, ⟨%dc, Hc⟩, ⟨%dd, Hd⟩⟩
      iapply (sound_kernel3_A c Set.univ (grid3.coords t) _ _ _ _ _ _ _ _ _ _ ((hcond3_0 t).mpr hA) (fun h => hB ((hcond3_1 t).mp h))
        (iblk3 V c 0 t) (iblk3 V c 1 t) (iblk3 V c 2 t) ((dat3 V c).before 3 t dd) _)
      isplitl [Ha]; · iexact Ha
      isplitl [Hb]; · iexact Hb
      isplitl [Hc]; · iexact Hc
      isplitl [Hd]; · iexact Hd
      isplitl [HS]; · iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexists dd; iexact Hd
    · rw [PhiS3_castSucc V c t, PhiS3_pos V c _ _ hz]
      iintro ⟨⟨⟨HS, Hr⟩, Hg⟩, Ho, ⟨%da, Ha⟩, ⟨%db, Hb⟩, ⟨%dc, Hc⟩, ⟨%dd, Hd⟩⟩
      iapply (sound_kernel3_A c Set.univ (grid3.coords t) _ _ _ _ _ _ _ _ _ _ ((hcond3_0 t).mpr hA) (fun h => hB ((hcond3_1 t).mp h))
        (iblk3 V c 0 t) (iblk3 V c 1 t) (iblk3 V c 2 t) ((dat3 V c).before 3 t dd) _)
      isplitl [Ha]; · iexact Ha
      isplitl [Hb]; · iexact Hb
      isplitl [Hc]; · iexact Hc
      isplitl [Hd]; · iexact Hd
      isplitl [HS]; · iexists _; iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexists dd; iexact Hd
  · have hz : t.val ≠ 0 := fun h => hA (by rw [h])
    by_cases hB : t.val % 5 = 4
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t ((hcond3_1 t).mpr hB)], after3_3]
      unfold outAt3
      rw [accAt3_step V c t hA]
      rw [PhiS3_castSucc V c t, PhiS3_pos V c _ _ hz]
      iintro ⟨⟨⟨HS, Hr⟩, Hg⟩, Ho, ⟨%da, Ha⟩, ⟨%db, Hb⟩, ⟨%dc, Hc⟩, ⟨%dd, Hd⟩⟩
      iapply (sound_kernel3_C c Set.univ (grid3.coords t) _ _ _ _ _ _ _ _ _ _ (fun h => hA ((hcond3_0 t).mp h)) ((hcond3_1 t).mpr hB)
        (iblk3 V c 0 t) (iblk3 V c 1 t) (iblk3 V c 2 t) _ _)
      isplitl [Ha]; · iexact Ha
      isplitl [Hb]; · iexact Hb
      isplitl [Hc]; · iexact Hc
      isplitl [Hd]; · iexists _; iexact Hd
      isplitl [HS]; · iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexact Hd
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3 t (fun h => hB ((hcond3_1 t).mp h))) (noFlush3_3 t (fun h => hB ((hcond3_1 t).mp h)))]
      rw [accAt3_step V c t hA]
      rw [PhiS3_castSucc V c t, PhiS3_pos V c _ _ hz]
      iintro ⟨⟨⟨HS, Hr⟩, Hg⟩, Ho, ⟨%da, Ha⟩, ⟨%db, Hb⟩, ⟨%dc, Hc⟩, ⟨%dd, Hd⟩⟩
      iapply (sound_kernel3_B c Set.univ (grid3.coords t) _ _ _ _ _ _ _ _ _ _ (fun h => hA ((hcond3_0 t).mp h)) (fun h => hB ((hcond3_1 t).mp h))
        (iblk3 V c 0 t) (iblk3 V c 1 t) (iblk3 V c 2 t) ((dat3 V c).before 3 t dd) _ _)
      isplitl [Ha]; · iexact Ha
      isplitl [Hb]; · iexact Hb
      isplitl [Hc]; · iexact Hc
      isplitl [Hd]; · iexact Hd
      isplitl [HS]; · iexact HS
      iintro ⟨Ha, Hb, Hc, Hd, HS⟩
      isplitl [HS Hr Hg]
      · isplitl [HS Hr]
        · isplitl [HS]; · iexact HS
          iexact Hr
        iexact Hg
      isplitl [Ho]; · iexact Ho
      isplitl [Ha]; · iexact Ha
      isplitl [Hb]; · iexact Hb
      isplitl [Hc]; · iexact Hc
      iexists dd; iexact Hd

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class-A invariant back: what the accumulator holds is forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS, Hr⟩, Hg⟩
  isplitl [HS Hr]
  · isplitl [HS]; · iexists _; iexact HS
    iexact Hr
  iexact Hg

theorem hout3 (c : Dev nD) : (dat3 V c).Φ (Fin.last cfg3.N) ⊢ (Pipeline.ΦA spec3 c : sProp 𝕄) :=
  Phi_out3 V c _ (by rw [Fin.val_last]; have : cfg3.N = 50 := N_3; omega)

end Cert.KernelIdeal.Hand

end
-- ==== Proof.Run.lean ====
import proofs.«424741_j64287070486608_2_alg».proof.Proof.Gen.KernelIdeal.Regions
import proofs.«424741_j64287070486608_2_alg».proof.Proof.Gen.KernelIdeal.Launch
import proofs.«424741_j64287070486608_2_alg».proof.Proof.Gen.KernelIdeal.Skeleton
import proofs.«424741_j64287070486608_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«424741_j64287070486608_2_alg».proof.Proof.Lin0
import proofs.«424741_j64287070486608_2_alg».proof.Proof.Agg1
import proofs.«424741_j64287070486608_2_alg».proof.Proof.Lin2
import proofs.«424741_j64287070486608_2_alg».proof.Proof.Agg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: four host stretches, then four regions each followed by a host stretch

## The buffer contents at each of the thirteen boundaries, a fold from the launch memory

A host stretch maps the contents through its operations (`StableHlo.after`); a region leaves its windows' arrays at
what its write-backs fold to (`Dat.arrAt … N`) and every other buffer as it found it (`Pipeline.withArrays`). -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- A reference `hostOps0` does not write holds after it what it held before. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After `hostOps0_1`. -/
abbrev W2 : Dev nD → Valuation τ sig (Elt F) := fun c => StableHlo.after hostOps0_1 (W1 m ρ c)
/-- The same read at the TensorCore's references. -/
abbrev V2 : (c : Dev nD) → (b : Ref sig .tc) → Buf (Elt F) ((c : Thread nD τ).loc b) := fun c b => W2 m ρ c b
/-- A reference `hostOps0_1` does not write holds after it what it held before. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- After `hostOps0_2`. -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b
/-- A reference `hostOps0_2` does not write holds after it what it held before. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

/-- After `hostOps0_3`: the contents region 0 is entered from. -/
abbrev W4 : Dev nD → Valuation τ sig (Elt F) := fun c => StableHlo.after hostOps0_3 (W3 m ρ c)
/-- The same read at the TensorCore's references. -/
abbrev V4 : (c : Dev nD) → (b : Ref sig .tc) → Buf (Elt F) ((c : Thread nD τ).loc b) := fun c b => W4 m ρ c b
/-- A reference `hostOps0_3` does not write holds after it what it held before. -/
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

/-- At region 0's exit (the first linear layer): its arrays at what the pipeline leaves — the inputs as entered, the output's
    write-backs folded —, every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
/-- The same read at the TensorCore's references. -/
abbrev V5 : (c : Dev nD) → (b : Ref sig .tc) → Buf (Elt F) ((c : Thread nD τ).loc b) := fun c b => W5 m ρ c b
/-- At region 0's exit each of its arrays holds what the pipeline leaves (`hF0`) and every other buffer what it held at
    entry (`hrest0`). -/
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After `hostOps1`: the contents region 1 is entered from. -/
abbrev W6 : Dev nD → Valuation τ sig (Elt F) := fun c => StableHlo.after hostOps1 (W5 m ρ c)
/-- The same read at the TensorCore's references. -/
abbrev V6 : (c : Dev nD) → (b : Ref sig .tc) → Buf (Elt F) ((c : Thread nD τ).loc b) := fun c b => W6 m ρ c b
/-- A reference `hostOps1` does not write holds after it what it held before. -/
theorem W6_of (c : Dev nD) (r : Ref sig .tc) (h : r ∉ hostOps1_W) :
    W6 m ρ c (Proc.devRef .tc r) = W5 m ρ c (Proc.devRef .tc r) :=
  StableHlo.after_of_writes_sub hostOps1 _ hostOps1_writes h

/-- At region 1's exit (the first aggregation): its arrays at what the pipeline leaves — the inputs as entered, the output's
    write-backs folded —, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references. -/
abbrev V7 : (c : Dev nD) → (b : Ref sig .tc) → Buf (Elt F) ((c : Thread nD τ).loc b) := fun c b => W7 m ρ c b
/-- At region 1's exit each of its arrays holds what the pipeline leaves (`hF1`) and every other buffer what it held at
    entry (`hrest1`). -/
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After `hostOps2`: the contents region 2 is entered from. -/
abbrev W8 : Dev nD → Valuation τ sig (Elt F) := fun c => StableHlo.after hostOps2 (W7 m ρ c)
/-- The same read at the TensorCore's references. -/
abbrev V8 : (c : Dev nD) → (b : Ref sig .tc) → Buf (Elt F) ((c : Thread nD τ).loc b) := fun c b => W8 m ρ c b
/-- A reference `hostOps2` does not write holds after it what it held before. -/
theorem W8_of (c : Dev nD) (r : Ref sig .tc) (h : r ∉ hostOps2_W) :
    W8 m ρ c (Proc.devRef .tc r) = W7 m ρ c (Proc.devRef .tc r) :=
  StableHlo.after_of_writes_sub hostOps2 _ hostOps2_writes h

/-- At region 2's exit (the second linear layer): its arrays at what the pipeline leaves — the inputs as entered, the output's
    write-backs folded —, every other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
/-- The same read at the TensorCore's references. -/
abbrev V9 : (c : Dev nD) → (b : Ref sig .tc) → Buf (Elt F) ((c : Thread nD τ).loc b) := fun c b => W9 m ρ c b
/-- At region 2's exit each of its arrays holds what the pipeline leaves (`hF2`) and every other buffer what it held at
    entry (`hrest2`). -/
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After `hostOps3`: the contents region 3 is entered from. -/
abbrev W10 : Dev nD → Valuation τ sig (Elt F) := fun c => StableHlo.after hostOps3 (W9 m ρ c)
/-- The same read at the TensorCore's references. -/
abbrev V10 : (c : Dev nD) → (b : Ref sig .tc) → Buf (Elt F) ((c : Thread nD τ).loc b) := fun c b => W10 m ρ c b
/-- A reference `hostOps3` does not write holds after it what it held before. -/
theorem W10_of (c : Dev nD) (r : Ref sig .tc) (h : r ∉ hostOps3_W) :
    W10 m ρ c (Proc.devRef .tc r) = W9 m ρ c (Proc.devRef .tc r) :=
  StableHlo.after_of_writes_sub hostOps3 _ hostOps3_writes h

/-- At region 3's exit (the second aggregation): its arrays at what the pipeline leaves — the inputs as entered, the output's
    write-backs folded —, every other buffer as entered. -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
/-- The same read at the TensorCore's references. -/
abbrev V11 : (c : Dev nD) → (b : Ref sig .tc) → Buf (Elt F) ((c : Thread nD τ).loc b) := fun c b => W11 m ρ c b
/-- At region 3's exit each of its arrays holds what the pipeline leaves (`hF3`) and every other buffer what it held at
    entry (`hrest3`). -/
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)

/-- After `hostOps4`: the contents at the return. -/
abbrev W12 : Dev nD → Valuation τ sig (Elt F) := fun c => StableHlo.after hostOps4 (W11 m ρ c)
/-- The same read at the TensorCore's references. -/
abbrev V12 : (c : Dev nD) → (b : Ref sig .tc) → Buf (Elt F) ((c : Thread nD τ).loc b) := fun c b => W12 m ρ c b
/-- A reference `hostOps4` does not write holds after it what it held before. -/
theorem W12_of (c : Dev nD) (r : Ref sig .tc) (h : r ∉ hostOps4_W) :
    W12 m ρ c (Proc.devRef .tc r) = W11 m ρ c (Proc.devRef .tc r) :=
  StableHlo.after_of_writes_sub hostOps4 _ hostOps4_writes h

/-! ### The arguments end as launched: no host stretch writes one, and a region either bypasses it or reads it through
    an input window, whose array the pipeline leaves as entered -/

/-- `main_arg0` reaches the return as launched. -/
theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of m ρ c main_arg0 (by decide)
    _ = W10 m ρ c (Proc.devRef .tc main_arg0) := W11_of_ne m ρ c main_arg0 (by decide)
    _ = W9 m ρ c (Proc.devRef .tc main_arg0) := W10_of m ρ c main_arg0 (by decide)
    _ = W8 m ρ c (Proc.devRef .tc main_arg0) := W9_of_ne m ρ c main_arg0 (by decide)
    _ = W7 m ρ c (Proc.devRef .tc main_arg0) := W8_of m ρ c main_arg0 (by decide)
    _ = W6 m ρ c (Proc.devRef .tc main_arg0) := W7_of_ne m ρ c main_arg0 (by decide)
    _ = W5 m ρ c (Proc.devRef .tc main_arg0) := W6_of m ρ c main_arg0 (by decide)
    _ = W4 m ρ c (Proc.devRef .tc main_arg0) := W5_of_ne m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl

/-- `main_arg1` reaches the return as launched. -/
theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of m ρ c main_arg1 (by decide)
    _ = W10 m ρ c (Proc.devRef .tc main_arg1) := W11_of_ne m ρ c main_arg1 (by decide)
    _ = W9 m ρ c (Proc.devRef .tc main_arg1) := W10_of m ρ c main_arg1 (by decide)
    _ = W8 m ρ c (Proc.devRef .tc main_arg1) := W9_of_ne m ρ c main_arg1 (by decide)
    _ = W7 m ρ c (Proc.devRef .tc main_arg1) := W8_of m ρ c main_arg1 (by decide)
    _ = W6 m ρ c (Proc.devRef .tc main_arg1) := W7_of_ne m ρ c main_arg1 (by decide)
    _ = W5 m ρ c (Proc.devRef .tc main_arg1) := W6_of m ρ c main_arg1 (by decide)
    _ = W4 m ρ c (Proc.devRef .tc main_arg1) := W5_of_ne m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl

/-- `main_arg2` reaches the return as launched. -/
theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of m ρ c main_arg2 (by decide)
    _ = W10 m ρ c (Proc.devRef .tc main_arg2) := W11_of_ne m ρ c main_arg2 (by decide)
    _ = W9 m ρ c (Proc.devRef .tc main_arg2) := W10_of m ρ c main_arg2 (by decide)
    _ = W8 m ρ c (Proc.devRef .tc main_arg2) := W9_of_ne m ρ c main_arg2 (by decide)
    _ = W7 m ρ c (Proc.devRef .tc main_arg2) := W8_of m ρ c main_arg2 (by decide)
    _ = W6 m ρ c (Proc.devRef .tc main_arg2) := W7_of_ne m ρ c main_arg2 (by decide)
    _ = W5 m ρ c (Proc.devRef .tc main_arg2) := W6_of m ρ c main_arg2 (by decide)
    _ = W4 m ρ c (Proc.devRef .tc main_arg2) := (W5_arr m ρ c 1).trans (((dat0 (V4 m ρ) c).arrAt_in 1 rfl _).trans (A_eq0 (V4 m ρ) c 1))
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl

/-- `main_arg3` reaches the return as launched. -/
theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of m ρ c main_arg3 (by decide)
    _ = W10 m ρ c (Proc.devRef .tc main_arg3) := W11_of_ne m ρ c main_arg3 (by decide)
    _ = W9 m ρ c (Proc.devRef .tc main_arg3) := W10_of m ρ c main_arg3 (by decide)
    _ = W8 m ρ c (Proc.devRef .tc main_arg3) := W9_of_ne m ρ c main_arg3 (by decide)
    _ = W7 m ρ c (Proc.devRef .tc main_arg3) := W8_of m ρ c main_arg3 (by decide)
    _ = W6 m ρ c (Proc.devRef .tc main_arg3) := W7_of_ne m ρ c main_arg3 (by decide)
    _ = W5 m ρ c (Proc.devRef .tc main_arg3) := W6_of m ρ c main_arg3 (by decide)
    _ = W4 m ρ c (Proc.devRef .tc main_arg3) := W5_of_ne m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl

/-- `main_arg4` reaches the return as launched. -/
theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of m ρ c main_arg4 (by decide)
    _ = W10 m ρ c (Proc.devRef .tc main_arg4) := W11_of_ne m ρ c main_arg4 (by decide)
    _ = W9 m ρ c (Proc.devRef .tc main_arg4) := W10_of m ρ c main_arg4 (by decide)
    _ = W8 m ρ c (Proc.devRef .tc main_arg4) := (W9_arr m ρ c 1).trans (((dat2 (V8 m ρ) c).arrAt_in 1 rfl _).trans (A_eq2 (V8 m ρ) c 1))
    _ = W7 m ρ c (Proc.devRef .tc main_arg4) := W8_of m ρ c main_arg4 (by decide)
    _ = W6 m ρ c (Proc.devRef .tc main_arg4) := W7_of_ne m ρ c main_arg4 (by decide)
    _ = W5 m ρ c (Proc.devRef .tc main_arg4) := W6_of m ρ c main_arg4 (by decide)
    _ = W4 m ρ c (Proc.devRef .tc main_arg4) := W5_of_ne m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl

/-- `main_arg5` reaches the return as launched. -/
theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of m ρ c main_arg5 (by decide)
    _ = W10 m ρ c (Proc.devRef .tc main_arg5) := W11_of_ne m ρ c main_arg5 (by decide)
    _ = W9 m ρ c (Proc.devRef .tc main_arg5) := W10_of m ρ c main_arg5 (by decide)
    _ = W8 m ρ c (Proc.devRef .tc main_arg5) := W9_of_ne m ρ c main_arg5 (by decide)
    _ = W7 m ρ c (Proc.devRef .tc main_arg5) := W8_of m ρ c main_arg5 (by decide)
    _ = W6 m ρ c (Proc.devRef .tc main_arg5) := W7_of_ne m ρ c main_arg5 (by decide)
    _ = W5 m ρ c (Proc.devRef .tc main_arg5) := W6_of m ρ c main_arg5 (by decide)
    _ = W4 m ρ c (Proc.devRef .tc main_arg5) := W5_of_ne m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
  | ⟨2, _⟩ => fun c => dat2 (V8 m ρ) c
  | ⟨3, _⟩ => fun c => dat3 (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the contents at the return, the generator register at
    some state. -/
abbrev Tₙ (c : Dev nD) : sProp 𝕄 := iprop(StableHlo.held (c : Thread nD τ) (Pipeline.ucRefs τ sig) (W12 m ρ c) ∗ ∃ r, prngReg c r)

/-! ## The regions as segments -/

-- the library's lemmas are stated over the pinned configuration `pin pcs a p`: matching them against the printed one
-- takes unfolding plain definitions inside types
set_option backward.isDefEq.respectTransparency.types false in
/-- REGION 0 (the first linear layer) over the thread state: entered from every unscoped buffer at `W4`, left at `W5`. Its arrays
    split out of the unscoped buffers and put back at the exit contents; the generator register and the scoped rest into
    the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun w => A_eq0 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V4 m ρ) c)
    unfold Pipeline.ΦA
    iintro ⟨Hp, -, Hr⟩
    isplitl [Hr]; · iexact Hr
    iexact Hp
  hout c := by
    rw [Pipeline.ownSems0_none]
    refine BIBase.Entails.trans (hout0 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`: matching them against the printed one
-- takes unfolding plain definitions inside types
set_option backward.isDefEq.respectTransparency.types false in
/-- REGION 1 (the first aggregation) over the thread state: entered from every unscoped buffer at `W6`, left at `W7`. Its arrays
    split out of the unscoped buffers and put back at the exit contents; the generator register and the scoped rest into
    the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun w => A_eq1 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V6 m ρ) c)
    unfold Pipeline.ΦA
    iintro ⟨Hp, -, Hr⟩
    isplitl [Hr]; · iexact Hr
    iexact Hp
  hout c := by
    rw [Pipeline.ownSems0_none]
    refine BIBase.Entails.trans (hout1 (V6 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`: matching them against the printed one
-- takes unfolding plain definitions inside types
set_option backward.isDefEq.respectTransparency.types false in
/-- REGION 2 (the second linear layer) over the thread state: entered from every unscoped buffer at `W8`, left at `W9`. Its arrays
    split out of the unscoped buffers and put back at the exit contents; the generator register and the scoped rest into
    the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun w => A_eq2 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V8 m ρ) c)
    unfold Pipeline.ΦA
    iintro ⟨Hp, -, Hr⟩
    isplitl [Hr]; · iexact Hr
    iexact Hp
  hout c := by
    rw [Pipeline.ownSems0_none]
    refine BIBase.Entails.trans (hout2 (V8 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`: matching them against the printed one
-- takes unfolding plain definitions inside types
set_option backward.isDefEq.respectTransparency.types false in
/-- REGION 3 (the second aggregation) over the thread state: entered from every unscoped buffer at `W10`, left at `W11`. Its arrays
    split out of the unscoped buffers and put back at the exit contents; the generator register and the scoped rest into
    the region's invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun w => A_eq3 _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V10 m ρ) c)
    unfold Pipeline.ΦA
    iintro ⟨Hp, -, Hr⟩
    isplitl [Hr]; · iexact Hr
    iexact Hp
  hout c := by
    rw [Pipeline.ownSems0_none]
    refine BIBase.Entails.trans (hout3 (V10 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's twelve segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .region (reg1 m ρ),
    .host (hseg hostOps2 hostOps2_sub hostOps2_fresh (W7 m ρ)),
    .region (reg2 m ρ),
    .host (hseg hostOps3 hostOps3_sub hostOps3_fresh (W9 m ρ)),
    .region (reg3 m ρ),
    .host (hseg hostOps4 hostOps4_sub hostOps4_fresh (W11 m ρ)) ]

-- the launch theorem's implicit arguments are read off this statement, which takes unfolding plain definitions inside types
set_option backward.isDefEq.respectTransparency.types false in
/-- THE RUN: from any memory with zero counters, every weakly fair execution of @main on the TensorCores terminates, nothing
    faulting, and every final state holds each unscoped buffer of each core at the fold's last contents `W12`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W12 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- THE FRAME: every argument array ends holding its launch contents, each read off `W12` back through the fold. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c)⟩) (run_all m ρ)

end Cert.KernelIdeal.Hand

end
-- ==== Proof.Spec.lean ====
/-
  The two array functions the kernel's four launches compute, over the extended reals, index by index:
  a table times a square weight matrix, and the dense aggregation "adjacency times table plus a bias row".
-/
import Idealize.ShloMosaic.PureOps.Ideal
import Idealize.ShloMosaic.Lib.ValueIdx
import Mathlib.Algebra.BigOperators.Group.Finset.Basic

noncomputable section

open scoped BigOperators

namespace Cert.Spec

open Idealize.ShloMosaic Idealize.ShloMosaic.ValueIdx

/-- Row `r` of an [R, 128] table against column `q` of a 128 × 128 weight: the sum over the 128 features. -/
def lin {R : Nat} (X : (⟨2, ![R, 128]⟩ : Shape).Idx → EReal) (W : (⟨2, ![128, 128]⟩ : Shape).Idx → EReal) :
    (⟨2, ![R, 128]⟩ : Shape).Idx → EReal :=
  fun i => ∑ k : Fin 128, X (ix2 (n0 := R) (n1 := 128) (i 0) k) * W (ix2 (n0 := 128) (n1 := 128) k (i 1))

/-- Row `d` of a dense [10240, 10240] adjacency against column `q` of a [10240, 128] table, plus the bias at `q`. -/
def agg (A : (⟨2, ![10240, 10240]⟩ : Shape).Idx → EReal) (X : (⟨2, ![10240, 128]⟩ : Shape).Idx → EReal)
    (b : (⟨2, ![1, 128]⟩ : Shape).Idx → EReal) : (⟨2, ![10240, 128]⟩ : Shape).Idx → EReal :=
  fun i => (∑ s : Fin 10240, A (ix2 (n0 := 10240) (n1 := 10240) (i 0) s) * X (ix2 (n0 := 10240) (n1 := 128) s (i 1)))
    + b (ix2 (n0 := 1) (n1 := 128) 0 (i 1))

/-! ## The graph side: edge words, weights, one layer -/

/-- The source word of edge `e` of the extended edge list: row 0 of the edge array for the 640000 given edges,
    then the self loop `e - 640000` of each of the 10000 nodes. -/
def srcW (E : (⟨2, ![2, 640000]⟩ : Shape).Idx → BitVec 32) (e : Fin 650000) : BitVec 32 :=
  if h : e.val < 640000 then E (ix2 (n0 := 2) (n1 := 640000) 0 ⟨e.val, h⟩) else BitVec.ofNat 32 (e.val - 640000)

/-- The destination word of edge `e`: row 1 of the edge array, then the self loops. -/
def dstW (E : (⟨2, ![2, 640000]⟩ : Shape).Idx → BitVec 32) (e : Fin 650000) : BitVec 32 :=
  if h : e.val < 640000 then E (ix2 (n0 := 2) (n1 := 640000) 1 ⟨e.val, h⟩) else BitVec.ofNat 32 (e.val - 640000)

/-- Every given edge word names a node: read signed it lies in [0, 10000). -/
def InRange (E : (⟨2, ![2, 640000]⟩ : Shape).Idx → BitVec 32) : Prop :=
  ∀ (r : Fin 2) (e : Fin 640000), 0 ≤ (E (ix2 (n0 := 2) (n1 := 640000) r e)).toInt ∧ (E (ix2 (n0 := 2) (n1 := 640000) r e)).toInt < 10000

/-- One graph-convolution layer on 10000 nodes: node `d`'s feature `q` is the sum, over the edges `e` whose
    destination word read signed is `d`, of (row `src e` of `Y` times column `q` of `W`) times the edge weight,
    plus the bias. `s e` is the source node of edge `e`. -/
def layer (dw : Fin 650000 → BitVec 32) (s : Fin 650000 → Fin 10000) (w : Fin 650000 → EReal)
    (Y : (⟨2, ![10000, 128]⟩ : Shape).Idx → EReal) (W : (⟨2, ![128, 128]⟩ : Shape).Idx → EReal)
    (b : (⟨1, ![128]⟩ : Shape).Idx → EReal) : (⟨2, ![10000, 128]⟩ : Shape).Idx → EReal :=
  fun i => (∑ e ∈ Finset.univ.filter (fun e : Fin 650000 => (dw e).toInt = ((i 0).val : ℤ)),
      lin (R := 10000) Y W (ix2 (n0 := 10000) (n1 := 128) (s e) (i 1)) * w e) + b (ix1 (n := 128) (i 1))

/-- The source node of an edge whose word is in range. -/
def nodeOf (x : BitVec 32) : Fin 10000 := ⟨min x.toInt.toNat 9999, by omega⟩

/-- The two layers. -/
def gcn (E : (⟨2, ![2, 640000]⟩ : Shape).Idx → BitVec 32) (w : Fin 650000 → EReal)
    (X : (⟨2, ![10000, 128]⟩ : Shape).Idx → EReal) (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) : (⟨2, ![10000, 128]⟩ : Shape).Idx → EReal :=
  layer (dstW E) (fun e => nodeOf (srcW E e)) w (layer (dstW E) (fun e => nodeOf (srcW E e)) w X W1 b1) W2 b2

end Cert.Spec

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.RefNorm.lean ====
/-
  The reference's edge weight is nonnegative. Each of the 650000 weights is a product of two entries of the
  table of inverse square roots of the degrees: where the degree is positive the entry is its reciprocal square root,
  elsewhere it is zero. Every entry of that table is at least zero over the extended reals, a gather reads its
  table at some index, and a product of two nonnegative extended reals is nonnegative. Nothing about the value
  of a degree is used.
-/
import proofs.«424741_j64287070486608_2_alg».proof.Proof.RefRead
import Idealize.ShloMosaic.PureOps.Ideal.Laws
import Idealize.ShloMosaic.Lib.ValueIdx
import Mathlib.Data.EReal.Operations
import Mathlib.Analysis.SpecialFunctions.Pow.Real

set_option maxRecDepth 16384

noncomputable section

namespace Cert.ReferenceIdeal.Hand

open Cert.ReferenceIdeal Cert.ReferenceIdeal.Gen Cert.ReferenceIdeal.Read
open Idealize.ShloMosaic Idealize.ShloMosaic.ValueIdx

/-- The weight of edge `e` of the extended edge list, as the reference computes it from the edge array. -/
def nrmR (E : (⟨2, ![2, 640000]⟩ : Shape).Idx → BitVec 32) : Fin 650000 → EReal :=
  fun e => Cert.ReferenceIdeal.Read.val_main_v29 (F := Ideal) E (ix1 e)

/-- The reciprocal square root of a positive extended real is nonnegative: of a positive real it is the
    reciprocal of its square root, of the top element it is zero. -/
theorem rsqrt_nonneg_of_pos (d : EReal) (h : 0 < d) : 0 ≤ Ideal.rsqrt d := by
  induction d using EReal.rec with
  | bot => exact absurd h (not_lt_bot)
  | top => rw [Ideal.rsqrt_top]
  | coe r =>
    have hr : 0 < r := EReal.coe_pos.1 h
    rw [Ideal.rsqrt_coe, if_neg (not_lt.2 hr.le), if_neg hr.ne']
    exact EReal.coe_nonneg.2 (inv_nonneg.2 (Real.sqrt_nonneg r))

/-- Every entry of the table of inverse square roots is nonnegative: the reciprocal square root of the
    degree where the degree exceeds zero, zero elsewhere. -/
theorem dinv_nonneg (E : (⟨2, ![2, 640000]⟩ : Shape).Idx → BitVec 32) (j : S10000.Idx) :
    (0 : EReal) ≤ val_main_v14 (F := Ideal) E j := by
  rw [val_main_v14_apply, val_main_v12_apply, val_main_v13_apply, val_main_v11_apply, val_main_cst_1_apply,
    val_main_call0_v1_apply, val_main_call0_v0_apply, val_main_cst_2_apply]
  generalize val_main_v10 (F := Ideal) E j = d
  show (0 : EReal) ≤ Scalar.select (Ideal.cmp .ogt d (Ideal.ofBits .f32 0x00000000#32)) (Ideal.rsqrt d)
    (Ideal.ofBits .f32 0x00000000#32)
  rw [Ideal.ofBits_zero_f32]
  unfold Scalar.select
  split
  · next hc =>
    refine rsqrt_nonneg_of_pos d ?_
    by_contra hd
    unfold Ideal.cmp at hc
    simp only [hd, decide_false] at hc
    exact absurd hc (by decide)
  · exact le_refl _

/-- THE WEIGHT IS NONNEGATIVE: a product of two entries of the table of inverse square roots. -/
theorem nrmR_nonneg (E : (⟨2, ![2, 640000]⟩ : Shape).Idx → BitVec 32) (e : Fin 650000) : 0 ≤ nrmR E e := by
  unfold nrmR
  rw [val_main_v29_apply]
  show (0 : EReal) ≤ val_main_v21 (F := Ideal) E (ix1 e) * val_main_v28 (F := Ideal) E (ix1 e)
  refine EReal.mul_nonneg ?_ ?_
  · -- the gather by source reads the table at some index
    unfold val_main_v21 Host.gather
    exact dinv_nonneg E _
  · -- the gather by destination likewise
    unfold val_main_v28 Host.gather
    exact dinv_nonneg E _

end Cert.ReferenceIdeal.Hand

end
-- ==== Proof.RefVal.lean ====
/-
  The reference's value over the extended reals, index by index: its two graph-convolution layers are the
  function `Cert.Spec.gcn` of the edge words, the edge weights and the six arguments.
-/
import proofs.«424741_j64287070486608_2_alg».proof.Proof.RefRun
import proofs.«424741_j64287070486608_2_alg».proof.Proof.RefRead
import proofs.«424741_j64287070486608_2_alg».proof.Proof.Spec
import proofs.«424741_j64287070486608_2_alg».proof.Proof.LibRowGatherScatter
import proofs.«424741_j64287070486608_2_alg».proof.Proof.RefNorm
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Hand

open Cert.ReferenceIdeal Cert.ReferenceIdeal.Gen Idealize.ShloMosaic Idealize.ShloMosaic.TcCoe Idealize.SL.Sem
open Idealize.ShloMosaic.StableHlo Idealize.ShloMosaic.ValueIdx
open Cert.ReferenceIdeal.Read

/-! ## The extended edge list: the given words followed by the self loops -/

section Words
variable {α : Type}

/-- The join of 640000 entries and 10000 entries at position `e`: the first piece below 640000, the second
    piece, 640000 less, from there on. -/
theorem join_apply (a : S640000.Idx → α) (b : S10000.Idx → α) (e : Fin 650000) :
    concatenate S650000 0 [⟨S640000, a⟩, ⟨S10000, b⟩] Facts₀.concatenates_S640000_S10000_S650000_d0 (ix1 e)
      = if h : e.val < 640000 then a (ix1 ⟨e.val, h⟩) else b (ix1 ⟨e.val - 640000, by have := e.isLt; omega⟩) := by
  by_cases h : e.val < 640000
  · rw [dif_pos h]
    exact concatenate_pair_apply_left (t := S650000) (s₁ := S640000) (s₂ := S10000) 0 a b
      Facts₀.concatenates_S640000_S10000_S650000_d0 (ix1 e) rfl (ix1 ⟨e.val, h⟩) (fun c => by
      match c with
      | ⟨0, _⟩ => rfl)
  · rw [dif_neg h]
    exact concatenate_pair_apply_right (t := S650000) (s₁ := S640000) (s₂ := S10000) 0 a b
      Facts₀.concatenates_S640000_S10000_S650000_d0 (ix1 e) rfl rfl (ix1 ⟨e.val - 640000, by have := e.isLt; omega⟩)
      (fun c hc => by
        match c with
        | ⟨0, _⟩ => exact absurd rfl hc)
      (by show e.val - 640000 + 640000 = e.val; omega)

end Words

/-- The source words: row 0 of the edge array, then the node numbers. -/
theorem src_word (E : (⟨2, ![2, 640000]⟩ : Shape).Idx → BitVec 32) (e : Fin 650000) :
    val_main_v5 (F := Ideal) E (ix1 e) = Cert.Spec.srcW E e := by
  unfold val_main_v5 Cert.Spec.srcW
  rw [join_apply]
  by_cases h : e.val < 640000
  · rw [dif_pos h, dif_pos h, val_main_v1_apply, val_main_v0_apply]
    refine congrArg E (funext fun c => Fin.ext ?_)
    match c with
    | ⟨0, _⟩ => rfl
    | ⟨1, _⟩ => exact Nat.mod_eq_of_lt h
  · rw [dif_neg h, dif_neg h]
    rfl

/-- The destination words: row 1 of the edge array, then the node numbers. -/
theorem dst_word (E : (⟨2, ![2, 640000]⟩ : Shape).Idx → BitVec 32) (e : Fin 650000) :
    val_main_v6 (F := Ideal) E (ix1 e) = Cert.Spec.dstW E e := by
  unfold val_main_v6 Cert.Spec.dstW
  rw [join_apply]
  by_cases h : e.val < 640000
  · rw [dif_pos h, dif_pos h, val_main_v3_apply, val_main_v2_apply]
    refine congrArg E (funext fun c => Fin.ext ?_)
    match c with
    | ⟨0, _⟩ => rfl
    | ⟨1, _⟩ => exact Nat.mod_eq_of_lt h
  · rw [dif_neg h, dif_neg h]
    rfl

/-! ## Words in range: the wrap of a negative word never fires and the row clamp is the identity -/

/-- A node number below 10000, read signed, is itself. -/
theorem toInt_ofNat_small (k : Nat) (hk : k < 10000) : (BitVec.ofNat 32 k).toInt = (k : ℤ) := by
  rw [BitVec.toInt_eq_toNat_of_lt (by rw [BitVec.toNat_ofNat]; omega), BitVec.toNat_ofNat]
  congr 1
  omega

theorem srcW_range (E : (⟨2, ![2, 640000]⟩ : Shape).Idx → BitVec 32) (hE : Cert.Spec.InRange E) (e : Fin 650000) :
    0 ≤ (Cert.Spec.srcW E e).toInt ∧ (Cert.Spec.srcW E e).toInt < 10000 := by
  unfold Cert.Spec.srcW
  by_cases h : e.val < 640000
  · rw [dif_pos h]
    exact hE 0 ⟨e.val, h⟩
  · rw [dif_neg h, toInt_ofNat_small _ (by have := e.isLt; omega)]
    have := e.isLt
    omega

/-- The start word of the row lookup of edge `e` (the source word, a negative one counted from the end): under the
    range hypothesis, the source word itself. -/
theorem start_word (E : (⟨2, ![2, 640000]⟩ : Shape).Idx → BitVec 32) (hE : Cert.Spec.InRange E) (e : Fin 650000)
    (z t : IVec S650000 32) (hz : z (ix1 e) = 0#32) (ht : t (ix1 e) = 10000#32) :
    select (cmpi .slt (val_main_v5 (F := Ideal) E) z) (addi (val_main_v5 (F := Ideal) E) t) (val_main_v5 (F := Ideal) E) (ix1 e)
      = Cert.Spec.srcW E e := by
  show Scalar.select (IntOp.cmpi .slt (val_main_v5 (F := Ideal) E (ix1 e)) (z (ix1 e)))
    (IntOp.addi (val_main_v5 (F := Ideal) E (ix1 e)) (t (ix1 e))) (val_main_v5 (F := Ideal) E (ix1 e)) = _
  rw [hz, ht, src_word, wrap_select, if_neg (not_lt.mpr (srcW_range E hE e).1)]

/-! ## One layer: table times weight, rows looked up at the sources, weighted, summed at the destinations, plus bias -/

/-- The printed dimension numbers of the row lookup are the general ones. -/
theorem lookup_dims : gather_S10000x128_S650000x1_S650000x128_1_0_n_n_0_1_1128
    = rowGather 10000 650000 128 Facts₀.gather_S10000x128_S650000x1_S650000x128_1_0_n_n_0_1_1128_wf := rfl

/-- The printed dimension numbers of the row sum are the general ones. -/
theorem rowsum_dims : scatter_S10000x128_S650000x1_S650000x128_1_0_0_1
    = rowScatter 10000 650000 128 Facts₀.scatter_S10000x128_S650000x1_S650000x128_1_0_0_1_wf := rfl

/-- The table times the weight at (r, q): the sum over the 128 features. -/
theorem table_apply (Y : FVec Ideal S10000x128 .f32) (W : FVec Ideal S128x128 .f32)
    (r : Fin 10000) (q : Fin 128) :
    Host.dotGeneral (F := Ideal) dot_S10000x128_S128x128_S10000x128_1_0_0_1_n_n none Y W (ix2 r q)
      = Cert.Spec.lin (R := 10000) Y W (ix2 r q) := by
  have h := val_main_v30_apply Y W (ix2 r q)
  unfold val_main_v30 at h
  rw [h]
  unfold Cert.Spec.lin
  refine Finset.sum_congr rfl fun k _ => ?_
  congr 2
  · funext a
    match a with
    | ⟨0, _⟩ => rfl
    | ⟨1, _⟩ => rfl
  · funext a
    match a with
    | ⟨0, _⟩ => rfl
    | ⟨1, _⟩ => rfl

/-- ONE LAYER over the printed operations, the operands variables: with start words `sw` at the lookup, destination
    words `dw` at the row sum, weights `w` spread over the features, a zero operand and the bias row spread over the
    rows, the result is `Cert.Spec.layer`. -/
theorem layer_apply (Y : FVec Ideal S10000x128 .f32) (W : FVec Ideal S128x128 .f32) (b : FVec Ideal S128 .f32)
    (idxS idxD : IVec S650000x1 32) (nr : FVec Ideal S650000x128 .f32) (Z B : FVec Ideal S10000x128 .f32)
    (sw dw : Fin 650000 → BitVec 32) (w : Fin 650000 → EReal)
    (hS : ∀ e : Fin 650000, idxS (ix2 e 0) = sw e) (hD : ∀ e : Fin 650000, idxD (ix2 e 0) = dw e)
    (hw : ∀ (e : Fin 650000) (q : Fin 128), nr (ix2 e q) = w e)
    (hZ : ∀ i, Z i = 0) (hB : ∀ (d : Fin 10000) (q : Fin 128), B (ix2 d q) = b (ix1 q)) :
    addf (Host.scatterAdd (F := Ideal) scatter_S10000x128_S650000x1_S650000x128_1_0_0_1 Z idxD
        (mulf (Host.gather gather_S10000x128_S650000x1_S650000x128_1_0_n_n_0_1_1128
          (Host.dotGeneral (F := Ideal) dot_S10000x128_S128x128_S10000x128_1_0_0_1_n_n none Y W) idxS) nr)) B
      = Cert.Spec.layer dw (fun e => Cert.Spec.nodeOf (sw e)) w Y W b := by
  funext i
  obtain ⟨d, q, rfl⟩ : ∃ (d : Fin 10000) (q : Fin 128), i = ix2 d q := ⟨i 0, i 1, eq_ix2 i⟩
  generalize hT : Host.dotGeneral (F := Ideal) dot_S10000x128_S128x128_S10000x128_1_0_0_1_n_n none Y W = T
  rw [addf_apply, rowsum_dims, rowScatterAdd_apply, hZ, zero_add, hB]
  show _ = (∑ e ∈ Finset.univ.filter (fun e : Fin 650000 => (dw e).toInt = (d.val : ℤ)),
      Cert.Spec.lin (R := 10000) Y W (ix2 (Cert.Spec.nodeOf (sw e)) q) * w e) + b (ix1 q)
  refine congrArg₂ (· + ·) ?_ rfl
  simp only [hD]
  refine Finset.sum_congr rfl fun e _ => ?_
  rw [mulf_apply, lookup_dims, rowGather_apply_of_eq (N := 10000) (by omega) _ _ _ e q (sw e) (hS e), hw, ← hT, table_apply]
  rfl

/-! ## The operands of the two layers, read at an index -/

/-- Layer one: the lookup's start word of edge `e` is its source word. -/
theorem start_one (x1 : (⟨2, ![2, 640000]⟩ : Shape).Idx → BitVec 32) (hE : Cert.Spec.InRange x1) (e : Fin 650000) :
    val_main_v36 (F := Ideal) x1 (ix2 e 0) = Cert.Spec.srcW x1 e := by
  rw [val_main_v36_apply]
  have hi : idx_main_v36 (ix2 (n0 := 650000) (n1 := 1) e 0) = ix1 e := funext fun a => match a with | ⟨0, _⟩ => rfl
  rw [hi]
  unfold val_main_v35 val_main_v32 val_main_v34
  exact start_word x1 hE e _ _ (by rw [val_main_v31_apply]; rfl) (by rw [val_main_v33_apply]; rfl)

/-- Layer one: the row sum's word of edge `e` is its destination word. -/
theorem dest_one (x1 : (⟨2, ![2, 640000]⟩ : Shape).Idx → BitVec 32) (e : Fin 650000) :
    val_main_v42 (F := Ideal) x1 (ix2 e 0) = Cert.Spec.dstW x1 e := by
  rw [val_main_v42_apply]
  have hi : idx_main_v42 (ix2 (n0 := 650000) (n1 := 1) e 0) = ix1 e := funext fun a => match a with | ⟨0, _⟩ => rfl
  rw [hi, dst_word]

/-- Layer one: the weights spread over the features. -/
theorem weight_one (x1 : (⟨2, ![2, 640000]⟩ : Shape).Idx → BitVec 32) (e : Fin 650000) (q : Fin 128) :
    val_main_v39 (F := Ideal) x1 (ix2 e q) = nrmR x1 e := by
  rw [val_main_v39_apply, val_main_v38_apply]
  exact congrArg (val_main_v29 (F := Ideal) x1) (funext fun a => match a with | ⟨0, _⟩ => rfl)

/-- Layer one: the row sum starts from zero. -/
theorem zero_one (i : S10000x128.Idx) : val_main_v41 (F := Ideal) i = 0 := by
  rw [val_main_v41_apply, val_main_cst_8_apply]
  exact Ideal.ofBits_zero_f32

/-- Layer one: the bias row spread over the rows. -/
theorem bias_one (b : FVec Ideal S128 .f32) (d : Fin 10000) (q : Fin 128) :
    val_main_v45 (F := Ideal) b (ix2 d q) = b (ix1 q) := by
  rw [val_main_v45_apply, val_main_v44_apply]
  exact congrArg b (funext fun a => match a with | ⟨0, _⟩ => rfl)

/-- Layer two: the lookup's start word of edge `e` is its source word. -/
theorem start_two (x1 : (⟨2, ![2, 640000]⟩ : Shape).Idx → BitVec 32) (hE : Cert.Spec.InRange x1) (e : Fin 650000) :
    val_main_v53 (F := Ideal) x1 (ix2 e 0) = Cert.Spec.srcW x1 e := by
  rw [val_main_v53_apply]
  have hi : idx_main_v53 (ix2 (n0 := 650000) (n1 := 1) e 0) = ix1 e := funext fun a => match a with | ⟨0, _⟩ => rfl
  rw [hi]
  unfold val_main_v52 val_main_v49 val_main_v51
  exact start_word x1 hE e _ _ (by rw [val_main_v48_apply]; rfl) (by rw [val_main_v50_apply]; rfl)

/-- Layer two: the row sum's word of edge `e` is its destination word. -/
theorem dest_two (x1 : (⟨2, ![2, 640000]⟩ : Shape).Idx → BitVec 32) (e : Fin 650000) :
    val_main_v59 (F := Ideal) x1 (ix2 e 0) = Cert.Spec.dstW x1 e := by
  rw [val_main_v59_apply]
  have hi : idx_main_v59 (ix2 (n0 := 650000) (n1 := 1) e 0) = ix1 e := funext fun a => match a with | ⟨0, _⟩ => rfl
  rw [hi, dst_word]

/-- Layer two: the weights spread over the features. -/
theorem weight_two (x1 : (⟨2, ![2, 640000]⟩ : Shape).Idx → BitVec 32) (e : Fin 650000) (q : Fin 128) :
    val_main_v56 (F := Ideal) x1 (ix2 e q) = nrmR x1 e := by
  rw [val_main_v56_apply, val_main_v55_apply]
  exact congrArg (val_main_v29 (F := Ideal) x1) (funext fun a => match a with | ⟨0, _⟩ => rfl)

/-- Layer two: the row sum starts from zero. -/
theorem zero_two (i : S10000x128.Idx) : val_main_v58 (F := Ideal) i = 0 := by
  rw [val_main_v58_apply, val_main_cst_11_apply]
  exact Ideal.ofBits_zero_f32

/-- Layer two: the bias row spread over the rows. -/
theorem bias_two (b : FVec Ideal S128 .f32) (d : Fin 10000) (q : Fin 128) :
    val_main_v62 (F := Ideal) b (ix2 d q) = b (ix1 q) := by
  rw [val_main_v62_apply, val_main_v61_apply]
  exact congrArg b (funext fun a => match a with | ⟨0, _⟩ => rfl)

/-! ## The reference's value -/

/-- The first layer's result. -/
theorem layer_one (x0 : FVec Ideal S10000x128 .f32) (x1 : (⟨2, ![2, 640000]⟩ : Shape).Idx → BitVec 32)
    (x2 : FVec Ideal S128x128 .f32) (x3 : FVec Ideal S128 .f32) (hE : Cert.Spec.InRange x1) :
    val_main_v46 (F := Ideal) x0 x1 x2 x3
      = Cert.Spec.layer (Cert.Spec.dstW x1) (fun e => Cert.Spec.nodeOf (Cert.Spec.srcW x1 e)) (nrmR x1) x0 x2 x3 := by
  unfold val_main_v46 val_main_v43 val_main_v40 val_main_v37 val_main_v30
  exact layer_apply x0 x2 x3 _ _ _ _ _ _ _ _ (start_one x1 hE) (dest_one x1) (weight_one x1) zero_one (bias_one x3)

/-- The second layer's result, its input table a variable. -/
theorem layer_two (Y : FVec Ideal S10000x128 .f32) (x1 : (⟨2, ![2, 640000]⟩ : Shape).Idx → BitVec 32)
    (x4 : FVec Ideal S128x128 .f32) (x5 : FVec Ideal S128 .f32) (hE : Cert.Spec.InRange x1) :
    addf (Host.scatterAdd (F := Ideal) scatter_S10000x128_S650000x1_S650000x128_1_0_0_1 (val_main_v58 (F := Ideal))
        (val_main_v59 (F := Ideal) x1)
        (mulf (Host.gather gather_S10000x128_S650000x1_S650000x128_1_0_n_n_0_1_1128
          (Host.dotGeneral (F := Ideal) dot_S10000x128_S128x128_S10000x128_1_0_0_1_n_n none Y x4) (val_main_v53 (F := Ideal) x1))
          (val_main_v56 (F := Ideal) x1))) (val_main_v62 (F := Ideal) x5)
      = Cert.Spec.layer (Cert.Spec.dstW x1) (fun e => Cert.Spec.nodeOf (Cert.Spec.srcW x1 e)) (nrmR x1) Y x4 x5 :=
  layer_apply Y x4 x5 _ _ _ _ _ _ _ _ (start_two x1 hE) (dest_two x1) (weight_two x1) zero_two (bias_two x5)

/-- THE REFERENCE'S VALUE: under the range hypothesis on the edge words, the two layers of `Cert.Spec.gcn` with the
    reference's own edge weights. -/
theorem ref_value (m : (ℓ : Loc nD τ sig) → Buf (Elt Ideal) ℓ) (c : Dev nD)
    (hE : Cert.Spec.InRange (m ((c.tc : Thread nD τ).loc main_arg1))) :
    Cert.ReferenceIdeal.Value.res_main_v63 (F := Ideal) m c
      = Cert.Spec.gcn (m ((c.tc : Thread nD τ).loc main_arg1)) (nrmR (m ((c.tc : Thread nD τ).loc main_arg1)))
          (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) := by
  rw [val_main_v63_eq]
  generalize m ((c.tc : Thread nD τ).loc main_arg0) = x0 at *
  generalize m ((c.tc : Thread nD τ).loc main_arg1) = x1 at *
  generalize m ((c.tc : Thread nD τ).loc main_arg2) = x2 at *
  generalize m ((c.tc : Thread nD τ).loc main_arg3) = x3 at *
  generalize m ((c.tc : Thread nD τ).loc main_arg4) = x4 at *
  generalize m ((c.tc : Thread nD τ).loc main_arg5) = x5 at *
  unfold val_main_v63 val_main_v60 val_main_v57 val_main_v54 val_main_v47
  exact (layer_two _ x1 x4 x5 hE).trans (by rw [layer_one x0 x1 x2 x3 hE]; rfl)

end Cert.ReferenceIdeal.Hand

end
-- ==== Proof.KHost.lean ====
/-
  The kernel program's host stretch before its first launch, over the extended reals: the edge weights as a function
  of the edge array alone (`nrmK`, spelt operation by operation), and the dense adjacency the stretch leaves
  (`A_value`): entry (d, s) is the sum of the weights of the edges whose destination word is d and source word is s.
-/
import proofs.«424741_j64287070486608_2_alg».proof.Proof.Gen.KernelIdeal.Launch
import proofs.«424741_j64287070486608_2_alg».proof.Proof.Spec
import proofs.«424741_j64287070486608_2_alg».proof.Proof.LibRowGatherScatter
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Contract
import Idealize.ShloMosaic.Lib.ValueIdxRank1
import Mathlib.Algebra.BigOperators.Group.Finset.Basic
import Mathlib.Algebra.BigOperators.Fin

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.ReferenceIdeal.Hand (bcastScalar_apply bcastCol_apply bcastFeat_apply bcastRow_apply bcastRows_apply wrap_select)

/-! # The host stretches before the first launch: the edge weights and the dense adjacency

The host code extends the edge list by one self loop per node, counts each node's incoming edges, takes the
reciprocal square root of the positive counts, weights edge `e` by the product of the two factors at its end
points, and adds the weights into a dense [10240, 10240] array at (destination, source). -/

/-- The index normalisation of a vector of words against an extent `n`: a negative word counts from the end. -/
def wrapK (n : BitVec 32) (x : IVec S650000 32) : IVec S650000 32 :=
  select (cmpi .slt x (broadcastInDim S650000 ![] bcast_S_S650000 (constantI S_ 32 0#32)))
    (addi x (broadcastInDim S650000 ![] bcast_S_S650000 (constantI S_ 32 n))) x

/-- The source words of the extended edge list: row 0 of the edge array, then the node numbers 0 … 9999. -/
def kv5 (E : (⟨2, ![2, 640000]⟩ : Shape).Idx → BitVec 32) : IVec S650000 32 :=
  concatenate S650000 0
    [⟨S640000, shapeCast S640000 (extractStridedSlice S1x640000 ![0, 0] E slices_S2x640000_S1x640000_0_0) shapeCasts_S1x640000_S640000⟩,
     ⟨S10000, iotaInDim S10000 32 0⟩] concatenates_S640000_S10000_S650000_d0

/-- The destination words of the extended edge list: row 1 of the edge array, then the node numbers. -/
def kv6 (E : (⟨2, ![2, 640000]⟩ : Shape).Idx → BitVec 32) : IVec S650000 32 :=
  concatenate S650000 0
    [⟨S640000, shapeCast S640000 (extractStridedSlice S1x640000 ![1, 0] E slices_S2x640000_S1x640000_1_0) shapeCasts_S1x640000_S640000⟩,
     ⟨S10000, iotaInDim S10000 32 0⟩] concatenates_S640000_S10000_S650000_d0

/-- The in-degree of each node: ones added at the destination words. -/
def kv10 (E : (⟨2, ![2, 640000]⟩ : Shape).Idx → BitVec 32) : FVec Ideal S10000 .f32 :=
  Host.scatterAdd (F := Ideal) scatter_S10000_S650000x1_S650000_n_0_0_1
    (broadcastInDim S10000 ![] bcast_S_S10000 (constant (F := Ideal) S_ .f32 0x00000000#32))
    (broadcastInDim S650000x1 ![0] bcast_S650000_S650000x1_0 (kv6 E))
    (broadcastInDim S650000 ![] bcast_S_S650000 (constant (F := Ideal) S_ .f32 0x3F800000#32))

/-- The factor of each node: the reciprocal square root of a positive degree, zero otherwise. -/
def kv14 (E : (⟨2, ![2, 640000]⟩ : Shape).Idx → BitVec 32) : FVec Ideal S10000 .f32 :=
  select (cmpf (F := Ideal) .ogt (kv10 E) (broadcastInDim S10000 ![] bcast_S_S10000 (constant (F := Ideal) S_ .f32 0x00000000#32)))
    (Host.rsqrt (kv10 E))
    (broadcastInDim S10000 ![] bcast_S_S10000 (id (constant (F := Ideal) S_ .f32 0x00000000#32)))

/-- The source words normalised against the 10000 nodes. -/
def kv19 (E : (⟨2, ![2, 640000]⟩ : Shape).Idx → BitVec 32) : IVec S650000 32 := wrapK 10000#32 (kv5 E)

/-- The factor at each edge's source. -/
def kv21 (E : (⟨2, ![2, 640000]⟩ : Shape).Idx → BitVec 32) : FVec Ideal S650000 .f32 :=
  Host.gather gather_S10000_S650000x1_S650000_n_0_n_n_0_1_1 (kv14 E)
    (broadcastInDim S650000x1 ![0] bcast_S650000_S650000x1_0 (kv19 E))

/-- The destination words normalised against the 10000 nodes. -/
def kv26 (E : (⟨2, ![2, 640000]⟩ : Shape).Idx → BitVec 32) : IVec S650000 32 := wrapK 10000#32 (kv6 E)

/-- The factor at each edge's destination. -/
def kv28 (E : (⟨2, ![2, 640000]⟩ : Shape).Idx → BitVec 32) : FVec Ideal S650000 .f32 :=
  Host.gather gather_S10000_S650000x1_S650000_n_0_n_n_0_1_1 (kv14 E)
    (broadcastInDim S650000x1 ![0] bcast_S650000_S650000x1_0 (kv26 E))

/-- The edge weights: the product of the two factors. -/
def kv29 (E : (⟨2, ![2, 640000]⟩ : Shape).Idx → BitVec 32) : FVec Ideal S650000 .f32 := mulf (kv21 E) (kv28 E)

/-- The weight of edge `e` of the extended list, as the host code computes it from the edge array alone. -/
def nrmK (E : (⟨2, ![2, 640000]⟩ : Shape).Idx → BitVec 32) : Fin 650000 → EReal := fun e => kv29 E (ix1 e)

/-! ## The accumulating element scatter: scalar updates into a matrix at a two-column index -/

section EltScatter

/-- The dimension numbers of a scatter of scalars [E] into an [N, M] operand at an [E, 2] array of index pairs:
    no window axis, both operand axes inserted and indexed. -/
abbrev eltScatter (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable {N M E w : Nat} (wf : ScatterDims.WF ⟨2, ![N, M]⟩ ⟨2, ![E, 2]⟩ ⟨1, ![E]⟩ [] [0, 1] [0, 1] 1)
  (idx : IVec ⟨2, ![E, 2]⟩ w)

/-- On the row axis update `e` starts at the first word of its index pair, read signed … -/
theorem eltScatter_start_zero (e : Fin E) :
    (eltScatter N M E wf).start (ix1 e) idx 0 = (idx (ix2 e 0)).toInt := by
  unfold ScatterDims.start
  rw [dif_pos (show (0 : Fin 2) ∈ (eltScatter N M E wf).scatterDimsToOperandDims from List.mem_cons_self)]
  have hsi : (eltScatter N M E wf).siIdx (ix1 e) ⟨List.idxOf (0 : Fin 2) (eltScatter N M E wf).scatterDimsToOperandDims,
      List.idxOf_lt_length_iff.2 List.mem_cons_self⟩ = ix2 e 0 := by
    funext b; refine Fin.ext ?_
    match b with
    | ⟨0, _⟩ => rfl
    | ⟨1, _⟩ => rfl
  rw [hsi]

/-- … and on the column axis at the second word. -/
theorem eltScatter_start_one (e : Fin E) :
    (eltScatter N M E wf).start (ix1 e) idx 1 = (idx (ix2 e 1)).toInt := by
  unfold ScatterDims.start
  have h1 : (1 : Fin 2) ∈ (eltScatter N M E wf).scatterDimsToOperandDims := by
    show (1 : Fin 2) ∈ [(0 : Fin 2), 1]
    decide
  rw [dif_pos h1]
  have hsi : (eltScatter N M E wf).siIdx (ix1 e) ⟨List.idxOf (1 : Fin 2) (eltScatter N M E wf).scatterDimsToOperandDims,
      List.idxOf_lt_length_iff.2 h1⟩ = ix2 e 1 := by
    funext b; refine Fin.ext ?_
    match b with
    | ⟨0, _⟩ => rfl
    | ⟨1, _⟩ => rfl
  rw [hsi]

/-- There is no window: the window coordinate is 0 on both axes. -/
theorem eltScatter_window (e : Fin E) (a : Fin 2) :
    (eltScatter N M E wf).window (ix1 e) a = 0 := by
  unfold ScatterDims.window
  rw [dif_neg]
  show a ∉ (List.finRange 2).filter (· ∉ [(0 : Fin 2), 1])
  revert a
  decide

/-- Update `e` lands at (d, s) exactly when its index pair, read signed, is (d, s). -/
theorem eltScatter_resultIdx_iff (e : Fin E) (d : Fin N) (s : Fin M) :
    (eltScatter N M E wf).resultIdx? (ix1 e) idx = some (ix2 d s)
      ↔ (idx (ix2 e 0)).toInt = (d.val : ℤ) ∧ (idx (ix2 e 1)).toInt = (s.val : ℤ) := by
  unfold ScatterDims.resultIdx?
  split
  · next h =>
    rw [Option.some.injEq]
    constructor
    · intro hf
      have e0 := congrArg (fun f => (f 0).val) hf
      have e1 := congrArg (fun f => (f 1).val) hf
      have h0 := h 0
      have h1 := h 1
      simp only [eltScatter_start_zero, eltScatter_start_one, eltScatter_window] at e0 e1 h0 h1
      have hd : ((ix2 d s : (⟨2, ![N, M]⟩ : Shape).Idx) 0).val = d.val := rfl
      have hs : ((ix2 d s : (⟨2, ![N, M]⟩ : Shape).Idx) 1).val = s.val := rfl
      refine ⟨?_, ?_⟩ <;> omega
    · rintro ⟨hd, hs⟩
      funext a
      refine Fin.ext ?_
      match a with
      | ⟨0, _⟩ =>
        show ((eltScatter N M E wf).start (ix1 e) idx 0 + ((eltScatter N M E wf).window (ix1 e) 0 : ℕ)).toNat = d.val
        rw [eltScatter_start_zero, eltScatter_window]
        omega
      | ⟨1, _⟩ =>
        show ((eltScatter N M E wf).start (ix1 e) idx 1 + ((eltScatter N M E wf).window (ix1 e) 1 : ℕ)).toNat = s.val
        rw [eltScatter_start_one, eltScatter_window]
        omega
  · next h =>
    constructor
    · intro hf
      exact absurd hf (by simp)
    · rintro ⟨hd, hs⟩
      exfalso
      apply h
      intro a
      match a with
      | ⟨0, _⟩ =>
        show 0 ≤ (eltScatter N M E wf).start (ix1 e) idx 0 + ((eltScatter N M E wf).window (ix1 e) 0 : ℕ)
          ∧ (eltScatter N M E wf).start (ix1 e) idx 0 + ((eltScatter N M E wf).window (ix1 e) 0 : ℕ) < (N : ℤ)
        rw [eltScatter_start_zero, eltScatter_window]
        have := d.isLt
        omega
      | ⟨1, _⟩ =>
        show 0 ≤ (eltScatter N M E wf).start (ix1 e) idx 1 + ((eltScatter N M E wf).window (ix1 e) 1 : ℕ)
          ∧ (eltScatter N M E wf).start (ix1 e) idx 1 + ((eltScatter N M E wf).window (ix1 e) 1 : ℕ) < (M : ℤ)
        rw [eltScatter_start_one, eltScatter_window]
        have := s.isLt
        omega

/-- THE ACCUMULATING ELEMENT SCATTER AT (d, s): the operand's entry plus the sum of the updates whose index pair,
    read signed, is (d, s). -/
theorem eltScatterAdd_apply {φ : FTy} (x : FVec Ideal ⟨2, ![N, M]⟩ φ) (upd : FVec Ideal ⟨1, ![E]⟩ φ) (d : Fin N) (s : Fin M) :
    Host.scatterAdd (F := Ideal) (eltScatter N M E wf) x idx upd (ix2 d s)
      = x (ix2 d s) + ∑ e ∈ Finset.univ.filter (fun e : Fin E =>
          (idx (ix2 e 0)).toInt = (d.val : ℤ) ∧ (idx (ix2 e 1)).toInt = (s.val : ℤ)), upd (ix1 e) := by
  show Ideal.hostScatterAdd (eltScatter N M E wf) x idx upd (ix2 d s) = _
  unfold Ideal.hostScatterAdd
  congr 1
  rw [Finset.sum_filter, ← Equiv.sum_comp (idxEquiv1 (n := E)).symm, Finset.sum_filter]
  refine Finset.sum_congr rfl fun e _ => ?_
  show (if (eltScatter N M E wf).resultIdx? (ix1 e) idx = some (ix2 d s) then upd (ix1 e) else 0) = _
  simp only [eltScatter_resultIdx_iff]

end EltScatter

/-! ## The extended edge list and the index pairs, read at an edge -/

/-- An [extent-640000 row of the edge array, then the node numbers] vector at edge `e`. -/
theorem extended_apply (r : Fin 2) (off : Fin 2 → Nat) (hoff : off = ![r.val, 0]) (hs : S2x640000.Slices off S1x640000)
    (E : (⟨2, ![2, 640000]⟩ : Shape).Idx → BitVec 32) (e : Fin 650000) :
    concatenate S650000 0
        [⟨S640000, shapeCast S640000 (extractStridedSlice S1x640000 off E hs) shapeCasts_S1x640000_S640000⟩,
         ⟨S10000, iotaInDim S10000 32 0⟩] concatenates_S640000_S10000_S650000_d0 (ix1 e)
      = if h : e.val < 640000 then E (ix2 (n0 := 2) (n1 := 640000) r ⟨e.val, h⟩) else BitVec.ofNat 32 (e.val - 640000) := by
  subst hoff
  by_cases h : e.val < 640000
  · rw [dif_pos h]
    refine (concatenate_pair_apply_left (t := S650000) (s₁ := S640000) (s₂ := S10000) (0 : Fin 1) _ _ concatenates_S640000_S10000_S650000_d0 (ix1 e) rfl
      (ix1 (⟨e.val, h⟩ : Fin 640000)) (fun b => ?_)).trans ?_
    · match b with
      | ⟨0, _⟩ => rfl
    · refine (shapeCast_apply _ shapeCasts_S1x640000_S640000 (ix1 (⟨e.val, h⟩ : Fin 640000))
        (ix2 (n0 := 1) (n1 := 640000) 0 ⟨e.val, h⟩) ?_).trans ?_
      · rewrite [Shape.rowMajor_val_two, Shape.rowMajor_val_one]
        show 0 * 640000 + e.val = e.val
        omega
      · refine extractStridedSlice_apply _ E hs _ (ix2 (n0 := 2) (n1 := 640000) r ⟨e.val, h⟩) (fun a => ?_)
        match a with
        | ⟨0, _⟩ => show r.val = r.val + 0; omega
        | ⟨1, _⟩ => show e.val = 0 + e.val; omega
  · rw [dif_neg h]
    have he := e.isLt
    refine (concatenate_pair_apply_right (t := S650000) (s₁ := S640000) (s₂ := S10000) (0 : Fin 1) _ _ concatenates_S640000_S10000_S650000_d0 (ix1 e) rfl rfl
      (ix1 (⟨e.val - 640000, by omega⟩ : Fin 10000)) (fun b hb => ?_) ?_).trans ?_
    · match b with
      | ⟨0, _⟩ => exact absurd rfl hb
    · show (e.val - 640000) + 640000 = e.val
      omega
    · rfl

/-- The source words of the extended list. -/
theorem kv5_apply (E : (⟨2, ![2, 640000]⟩ : Shape).Idx → BitVec 32) (e : Fin 650000) :
    kv5 E (ix1 e) = Cert.Spec.srcW E e := by
  unfold kv5 Cert.Spec.srcW
  exact extended_apply 0 _ rfl _ E e

/-- The destination words of the extended list. -/
theorem kv6_apply (E : (⟨2, ![2, 640000]⟩ : Shape).Idx → BitVec 32) (e : Fin 650000) :
    kv6 E (ix1 e) = Cert.Spec.dstW E e := by
  unfold kv6 Cert.Spec.dstW
  exact extended_apply 1 _ rfl _ E e

/-- The normalised word: the word plus the extent when negative, else the word. -/
theorem wrapK_apply (n : BitVec 32) (x : IVec S650000 32) (i : S650000.Idx) :
    wrapK n x i = if (x i).toInt < 0 then x i + n else x i := by
  unfold wrapK
  rw [select_apply]
  show Scalar.select (IntOp.cmpi .slt (x i) (broadcastInDim S650000 ![] bcast_S_S650000 (constantI S_ 32 0#32) i))
    (IntOp.addi (x i) (broadcastInDim S650000 ![] bcast_S_S650000 (constantI S_ 32 n) i)) (x i) = _
  rw [bcastScalar_apply, bcastScalar_apply]
  exact wrap_select (x i) n

/-- A word that is not negative is kept. -/
theorem wrapK_of_nonneg (n : BitVec 32) (x : IVec S650000 32) (i : S650000.Idx) (h : 0 ≤ (x i).toInt) :
    wrapK n x i = x i := by
  rw [wrapK_apply, if_neg (by omega)]

/-- The index pairs: column 0 is the first vector, column 1 the second. -/
theorem pairs_apply_zero (a b : IVec S650000 32) (e : Fin 650000) :
    concatenate S650000x2 1
        [⟨S650000x1, broadcastInDim S650000x1 ![0] bcast_S650000_S650000x1_0 a⟩,
         ⟨S650000x1, broadcastInDim S650000x1 ![0] bcast_S650000_S650000x1_0 b⟩]
        concatenates_S650000x1_S650000x1_S650000x2_d1 (ix2 (n0 := 650000) (n1 := 2) e 0) = a (ix1 e) := by
  refine (concatenate_pair_apply_left (t := S650000x2) (s₁ := S650000x1) (s₂ := S650000x1) (1 : Fin 2) _ _ concatenates_S650000x1_S650000x1_S650000x2_d1 _ rfl
    (ix2 (n0 := 650000) (n1 := 1) e 0) (fun c => ?_)).trans ?_
  · match c with
    | ⟨0, _⟩ => rfl
    | ⟨1, _⟩ => rfl
  · exact bcastCol_apply _ a e 0

theorem pairs_apply_one (a b : IVec S650000 32) (e : Fin 650000) :
    concatenate S650000x2 1
        [⟨S650000x1, broadcastInDim S650000x1 ![0] bcast_S650000_S650000x1_0 a⟩,
         ⟨S650000x1, broadcastInDim S650000x1 ![0] bcast_S650000_S650000x1_0 b⟩]
        concatenates_S650000x1_S650000x1_S650000x2_d1 (ix2 (n0 := 650000) (n1 := 2) e 1) = b (ix1 e) := by
  refine (concatenate_pair_apply_right (t := S650000x2) (s₁ := S650000x1) (s₂ := S650000x1) (1 : Fin 2) _ _ concatenates_S650000x1_S650000x1_S650000x2_d1 _ rfl rfl
    (ix2 (n0 := 650000) (n1 := 1) e 0) (fun c hc => ?_) ?_).trans ?_
  · match c with
    | ⟨0, _⟩ => rfl
    | ⟨1, _⟩ => exact absurd rfl hc
  · rfl
  · exact bcastCol_apply _ b e 0

/-! ## The three stretches' results as terms -/

set_option maxHeartbeats 8000000 in
theorem s0_v5 (W : Valuation τ sig (Elt Ideal)) :
    StableHlo.after hostOps0 W (Proc.devRef .tc main_v5) = kv5 (W (Proc.devRef .tc main_arg1)) := by
  simp only [hostOps0]
  after_results_simp
  rfl

set_option maxHeartbeats 8000000 in
theorem s0_v6 (W : Valuation τ sig (Elt Ideal)) :
    StableHlo.after hostOps0 W (Proc.devRef .tc main_v6) = kv6 (W (Proc.devRef .tc main_arg1)) := by
  simp only [hostOps0]
  after_results_simp
  rfl

set_option maxHeartbeats 8000000 in
theorem s0_v12 (W : Valuation τ sig (Elt Ideal)) :
    StableHlo.after hostOps0 W (Proc.devRef .tc main_v12)
      = cmpf (F := Ideal) .ogt (kv10 (W (Proc.devRef .tc main_arg1)))
          (broadcastInDim S10000 ![] bcast_S_S10000 (constant (F := Ideal) S_ .f32 0x00000000#32)) := by
  simp only [hostOps0]
  after_results_simp
  rfl

set_option maxHeartbeats 8000000 in
theorem s0_v13 (W : Valuation τ sig (Elt Ideal)) :
    StableHlo.after hostOps0 W (Proc.devRef .tc main_v13) = Host.rsqrt (kv10 (W (Proc.devRef .tc main_arg1))) := by
  simp only [hostOps0]
  after_results_simp
  rfl

set_option maxHeartbeats 8000000 in
theorem s0_cst_2 (W : Valuation τ sig (Elt Ideal)) :
    StableHlo.after hostOps0 W (Proc.devRef .tc main_cst_2) = constant (F := Ideal) S_ .f32 0x00000000#32 := by
  simp only [hostOps0]
  after_results_simp

set_option maxHeartbeats 8000000 in
theorem s1_v14 (W : Valuation τ sig (Elt Ideal)) :
    StableHlo.after hostOps0_1 W (Proc.devRef .tc main_v14)
      = select (W (Proc.devRef .tc main_v12)) (W (Proc.devRef .tc main_v13))
          (broadcastInDim S10000 ![] bcast_S_S10000 (id (W (Proc.devRef .tc main_cst_2)))) := by
  simp only [hostOps0_1]
  after_results_simp
  rfl

set_option maxHeartbeats 8000000 in
theorem s1_v5 (W : Valuation τ sig (Elt Ideal)) :
    StableHlo.after hostOps0_1 W (Proc.devRef .tc main_v5) = W (Proc.devRef .tc main_v5) := by
  simp only [hostOps0_1]
  after_results_simp

set_option maxHeartbeats 8000000 in
theorem s1_v6 (W : Valuation τ sig (Elt Ideal)) :
    StableHlo.after hostOps0_1 W (Proc.devRef .tc main_v6) = W (Proc.devRef .tc main_v6) := by
  simp only [hostOps0_1]
  after_results_simp

set_option maxHeartbeats 8000000 in
theorem s2_v45 (W : Valuation τ sig (Elt Ideal)) :
    StableHlo.after hostOps0_2 W (Proc.devRef .tc main_v45)
      = (truncf .bf16 (Host.scatterAdd (F := Ideal) scatter_S10240x10240_S650000x2_S650000_n_01_01_1
          (broadcastInDim S10240x10240 ![] bcast_S_S10240x10240 (constant (F := Ideal) S_ .f32 0x00000000#32))
          (concatenate S650000x2 1
            [⟨S650000x1, broadcastInDim S650000x1 ![0] bcast_S650000_S650000x1_0 (wrapK 10240#32 (W (Proc.devRef .tc main_v6)))⟩,
             ⟨S650000x1, broadcastInDim S650000x1 ![0] bcast_S650000_S650000x1_0 (wrapK 10240#32 (W (Proc.devRef .tc main_v5)))⟩]
            concatenates_S650000x1_S650000x1_S650000x2_d1)
          (mulf
            (Host.gather gather_S10000_S650000x1_S650000_n_0_n_n_0_1_1 (W (Proc.devRef .tc main_v14))
              (broadcastInDim S650000x1 ![0] bcast_S650000_S650000x1_0 (wrapK 10000#32 (W (Proc.devRef .tc main_v5)))))
            (Host.gather gather_S10000_S650000x1_S650000_n_0_n_n_0_1_1 (W (Proc.devRef .tc main_v14))
              (broadcastInDim S650000x1 ![0] bcast_S650000_S650000x1_0 (wrapK 10000#32 (W (Proc.devRef .tc main_v6)))))))
          bitsLt_bf16_f32 : (⟨S10240x10240, .bf16⟩ : BufTy).Contents (Elt Ideal)) := by
  simp only [hostOps0_2]
  after_results_simp
  rfl

/-- The adjacency after the three stretches, as a term of the edge array: the weights added into zeros at the pairs
    (destination word, source word), each normalised against 10240, then narrowed. -/
theorem A_term (W : Valuation τ sig (Elt Ideal)) :
    StableHlo.after hostOps0_2 (StableHlo.after hostOps0_1 (StableHlo.after hostOps0 W)) (Proc.devRef .tc main_v45)
      = (truncf .bf16 (Host.scatterAdd (F := Ideal) scatter_S10240x10240_S650000x2_S650000_n_01_01_1
          (broadcastInDim S10240x10240 ![] bcast_S_S10240x10240 (constant (F := Ideal) S_ .f32 0x00000000#32))
          (concatenate S650000x2 1
            [⟨S650000x1, broadcastInDim S650000x1 ![0] bcast_S650000_S650000x1_0 (wrapK 10240#32 (kv6 (W (Proc.devRef .tc main_arg1))))⟩,
             ⟨S650000x1, broadcastInDim S650000x1 ![0] bcast_S650000_S650000x1_0 (wrapK 10240#32 (kv5 (W (Proc.devRef .tc main_arg1))))⟩]
            concatenates_S650000x1_S650000x1_S650000x2_d1)
          (kv29 (W (Proc.devRef .tc main_arg1))))
          bitsLt_bf16_f32 : (⟨S10240x10240, .bf16⟩ : BufTy).Contents (Elt Ideal)) := by
  rw [s2_v45, s1_v14, s1_v5, s1_v6, s0_v5, s0_v6, s0_v12, s0_v13, s0_cst_2]
  rfl

/-! ## The edge words are node numbers -/

theorem ofNat_loop_toInt (n : Nat) (h : n < 10000) : (BitVec.ofNat 32 n).toInt = (n : ℤ) := by
  have hn : (BitVec.ofNat 32 n).toNat = n := by
    rw [BitVec.toNat_ofNat]
    exact Nat.mod_eq_of_lt (by omega)
  rw [BitVec.toInt_eq_toNat_cond, hn, if_pos (by omega)]

theorem srcW_range (E : (⟨2, ![2, 640000]⟩ : Shape).Idx → BitVec 32) (hE : Cert.Spec.InRange E) (e : Fin 650000) :
    0 ≤ (Cert.Spec.srcW E e).toInt ∧ (Cert.Spec.srcW E e).toInt < 10000 := by
  unfold Cert.Spec.srcW
  split
  · exact hE 0 _
  · next h =>
    have he := e.isLt
    rw [ofNat_loop_toInt _ (by omega)]
    omega

theorem dstW_range (E : (⟨2, ![2, 640000]⟩ : Shape).Idx → BitVec 32) (hE : Cert.Spec.InRange E) (e : Fin 650000) :
    0 ≤ (Cert.Spec.dstW E e).toInt ∧ (Cert.Spec.dstW E e).toInt < 10000 := by
  unfold Cert.Spec.dstW
  split
  · exact hE 1 _
  · next h =>
    have he := e.isLt
    rw [ofNat_loop_toInt _ (by omega)]
    omega

/-- THE DENSE ADJACENCY. After the three host stretches, entry (d, s) of the adjacency is the sum of the weights of
    the edges of the extended list whose destination word, read signed, is d and whose source word is s. -/
theorem A_value (W : Valuation τ sig (Elt Ideal)) (hE : Cert.Spec.InRange (W (Proc.devRef .tc main_arg1)))
    (d s : Fin 10240) :
    StableHlo.after hostOps0_2 (StableHlo.after hostOps0_1 (StableHlo.after hostOps0 W)) (Proc.devRef .tc main_v45)
        (ValueIdx.ix2 (n0 := 10240) (n1 := 10240) d s)
      = ∑ e ∈ Finset.univ.filter (fun e : Fin 650000 =>
          (Cert.Spec.dstW (W (Proc.devRef .tc main_arg1)) e).toInt = (d.val : ℤ)
            ∧ (Cert.Spec.srcW (W (Proc.devRef .tc main_arg1)) e).toInt = (s.val : ℤ)),
          nrmK (W (Proc.devRef .tc main_arg1)) e := by
  rw [A_term W, truncf_apply]
  refine (eltScatterAdd_apply (N := 10240) (M := 10240) (E := 650000)
    scatter_S10240x10240_S650000x2_S650000_n_01_01_1_wf _ _ _ d s).trans ?_
  rw [bcastScalar_apply, constant_apply, Ideal.ofBits_zero_f32, zero_add]
  refine Finset.sum_congr (Finset.filter_congr fun e _ => ?_) (fun e _ => rfl)
  rw [pairs_apply_zero, pairs_apply_one,
    wrapK_of_nonneg _ _ _ (by rw [kv6_apply]; exact (dstW_range _ hE e).1),
    wrapK_of_nonneg _ _ _ (by rw [kv5_apply]; exact (srcW_range _ hE e).1), kv6_apply, kv5_apply]

end Cert.KernelIdeal.Hand

end
-- ==== Proof.NormEq.lean ====
/-
  The edge weights of the two programs are one function of the edge array: the kernel program's host code and the
  reference compute them by the same chain of operations (extend the edge list by the self loops, count the
  in-degrees, take the reciprocal square root of the positive counts, multiply the two factors at an edge's end
  points), each spelt over its own program's shapes and dimension numbers, which are equal.
-/
import proofs.«424741_j64287070486608_2_alg».proof.Proof.KHost
import proofs.«424741_j64287070486608_2_alg».proof.Proof.RefNorm

set_option maxRecDepth 16384

noncomputable section

namespace Cert.Proof.Norm

open Idealize.ShloMosaic Idealize.ShloMosaic.ValueIdx
open Cert.KernelIdeal.Hand (wrapK kv5 kv6 kv10 kv14 kv19 kv21 kv26 kv28 kv29 nrmK)
open Cert.ReferenceIdeal.Read

/-- The two programs' dimension numbers of the degree count are equal. -/
theorem count_dims : Cert.KernelIdeal.scatter_S10000_S650000x1_S650000_n_0_0_1
    = Cert.ReferenceIdeal.scatter_S10000_S650000x1_S650000_n_0_0_1 := rfl

/-- The two programs' dimension numbers of the factor lookup are equal. -/
theorem factor_dims : Cert.KernelIdeal.gather_S10000_S650000x1_S650000_n_0_n_n_0_1_1
    = Cert.ReferenceIdeal.gather_S10000_S650000x1_S650000_n_0_n_n_0_1_1 := rfl

variable (E : (⟨2, ![2, 640000]⟩ : Shape).Idx → BitVec 32)

/-- The source words. -/
theorem src_eq : kv5 E = val_main_v5 (F := Ideal) E := by
  unfold kv5 val_main_v5 val_main_v1 val_main_v0 val_main_v4
  rfl

/-- The destination words. -/
theorem dst_eq : kv6 E = val_main_v6 (F := Ideal) E := by
  unfold kv6 val_main_v6 val_main_v3 val_main_v2 val_main_v4
  rfl

/-- The in-degrees. -/
theorem deg_eq : kv10 E = val_main_v10 (F := Ideal) E := by
  unfold kv10 val_main_v10 val_main_v8 val_main_cst_0 val_main_v9 val_main_v7 val_main_cst
  rw [dst_eq, count_dims]

/-- The factors. -/
theorem factor_eq : kv14 E = val_main_v14 (F := Ideal) E := by
  unfold kv14 val_main_v14 val_main_v12 val_main_v11 val_main_cst_1 val_main_v13 val_main_call0_v1 val_main_call0_v0 val_main_cst_2
  rw [deg_eq]

/-- The normalised source words. -/
theorem wsrc_eq : kv19 E = val_main_v19 (F := Ideal) E := by
  unfold kv19 wrapK val_main_v19 val_main_v16 val_main_v15 val_main_c val_main_v18 val_main_v17 val_main_c_3
  rw [src_eq]

/-- The factor at the sources. -/
theorem fsrc_eq : kv21 E = val_main_v21 (F := Ideal) E := by
  unfold kv21 val_main_v21 val_main_v20
  rw [factor_eq, wsrc_eq, factor_dims]

/-- The normalised destination words. -/
theorem wdst_eq : kv26 E = val_main_v26 (F := Ideal) E := by
  unfold kv26 wrapK val_main_v26 val_main_v23 val_main_v22 val_main_c_4 val_main_v25 val_main_v24 val_main_c_5
  rw [dst_eq]

/-- The factor at the destinations. -/
theorem fdst_eq : kv28 E = val_main_v28 (F := Ideal) E := by
  unfold kv28 val_main_v28 val_main_v27
  rw [factor_eq, wdst_eq, factor_dims]

/-- The weights. -/
theorem weight_eq : kv29 E = val_main_v29 (F := Ideal) E := by
  unfold kv29 val_main_v29
  rw [fsrc_eq, fdst_eq]

/-- THE EDGE WEIGHTS OF THE TWO PROGRAMS ARE ONE FUNCTION. -/
theorem nrmK_eq_nrmR (E : (⟨2, ![2, 640000]⟩ : Shape).Idx → BitVec 32) :
    Cert.KernelIdeal.Hand.nrmK E = Cert.ReferenceIdeal.Hand.nrmR E := by
  funext e
  unfold Cert.KernelIdeal.Hand.nrmK Cert.ReferenceIdeal.Hand.nrmR
  rw [weight_eq]

end Cert.Proof.Norm

end
-- ==== Proof.PreRange.lean ====
/-
  The precondition read back: the printed predicate ends by comparing every word of the [2, 640000] edge array,
  signed, against 0 (at least) and 10000 (below), and-ing the two compares, reducing the and over both axes, and
  and-ing the result into the finiteness conjuncts. When the predicate is 1 every edge word, read signed, lies in
  [0, 10000): the index-range fact the graph side of the claim is stated under.
-/
import proofs.«424741_j64287070486608_2_alg».proof.Defs
import proofs.«424741_j64287070486608_2_alg».proof.Proof.Gen.Pre_finite_inputs
import proofs.«424741_j64287070486608_2_alg».proof.Proof.Spec
import Idealize.ShloMosaic.Lib.ReduceAll
import Idealize.ShloMosaic.Lib.StableHlo.Predicate
import Idealize.ShloMosaic.Lib.ValueIdx

set_option maxRecDepth 16384

noncomputable section

namespace Cert.Proof.Pre

open Idealize.ShloMosaic Idealize.ShloMosaic.TcCoe Idealize.ShloMosaic.ValueIdx Idealize.SL.Sem
open Cert.Pre_finite_inputs

/-- A rank-0 shape has one index. -/
instance subsingleton_scalar_idx : Subsingleton S_.Idx := ⟨fun a b => funext fun d => d.elim0⟩

/-- One word: the and of "at least 0, signed" and "below 10000, signed" being 1 puts the word in [0, 10000). -/
theorem word_range (x : BitVec 32)
    (h : IntOp.andi (IntOp.cmpi .sge x 0#32) (IntOp.cmpi .slt x 10000#32) = 1#1) :
    0 ≤ x.toInt ∧ x.toInt < 10000 := by
  obtain ⟨h0, h1⟩ := IntOp.andi_eq_one.1 h
  have h0' := IntOp.cmpi_sge.1 h0
  have h1' := IntOp.cmpi_slt.1 h1
  have z : (0#32 : BitVec 32).toInt = 0 := by decide
  have t : (10000#32 : BitVec 32).toInt = 10000 := by decide
  rw [z] at h0'
  rw [t] at h1'
  exact ⟨h0', h1'⟩

/-- The predicate's tail: its last conjunct is the reduce-and of the two compares of the edge array. -/
theorem inRange_of_part1 {F : FTy → Type} [FloatOps F] [Cert.Pre_finite_inputs.Facts]
    (a1 : IVec S2x640000 32) (a5 : FVec F S128 .f32) (v13 : IVec S_ 1) (v16 : IVec S128x128 1)
    (h : fn_part1 (F := F) a1 a5 v13 v16 ix0 = 1#1) : Cert.Spec.InRange a1 := by
  intro r e
  -- the result at its one index is the and of the finiteness conjuncts with the range conjunct
  change IntOp.andi _ (Host.reduce IntOp.andi _ _ _ _ ix0) = 1#1 at h
  obtain ⟨-, h2⟩ := IntOp.andi_eq_one.1 h
  -- the reduce-and over both axes being 1, every element of the and of the two compares is 1
  have h3 := Host.reduce_andi_all _ _ _ _ ix0 h2 (ix2 (n0 := 2) (n1 := 640000) r e)
  -- at an index: the two compares of the word there against the broadcast constants 0 and 10000
  exact word_range _ h3

/-- THE PRECONDITION DECODED: the predicate being all ones, every edge word names a node. -/
theorem inRange_of_fn {F : FTy → Type} [FloatOps F] [Cert.Pre_finite_inputs.Facts]
    (a0 : FVec F S10000x128 .f32) (a1 : IVec S2x640000 32) (a2 : FVec F S128x128 .f32) (a3 : FVec F S128 .f32)
    (a4 : FVec F S128x128 .f32) (a5 : FVec F S128 .f32)
    (h : Cert.Pre_finite_inputs.fn (F := F) a0 a1 a2 a3 a4 a5 = fun _ => 1#1) : Cert.Spec.InRange a1 := by
  have e := congrFun h ix0
  exact inRange_of_part1 (F := F) a1 a5 _ _ e

/-- The kernel's precondition gives the range fact of the edge array it holds, on every device. -/
theorem inRange_KernelIdeal (hf : Cert.Pre_finite_inputs.Facts)
    (m : (ℓ : Loc Cert.KernelIdeal.nD Cert.KernelIdeal.τ Cert.KernelIdeal.sig) → Buf (Elt Ideal) ℓ)
    (h : Cert.Pre_KernelIdeal (hPre_finite_inputs := hf) m) (c : Dev Cert.KernelIdeal.nD) :
    Cert.Spec.InRange (m ((c.tc : Thread Cert.KernelIdeal.nD Cert.KernelIdeal.τ).loc Cert.KernelIdeal.main_arg1)) :=
  inRange_of_fn (F := Ideal) _ _ _ _ _ _ (h c)

/-- The same at the word level. -/
theorem inRange_Kernel (hf : Cert.Pre_finite_inputs.Facts)
    (m : (ℓ : Loc Cert.Kernel.nD Cert.Kernel.τ Cert.Kernel.sig) → Buf (Elt Bits) ℓ)
    (h : Cert.Pre_Kernel (hPre_finite_inputs := hf) m) (c : Dev Cert.Kernel.nD) :
    Cert.Spec.InRange (m ((c.tc : Thread Cert.Kernel.nD Cert.Kernel.τ).loc Cert.Kernel.main_arg1)) :=
  inRange_of_fn (F := Bits) _ _ _ _ _ _ (h c)

/-- The same for the reference's argument array. -/
theorem inRange_ReferenceIdeal (hf : Cert.Pre_finite_inputs.Facts)
    (m : (ℓ : Loc Cert.ReferenceIdeal.nD Cert.ReferenceIdeal.τ Cert.ReferenceIdeal.sig) → Buf (Elt Ideal) ℓ)
    (h : Cert.Pre_ReferenceIdeal (hPre_finite_inputs := hf) m) (c : Dev Cert.ReferenceIdeal.nD) :
    Cert.Spec.InRange (m ((c.tc : Thread Cert.ReferenceIdeal.nD Cert.ReferenceIdeal.τ).loc Cert.ReferenceIdeal.main_arg1)) :=
  inRange_of_fn (F := Ideal) _ _ _ _ _ _ (h c)

end Cert.Proof.Pre

end
-- ==== Proof.Lin0Val.lean ====
import proofs.«424741_j64287070486608_2_alg».proof.Proof.Lin0
import proofs.«424741_j64287070486608_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! # Region 0 at the extended reals: the array its ten write-backs leave is the table times the weight -/

theorem hz0 : (![0, 0] : Fin 2 → Nat) = fun _ => 0 := funext fun a => by fin_cases a <;> rfl

/-- The block product at one element: row `p` of the table block against column `q` of the weight. The format
    changes are the identity at the extended reals, the accumulator is the zero splat, and the one contracted axis is
    re-indexed by its coordinate. -/
theorem pay0_apply (x0 : Vec Ideal S1024x128 .f32) (x1 : Vec Ideal S128x128 .f32) (p : Fin 1024) (q : Fin 128) :
    k0_pay1 (F := Ideal) x0 x1 (ix2 (n0 := 1024) (n1 := 128) p q)
      = ∑ k : Fin 128, x0 (ix2 (n0 := 1024) (n1 := 128) p k) * x1 (ix2 (n0 := 128) (n1 := 128) k q) := by
  unfold k0_pay1
  refine (Ideal.matmul_constant_zero_apply dot_S1024x128_S128x128_S1024x128_1_0_0_1_n_n none _ _ _).trans ?_
  rw [← Equiv.sum_comp (contrEquiv1 dot_S1024x128_S128x128_S1024x128_1_0_0_1_n_n 128 rfl rfl).symm]
  refine Finset.sum_congr rfl fun k _ => ?_
  have ck := contrEquiv1_symm_val dot_S1024x128_S128x128_S1024x128_1_0_0_1_n_n 128 rfl rfl k
  have hl : dot_S1024x128_S128x128_S1024x128_1_0_0_1_n_n.lhsIdx (ix2 (n0 := 1024) (n1 := 128) p q)
      ((contrEquiv1 dot_S1024x128_S128x128_S1024x128_1_0_0_1_n_n 128 rfl rfl).symm k) = ix2 (n0 := 1024) (n1 := 128) p k := by
    funext ax; apply Fin.ext
    match ax with
    | ⟨0, _⟩ => simp [DotDims.lhsIdx, dot_S1024x128_S128x128_S1024x128_1_0_0_1_n_n]; rfl
    | ⟨1, _⟩ => simp [DotDims.lhsIdx, dot_S1024x128_S128x128_S1024x128_1_0_0_1_n_n]; exact ck
  have hr : dot_S1024x128_S128x128_S1024x128_1_0_0_1_n_n.rhsIdx (ix2 (n0 := 1024) (n1 := 128) p q)
      ((contrEquiv1 dot_S1024x128_S128x128_S1024x128_1_0_0_1_n_n 128 rfl rfl).symm k) = ix2 (n0 := 128) (n1 := 128) k q := by
    funext ax; apply Fin.ext
    match ax with
    | ⟨0, _⟩ => simp [DotDims.rhsIdx, dot_S1024x128_S128x128_S1024x128_1_0_0_1_n_n]; exact ck
    | ⟨1, _⟩ => simp [DotDims.rhsIdx, dot_S1024x128_S128x128_S1024x128_1_0_0_1_n_n]; rfl
  rw [hl, hr]
  show (shapeCast S1024x128 x0 shapeCasts_S1024x128_S1024x128) (ix2 (n0 := 1024) (n1 := 128) p k) * x1 (ix2 (n0 := 128) (n1 := 128) k q) = _
  rw [shapeCast_self]

/-- What the body leaves in the output buffer, at one element: the one whole-block store of the block product. -/
theorem out0_2_apply (x0 : Vec Ideal S1024x128 .f32) (x1 : Vec Ideal S128x128 .f32) (p : Fin 1024) (q : Fin 128) :
    out0_2 (F := Ideal) x0 x1 (ix2 (n0 := 1024) (n1 := 128) p q)
      = ∑ k : Fin 128, x0 (ix2 (n0 := 1024) (n1 := 128) p k) * x1 (ix2 (n0 := 128) (n1 := 128) k q) := by
  unfold out0_2
  rw [View.canon_unit_zero hz0]
  simp only [View.ld_unit_zero (S := S1024x128) hz0, View.ld_unit_zero (S := S128x128) hz0]
  exact pay0_apply x0 x1 p q

/-- The printed index maps, decided over the ten points: the table and the output move down one block of 1024 rows per
    point, the weight stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows is some point's. -/
theorem idx_onto0 : ∀ (q0 : Fin 10), ∃ t : Fin cfg0.N, win0_2.index t = ![q0.val, 0] :=
  (by decide +kernel : ∀ (q0 : Fin 10), ∃ t : Fin grid0.N, win0_2.index t = ![q0.val, 0])

/-- What point `t` writes back is block `t` of the table times the weight. -/
theorem flushed0_2_eq (c : Dev nD) (t : Fin cfg0.N) :
    (dat0 (F := Ideal) V c).flushed 2 t
      = ((cfg0.win 2).blk t).view.read (Elt Ideal) (Cert.Spec.lin (R := 10240) (V c main_v46) (V c main_arg2)) := by
  show (cfg0.win 2).cut (grid0.coords t) ((dat0 V c).after 2 t) = _
  rw [after0_2]
  obtain ⟨e0, e1, e2, e3, e4, e5⟩ := idx_facts0 t
  funext (j : S1024x128.Idx)
  obtain ⟨p, q, rfl⟩ : ∃ (p : Fin 1024) (q : Fin 128), j = ix2 (n0 := 1024) (n1 := 128) p q := ⟨j 0, j 1, eq_ix2 j⟩
  show out0_2 (F := Ideal) (iblk0 V c 0 t) (iblk0 V c 1 t) (ix2 (n0 := 1024) (n1 := 128) p q)
    = Cert.Spec.lin (R := 10240) (V c main_v46) (V c main_arg2) (((cfg0.win 2).blk t).view.emb (ix2 (n0 := 1024) (n1 := 128) p q))
  rw [out0_2_apply]
  unfold Cert.Spec.lin
  refine Finset.sum_congr rfl fun k _ => ?_
  congr 1
  · show V c main_v46 (((cfg0.win 0).blk t).view.emb (ix2 (n0 := 1024) (n1 := 128) p k)) = V c main_v46 _
    congr 1
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 128 + 1 * k.val = k.val; omega
  · show V c main_arg2 (((cfg0.win 1).blk t).view.emb (ix2 (n0 := 128) (n1 := 128) k q)) = V c main_arg2 _
    congr 1
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the array is in point `t`'s block iff each coordinate is in the block's range on its axis. -/
theorem mem_blk0_2 (t : Fin cfg0.N) (i : S10240x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v47).slice (win0_2.rect t)).set ↔ _
  rw [View.set_slice_whole, Rect.mem_set_unit]
  exact Iff.rfl

/-- The ten blocks of 1024 rows cover the 10240 rows. -/
theorem cover0_2_arr (i : S10240x128.Idx) : ∃ t : Fin cfg0.N, (cfg0.win 2).flush t = true ∧ i ∈ ((cfg0.win 2).blk t).view.set := by
  have hi0 : (i 0).val < 10240 := (i 0).isLt
  have hi1 : (i 1).val < 128 := (i 1).isLt
  obtain ⟨t, ht⟩ := idx_onto0 ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- The array after the region's ten write-backs: index by index, the row of the table against the column of the weight. -/
theorem final0 (V : (c : Dev nD) → (b : Ref sig .tc) → Buf (Elt Ideal) ((c : Thread nD τ).loc b)) (c : Dev nD) :
    (dat0 (F := Ideal) V c).arrAt 2 cfg0.N = Cert.Spec.lin (R := 10240) (V c main_v46) (V c main_arg2) :=
  (dat0 (F := Ideal) V c).arrAt_eq_of_cover 2 (Cert.Spec.lin (R := 10240) (V c main_v46) (V c main_arg2))
    (fun t _ => flushed0_2_eq V c t) cover0_2_arr

end Cert.KernelIdeal.Hand

end
-- ==== Proof.Lin2Val.lean ====
import proofs.«424741_j64287070486608_2_alg».proof.Proof.Lin2
import proofs.«424741_j64287070486608_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! # Region 2 at the extended reals: the array its ten write-backs leave is the table times the weight -/

theorem hz2 : (![0, 0] : Fin 2 → Nat) = fun _ => 0 := funext fun a => by fin_cases a <;> rfl

/-- The block product at one element: row `p` of the table block against column `q` of the weight. The format
    changes are the identity at the extended reals, the accumulator is the zero splat, and the one contracted axis is
    re-indexed by its coordinate. -/
theorem pay2_apply (x0 : Vec Ideal S1024x128 .f32) (x1 : Vec Ideal S128x128 .f32) (p : Fin 1024) (q : Fin 128) :
    k2_pay1 (F := Ideal) x0 x1 (ix2 (n0 := 1024) (n1 := 128) p q)
      = ∑ k : Fin 128, x0 (ix2 (n0 := 1024) (n1 := 128) p k) * x1 (ix2 (n0 := 128) (n1 := 128) k q) := by
  unfold k2_pay1
  refine (Ideal.matmul_constant_zero_apply dot_S1024x128_S128x128_S1024x128_1_0_0_1_n_n none _ _ _).trans ?_
  rw [← Equiv.sum_comp (contrEquiv1 dot_S1024x128_S128x128_S1024x128_1_0_0_1_n_n 128 rfl rfl).symm]
  refine Finset.sum_congr rfl fun k _ => ?_
  have ck := contrEquiv1_symm_val dot_S1024x128_S128x128_S1024x128_1_0_0_1_n_n 128 rfl rfl k
  have hl : dot_S1024x128_S128x128_S1024x128_1_0_0_1_n_n.lhsIdx (ix2 (n0 := 1024) (n1 := 128) p q)
      ((contrEquiv1 dot_S1024x128_S128x128_S1024x128_1_0_0_1_n_n 128 rfl rfl).symm k) = ix2 (n0 := 1024) (n1 := 128) p k := by
    funext ax; apply Fin.ext
    match ax with
    | ⟨0, _⟩ => simp [DotDims.lhsIdx, dot_S1024x128_S128x128_S1024x128_1_0_0_1_n_n]; rfl
    | ⟨1, _⟩ => simp [DotDims.lhsIdx, dot_S1024x128_S128x128_S1024x128_1_0_0_1_n_n]; exact ck
  have hr : dot_S1024x128_S128x128_S1024x128_1_0_0_1_n_n.rhsIdx (ix2 (n0 := 1024) (n1 := 128) p q)
      ((contrEquiv1 dot_S1024x128_S128x128_S1024x128_1_0_0_1_n_n 128 rfl rfl).symm k) = ix2 (n0 := 128) (n1 := 128) k q := by
    funext ax; apply Fin.ext
    match ax with
    | ⟨0, _⟩ => simp [DotDims.rhsIdx, dot_S1024x128_S128x128_S1024x128_1_0_0_1_n_n]; exact ck
    | ⟨1, _⟩ => simp [DotDims.rhsIdx, dot_S1024x128_S128x128_S1024x128_1_0_0_1_n_n]; rfl
  rw [hl, hr]
  show (shapeCast S1024x128 x0 shapeCasts_S1024x128_S1024x128) (ix2 (n0 := 1024) (n1 := 128) p k) * x1 (ix2 (n0 := 128) (n1 := 128) k q) = _
  rw [shapeCast_self]

/-- What the body leaves in the output buffer, at one element: the one whole-block store of the block product. -/
theorem out2_2_apply (x0 : Vec Ideal S1024x128 .f32) (x1 : Vec Ideal S128x128 .f32) (p : Fin 1024) (q : Fin 128) :
    out2_2 (F := Ideal) x0 x1 (ix2 (n0 := 1024) (n1 := 128) p q)
      = ∑ k : Fin 128, x0 (ix2 (n0 := 1024) (n1 := 128) p k) * x1 (ix2 (n0 := 128) (n1 := 128) k q) := by
  unfold out2_2
  rw [View.canon_unit_zero hz2]
  simp only [View.ld_unit_zero (S := S1024x128) hz2, View.ld_unit_zero (S := S128x128) hz2]
  exact pay2_apply x0 x1 p q

/-- The printed index maps, decided over the ten points: the table and the output move down one block of 1024 rows per
    point, the weight stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block of rows is some point's. -/
theorem idx_onto2 : ∀ (q0 : Fin 10), ∃ t : Fin cfg2.N, win2_2.index t = ![q0.val, 0] :=
  (by decide +kernel : ∀ (q0 : Fin 10), ∃ t : Fin grid2.N, win2_2.index t = ![q0.val, 0])

/-- What point `t` writes back is block `t` of the table times the weight. -/
theorem flushed2_2_eq (c : Dev nD) (t : Fin cfg2.N) :
    (dat2 (F := Ideal) V c).flushed 2 t
      = ((cfg2.win 2).blk t).view.read (Elt Ideal) (Cert.Spec.lin (R := 10240) (V c main_v56) (V c main_arg4)) := by
  show (cfg2.win 2).cut (grid2.coords t) ((dat2 V c).after 2 t) = _
  rw [after2_2]
  obtain ⟨e0, e1, e2, e3, e4, e5⟩ := idx_facts2 t
  funext (j : S1024x128.Idx)
  obtain ⟨p, q, rfl⟩ : ∃ (p : Fin 1024) (q : Fin 128), j = ix2 (n0 := 1024) (n1 := 128) p q := ⟨j 0, j 1, eq_ix2 j⟩
  show out2_2 (F := Ideal) (iblk2 V c 0 t) (iblk2 V c 1 t) (ix2 (n0 := 1024) (n1 := 128) p q)
    = Cert.Spec.lin (R := 10240) (V c main_v56) (V c main_arg4) (((cfg2.win 2).blk t).view.emb (ix2 (n0 := 1024) (n1 := 128) p q))
  rw [out2_2_apply]
  unfold Cert.Spec.lin
  refine Finset.sum_congr rfl fun k _ => ?_
  congr 1
  · show V c main_v56 (((cfg2.win 0).blk t).view.emb (ix2 (n0 := 1024) (n1 := 128) p k)) = V c main_v56 _
    congr 1
    funext a; apply Fin.ext
    match a with
    | ⟨0, _⟩ => show win2_0.index t (0 : Fin 2) * 1024 + 1 * p.val = win2_2.index t (0 : Fin 2) * 1024 + 1 * p.val; omega
    | ⟨1, _⟩ => show win2_0.index t (1 : Fin 2) * 128 + 1 * k.val = k.val; omega
  · show V c main_arg4 (((cfg2.win 1).blk t).view.emb (ix2 (n0 := 128) (n1 := 128) k q)) = V c main_arg4 _
    congr 1
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega

/-- An index of the array is in point `t`'s block iff each coordinate is in the block's range on its axis. -/
theorem mem_blk2_2 (t : Fin cfg2.N) (i : S10240x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v57).slice (win2_2.rect t)).set ↔ _
  rw [View.set_slice_whole, Rect.mem_set_unit]
  exact Iff.rfl

/-- The ten blocks of 1024 rows cover the 10240 rows. -/
theorem cover2_2_arr (i : S10240x128.Idx) : ∃ t : Fin cfg2.N, (cfg2.win 2).flush t = true ∧ i ∈ ((cfg2.win 2).blk t).view.set := by
  have hi0 : (i 0).val < 10240 := (i 0).isLt
  have hi1 : (i 1).val < 128 := (i 1).isLt
  obtain ⟨t, ht⟩ := idx_onto2 ⟨(i 0).val / 1024, by omega⟩
  have q0 : win2_2.index t (0 : Fin 2) = (i 0).val / 1024 := congrFun ht 0
  have q1 : win2_2.index t (1 : Fin 2) = 0 := congrFun ht 1
  refine ⟨t, flush2_2 t, ?_⟩
  rw [mem_blk2_2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 128 ≤ (i 1).val ∧ (i 1).val < win2_2.index t (1 : Fin 2) * 128 + 128; omega

/-- The array after the region's ten write-backs: index by index, the row of the table against the column of the weight. -/
theorem final2 (V : (c : Dev nD) → (b : Ref sig .tc) → Buf (Elt Ideal) ((c : Thread nD τ).loc b)) (c : Dev nD) :
    (dat2 (F := Ideal) V c).arrAt 2 cfg2.N = Cert.Spec.lin (R := 10240) (V c main_v56) (V c main_arg4) :=
  (dat2 (F := Ideal) V c).arrAt_eq_of_cover 2 (Cert.Spec.lin (R := 10240) (V c main_v56) (V c main_arg4))
    (fun t _ => flushed2_2_eq V c t) cover2_2_arr

end Cert.KernelIdeal.Hand

end
-- ==== Proof.Algebra.lean ====
/-
  The algebra that joins the two programs: a dense "adjacency times table" row, whose adjacency entries are sums of
  non-negative edge weights, is the edge-by-edge sum "table row of the edge's source, times the edge's weight".
  Distributing a table entry over a sum of weights needs the weights non-negative on the extended reals; regrouping the
  edges by their source node is a plain re-indexing of a finite sum.
-/
import proofs.«424741_j64287070486608_2_alg».proof.Proof.Spec
import Mathlib.Data.EReal.Operations
import Mathlib.Algebra.BigOperators.Group.Finset.Basic
import Mathlib.Algebra.BigOperators.Group.Finset.Sigma
import Mathlib.Algebra.Order.BigOperators.Group.Finset

noncomputable section

open scoped BigOperators

namespace Cert.Spec

open Idealize.ShloMosaic Idealize.ShloMosaic.ValueIdx

/-- A sum of non-negative extended reals times a factor is the sum of the products. -/
theorem sum_mul_of_nonneg {ι : Type} [DecidableEq ι] (s : Finset ι) (f : ι → EReal) (hf : ∀ i ∈ s, 0 ≤ f i) (c : EReal) :
    (∑ i ∈ s, f i) * c = ∑ i ∈ s, f i * c := by
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih (fun i hi => hf i (Finset.mem_insert_of_mem hi))]

/-- A self-loop word reads back as its node number. -/
theorem toInt_ofNat_small (n : Nat) (hn : n < 10000) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

theorem srcW_range (E : (⟨2, ![2, 640000]⟩ : Shape).Idx → BitVec 32) (hE : InRange E) (e : Fin 650000) :
    0 ≤ (srcW E e).toInt ∧ (srcW E e).toInt < 10000 := by
  unfold srcW
  split
  · exact hE 0 _
  · rw [toInt_ofNat_small _ (by have := e.isLt; omega)]
    have := e.isLt
    omega

/-- The column of the padded adjacency that an edge's source node occupies. -/
def srcCol (E : (⟨2, ![2, 640000]⟩ : Shape).Idx → BitVec 32) (e : Fin 650000) : Fin 10240 :=
  ⟨(nodeOf (srcW E e)).val, by have := (nodeOf (srcW E e)).isLt; omega⟩

theorem srcCol_eq_iff (E : (⟨2, ![2, 640000]⟩ : Shape).Idx → BitVec 32) (hE : InRange E) (e : Fin 650000) (s : Fin 10240) :
    (srcW E e).toInt = (s.val : ℤ) ↔ srcCol E e = s := by
  have hr := srcW_range E hE e
  have hv : (srcCol E e).val = (srcW E e).toInt.toNat := by
    show min (srcW E e).toInt.toNat 9999 = _
    omega
  constructor
  · intro h
    apply Fin.ext
    rw [hv]; omega
  · intro h
    have := congrArg Fin.val h
    rw [hv] at this
    omega

/-- THE JOINING LAW, one entry: row `d` of the dense adjacency (entries: sums of the non-negative weights of the edges
    from `s` to `d`) against column `q` of a padded table whose first 10000 rows are `Y W`, plus the bias, is the
    layer's edge-by-edge sum at `(d, q)`. -/
theorem agg_eq_layer (E : (⟨2, ![2, 640000]⟩ : Shape).Idx → BitVec 32) (hE : InRange E)
    (w : Fin 650000 → EReal) (hw : ∀ e, 0 ≤ w e)
    (A : (⟨2, ![10240, 10240]⟩ : Shape).Idx → EReal)
    (hA : ∀ d s : Fin 10240, A (ix2 (n0 := 10240) (n1 := 10240) d s)
      = ∑ e ∈ Finset.univ.filter (fun e : Fin 650000 => (dstW E e).toInt = (d.val : ℤ) ∧ (srcW E e).toInt = (s.val : ℤ)), w e)
    (Xl : (⟨2, ![10240, 128]⟩ : Shape).Idx → EReal) (Y : (⟨2, ![10000, 128]⟩ : Shape).Idx → EReal)
    (W : (⟨2, ![128, 128]⟩ : Shape).Idx → EReal)
    (hX : ∀ (r : Fin 10000) (q : Fin 128), Xl (ix2 (n0 := 10240) (n1 := 128) ⟨r.val, by omega⟩ q) = lin (R := 10000) Y W (ix2 (n0 := 10000) (n1 := 128) r q))
    (b' : (⟨2, ![1, 128]⟩ : Shape).Idx → EReal) (b : (⟨1, ![128]⟩ : Shape).Idx → EReal)
    (hb : ∀ q : Fin 128, b' (ix2 (n0 := 1) (n1 := 128) 0 q) = b (ix1 (n := 128) q))
    (d : Fin 10000) (q : Fin 128) :
    agg A Xl b' (ix2 (n0 := 10240) (n1 := 128) ⟨d.val, by omega⟩ q)
      = layer (dstW E) (fun e => nodeOf (srcW E e)) w Y W b (ix2 (n0 := 10000) (n1 := 128) d q) := by
  classical
  have hd : d.val < 10240 := by omega
  unfold agg layer
  dsimp only
  rw [hb q]
  refine congrArg (· + b (ix1 (n := 128) q)) ?_
  set T : Finset (Fin 650000) := Finset.univ.filter (fun e : Fin 650000 => (dstW E e).toInt = (d.val : ℤ)) with hT
  have hfib : ∀ s : Fin 10240, A (ix2 (n0 := 10240) (n1 := 10240) ⟨d.val, hd⟩ s) * Xl (ix2 (n0 := 10240) (n1 := 128) s q)
      = ∑ e ∈ T.filter (fun e => srcCol E e = s), w e * Xl (ix2 (n0 := 10240) (n1 := 128) (srcCol E e) q) := by
    intro s
    rw [hA ⟨d.val, hd⟩ s]
    have hset : Finset.univ.filter (fun e : Fin 650000 => (dstW E e).toInt = ((⟨d.val, hd⟩ : Fin 10240).val : ℤ) ∧ (srcW E e).toInt = (s.val : ℤ))
        = T.filter (fun e => srcCol E e = s) := by
      ext e
      simp only [hT, Finset.mem_filter, Finset.mem_univ, true_and]
      rw [srcCol_eq_iff E hE e s]
    rw [hset, sum_mul_of_nonneg _ _ (fun e _ => hw e)]
    refine Finset.sum_congr rfl fun e he => ?_
    rw [(Finset.mem_filter.mp he).2]
  rw [Finset.sum_congr rfl (fun s _ => hfib s), Finset.sum_fiberwise T (srcCol E) (fun e => w e * Xl (ix2 (n0 := 10240) (n1 := 128) (srcCol E e) q))]
  refine Finset.sum_congr rfl fun e _ => ?_
  rw [EReal.mul_comm]
  exact congrArg (· * w e) (hX (nodeOf (srcW E e)) q)

end Cert.Spec

end
-- ==== Proof.Stages.lean ====
/-
  The kernel's four stages, composed: table times weight, dense aggregation plus bias, rows past the 10000 nodes
  zeroed, and the same again, give at every node the two graph-convolution layers. Each aggregation is read edge by
  edge through the one-entry joining law; the padded rows never reach a node's entry, because an edge's source is a node.
-/
import proofs.«424741_j64287070486608_2_alg».proof.Proof.Spec
import proofs.«424741_j64287070486608_2_alg».proof.Proof.Algebra

noncomputable section

open scoped BigOperators

namespace Cert.Spec

open Idealize.ShloMosaic Idealize.ShloMosaic.ValueIdx

/-- A padded table times a weight agrees, on the first 10000 rows, with the unpadded table times the weight. -/
theorem lin_pad (Xl : (⟨2, ![10240, 128]⟩ : Shape).Idx → EReal) (Y : (⟨2, ![10000, 128]⟩ : Shape).Idx → EReal)
    (W : (⟨2, ![128, 128]⟩ : Shape).Idx → EReal)
    (h : ∀ (r : Fin 10000) (k : Fin 128), Xl (ix2 (n0 := 10240) (n1 := 128) ⟨r.val, by omega⟩ k) = Y (ix2 (n0 := 10000) (n1 := 128) r k))
    (r : Fin 10000) (q : Fin 128) :
    lin (R := 10240) Xl W (ix2 (n0 := 10240) (n1 := 128) ⟨r.val, by omega⟩ q) = lin (R := 10000) Y W (ix2 (n0 := 10000) (n1 := 128) r q) := by
  unfold lin
  refine Finset.sum_congr rfl fun k _ => ?_
  exact congrArg (· * W (ix2 (n0 := 128) (n1 := 128) k q)) (h r k)

theorem stages_eq_gcn (E : (⟨2, ![2, 640000]⟩ : Shape).Idx → BitVec 32) (hE : InRange E) (w : Fin 650000 → EReal) (hw : ∀ e, 0 ≤ w e)
    (A : (⟨2, ![10240, 10240]⟩ : Shape).Idx → EReal)
    (hA : ∀ d s : Fin 10240, A (ix2 (n0 := 10240) (n1 := 10240) d s) = ∑ e ∈ Finset.univ.filter (fun e : Fin 650000 => (dstW E e).toInt = (d.val : ℤ) ∧ (srcW E e).toInt = (s.val : ℤ)), w e)
    (X : (⟨2, ![10000, 128]⟩ : Shape).Idx → EReal) (Xpad : (⟨2, ![10240, 128]⟩ : Shape).Idx → EReal)
    (hXpad : ∀ (r : Fin 10000) (k : Fin 128), Xpad (ix2 (n0 := 10240) (n1 := 128) ⟨r.val, by omega⟩ k) = X (ix2 (n0 := 10000) (n1 := 128) r k))
    (W1 W2 : (⟨2, ![128, 128]⟩ : Shape).Idx → EReal) (b1 b2 : (⟨1, ![128]⟩ : Shape).Idx → EReal) (b1' b2' : (⟨2, ![1, 128]⟩ : Shape).Idx → EReal)
    (hb1 : ∀ q : Fin 128, b1' (ix2 (n0 := 1) (n1 := 128) 0 q) = b1 (ix1 (n := 128) q)) (hb2 : ∀ q : Fin 128, b2' (ix2 (n0 := 1) (n1 := 128) 0 q) = b2 (ix1 (n := 128) q))
    (O1m : (⟨2, ![10240, 128]⟩ : Shape).Idx → EReal)
    (hO1m : ∀ (d : Fin 10240) (q : Fin 128), O1m (ix2 (n0 := 10240) (n1 := 128) d q) = agg A (lin (R := 10240) Xpad W1) b1' (ix2 (n0 := 10240) (n1 := 128) d q) * (if d.val < 10000 then 1 else 0))
    (i : Fin 10000) (q : Fin 128) :
    agg A (lin (R := 10240) O1m W2) b2' (ix2 (n0 := 10240) (n1 := 128) ⟨i.val, by omega⟩ q) = gcn E w X W1 b1 W2 b2 (ix2 (n0 := 10000) (n1 := 128) i q) := by
  unfold gcn
  -- the first layer, at a node's row of the masked first aggregation
  have h1 : ∀ (r : Fin 10000) (k : Fin 128), O1m (ix2 (n0 := 10240) (n1 := 128) ⟨r.val, by omega⟩ k)
      = layer (dstW E) (fun e => nodeOf (srcW E e)) w X W1 b1 (ix2 (n0 := 10000) (n1 := 128) r k) := by
    intro r k
    rw [hO1m ⟨r.val, by omega⟩ k]
    dsimp only
    rw [if_pos r.isLt, mul_one]
    exact agg_eq_layer E hE w hw A hA (lin (R := 10240) Xpad W1) X W1 (lin_pad Xpad X W1 hXpad) b1' b1 hb1 r k
  exact agg_eq_layer E hE w hw A hA (lin (R := 10240) O1m W2) (layer (dstW E) (fun e => nodeOf (srcW E e)) w X W1 b1) W2
    (lin_pad O1m _ W2 h1) b2' b2 hb2 i q

end Cert.Spec

end
-- ==== Proof.KHostSmall.lean ====
/-
  The small host stretches of the kernel program, read at an index over the extended reals, from an arbitrary
  valuation: the feature table padded with 240 rows is the table on its first 10000 rows; a bias reshaped to one row
  is the bias; the row mask multiplies row d by 1 when d < 10000 and by 0 otherwise; the final slice keeps the first
  10000 rows.
-/
import proofs.«424741_j64287070486608_2_alg».proof.Proof.Gen.KernelIdeal.Launch
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.KernelVsHost
import Idealize.ShloMosaic.Lib.Affine
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

/-! ## The padded feature table -/

/-- Row `r < 10000` of the padded [10240, 128] table is row `r` of the [10000, 128] argument: the pad adds
    240 rows after the last and nothing else. -/
theorem Xpad_value (W : Valuation τ sig (Elt Ideal)) (r : Fin 10000) (k : Fin 128) :
    StableHlo.after hostOps0_3 W (Proc.devRef .tc main_v46) (ix2 (n0 := 10240) (n1 := 128) ⟨r.val, by omega⟩ k)
      = W (Proc.devRef .tc main_arg0) (ix2 (n0 := 10000) (n1 := 128) r k) := by
  have e : StableHlo.after hostOps0_3 W (Proc.devRef .tc main_v46)
      = pad S10240x128 ![0, 0] ![240, 0] ![0, 0] (W (Proc.devRef .tc main_arg0) : S10000x128.Idx → EReal)
          (sitofp (F := Ideal) .f32 (W (Proc.devRef .tc main_c_11) : IVec S_ 32) : S_.Idx → EReal)
          pads_S10000x128_S10240x128_02400_000 h_S_ := by
    simp only [hostOps0_3]; after_results; rfl
  rw [e]
  exact pad_apply_of_inside _ _ _ _ _ _ _ _ (ix2 (n0 := 10000) (n1 := 128) r k) (fun a => match a with
    | ⟨0, _⟩ => by show r.val = 0 + r.val * (0 + 1); omega
    | ⟨1, _⟩ => by show k.val = 0 + k.val * (0 + 1); omega)

/-! ## The bias rows -/

/-- The first layer's bias, reshaped to one row, at column `q`. -/
theorem b1row_value (W : Valuation τ sig (Elt Ideal)) (q : Fin 128) :
    StableHlo.after hostOps1 W (Proc.devRef .tc main_v48) (ix2 (n0 := 1) (n1 := 128) 0 q)
      = W (Proc.devRef .tc main_arg3) (ix1 (n := 128) q) := by
  have e : StableHlo.after hostOps1 W (Proc.devRef .tc main_v48)
      = shapeCast S1x128 (W (Proc.devRef .tc main_arg3) : S128.Idx → EReal) shapeCasts_S128_S1x128 := by
    simp only [hostOps1]; after_results; rfl
  rw [e]
  exact shapeCast_a_1a_apply _ _ 0 q

/-- The second layer's bias, reshaped to one row, at column `q`. -/
theorem b2row_value (W : Valuation τ sig (Elt Ideal)) (q : Fin 128) :
    StableHlo.after hostOps3 W (Proc.devRef .tc main_v58) (ix2 (n0 := 1) (n1 := 128) 0 q)
      = W (Proc.devRef .tc main_arg5) (ix1 (n := 128) q) := by
  have e : StableHlo.after hostOps3 W (Proc.devRef .tc main_v58)
      = shapeCast S1x128 (W (Proc.devRef .tc main_arg5) : S128.Idx → EReal) shapeCasts_S128_S1x128 := by
    simp only [hostOps3]; after_results; rfl
  rw [e]
  exact shapeCast_a_1a_apply _ _ 0 q

/-! ## The row mask -/

/-- A one-bit word that is not 1 is 0. -/
theorem bit_eq_zero_of_ne_one : ∀ b : BitVec 1, b ≠ 1#1 → b = 0#1 := by decide

/-- The mask factor of row `d`: the bit "d below 10000, signed" read as a number. -/
theorem mask_bit (d : Fin 10240) :
    (((IntOp.cmpi .slt (BitVec.ofNat 32 d.val) (10000#32 : BitVec 32)).toNat : ℝ) : EReal) = if d.val < 10000 then 1 else 0 := by
  have hd : (BitVec.ofNat 32 d.val).toInt = d.val :=
    StableHlo.Predicate.toInt_ofNat_small d.val (by have := d.isLt; omega)
  have ht : (10000#32 : BitVec 32).toInt = 10000 := by decide
  by_cases h : d.val < 10000
  · have hb : IntOp.cmpi .slt (BitVec.ofNat 32 d.val) (10000#32 : BitVec 32) = 1#1 :=
      IntOp.cmpi_slt.2 (by rw [hd, ht]; exact_mod_cast h)
    rw [hb, if_pos h]
    show (((1 : ℕ) : ℝ) : EReal) = 1
    rw [Nat.cast_one, EReal.coe_one]
  · have hb : IntOp.cmpi .slt (BitVec.ofNat 32 d.val) (10000#32 : BitVec 32) = 0#1 :=
      bit_eq_zero_of_ne_one _ (fun hc => h (by
        have := IntOp.cmpi_slt.1 hc
        rw [hd, ht] at this
        exact_mod_cast this))
    rw [hb, if_neg h]
    show (((0 : ℕ) : ℝ) : EReal) = 0
    rw [Nat.cast_zero, EReal.coe_zero]

/-- The first layer's output with its padding rows cleared: row `d` times 1 when `d < 10000`, times 0 otherwise. -/
theorem masked_value (W : Valuation τ sig (Elt Ideal)) (d : Fin 10240) (q : Fin 128) :
    Eq (α := EReal) (StableHlo.after hostOps2 W (Proc.devRef .tc main_v56) (ix2 (n0 := 10240) (n1 := 128) d q))
      (HMul.hMul (α := EReal) (β := EReal) (γ := EReal) (W (Proc.devRef .tc main_v49) (ix2 (n0 := 10240) (n1 := 128) d q))
        (if d.val < 10000 then 1 else 0)) := by
  have e : StableHlo.after hostOps2 W (Proc.devRef .tc main_v56)
      = mulf (F := Ideal) (W (Proc.devRef .tc main_v49) : FVec Ideal S10240x128 .f32)
          (broadcastInDim S10240x128 ![0, 1] bcast_S10240x1_S10240x128_0_1
            (broadcastInDim S10240x1 ![0] bcast_S10240_S10240x1_0
              (uitofp (F := Ideal) .f32
                (cmpi .slt (iotaInDim S10240 32 0)
                  (broadcastInDim S10240 ![] bcast_S_S10240 (constantI S_ 32 10000#32)))))) := by
    simp only [hostOps2]; after_results
  rw [e]
  show HMul.hMul (α := EReal) (β := EReal) (γ := EReal) (W (Proc.devRef .tc main_v49) (ix2 (n0 := 10240) (n1 := 128) d q))
      (broadcastInDim S10240x128 ![0, 1] bcast_S10240x1_S10240x128_0_1
          (broadcastInDim S10240x1 ![0] bcast_S10240_S10240x1_0
            (uitofp (F := Ideal) .f32
              (cmpi .slt (iotaInDim S10240 32 0)
                (broadcastInDim S10240 ![] bcast_S_S10240 (constantI S_ 32 10000#32)))))
          (ix2 (n0 := 10240) (n1 := 128) d q)) = _
  congr 1
  rw [broadcastInDim_apply _ bcast_S10240x1_S10240x128_0_1 _ _ (ix2 (n0 := 10240) (n1 := 1) d 0) (fun a => match a with
      | ⟨0, _⟩ => by show d.val = if (10240 : Nat) = 1 then 0 else d.val; rw [if_neg (by decide)]
      | ⟨1, _⟩ => by show (0 : Nat) = if (1 : Nat) = 1 then 0 else q.val; rw [if_pos rfl]),
    broadcastInDim_apply _ bcast_S10240_S10240x1_0 _ _ (ix1 (n := 10240) d) (fun a => match a with
      | ⟨0, _⟩ => by show d.val = if (10240 : Nat) = 1 then 0 else d.val; rw [if_neg (by decide)])]
  exact mask_bit d

/-! ## The result -/

/-- The result is the first 10000 rows of the second aggregation's output. -/
theorem result_value (W : Valuation τ sig (Elt Ideal)) (i : Fin 10000) (q : Fin 128) :
    StableHlo.after hostOps4 W (Proc.devRef .tc main_v60) (ix2 (n0 := 10000) (n1 := 128) i q)
      = W (Proc.devRef .tc main_v59) (ix2 (n0 := 10240) (n1 := 128) ⟨i.val, by omega⟩ q) := by
  have e : StableHlo.after hostOps4 W (Proc.devRef .tc main_v60)
      = extractStridedSlice S10000x128 ![0, 0] (W (Proc.devRef .tc main_v59) : S10240x128.Idx → EReal)
          slices_S10240x128_S10000x128_0_0 := by
    simp only [hostOps4]; after_results
  rw [e]
  exact slice2_axis0_apply 0 _ _ i q ⟨i.val, by omega⟩ (by show i.val = 0 + i.val; omega)

end Cert.KernelIdeal.Hand

end
-- ==== Proof.Agg1Val.lean ====
import proofs.«424741_j64287070486608_2_alg».proof.Proof.Agg1
import proofs.«424741_j64287070486608_2_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! # Region 1 at the extended reals: the written-back array is the adjacency times the table plus the bias row -/

/-- The reset value of the accumulator is zero everywhere. -/
theorem pay1_1_apply (p : Fin 1024) (q : Fin 128) :
    k1_pay1 (F := Ideal) (ix2 (n0 := 1024) (n1 := 128) p q) = 0 := by
  unfold k1_pay1
  rw [shapeCast_self]
  exact Ideal.ofBits_zero_f32

/-- One accumulation step at one element: the accumulator gains row `p` of the adjacency block against column `q` of the
    table block. The format changes are the identity at the extended reals and the matmul's own accumulator is the zero splat. -/
theorem pay1_2_apply (xs : Vec Ideal S1024x128 .f32) (xa : Vec Ideal S1024x2048 .bf16) (xb : Vec Ideal S2048x128 .bf16)
    (p : Fin 1024) (q : Fin 128) :
    k1_pay2 (F := Ideal) xs xa xb (ix2 (n0 := 1024) (n1 := 128) p q)
      = xs (ix2 (n0 := 1024) (n1 := 128) p q)
        + ∑ r : Fin 2048, xa (ix2 (n0 := 1024) (n1 := 2048) p r) * xb (ix2 (n0 := 2048) (n1 := 128) r q) := by
  unfold k1_pay2
  rw [shapeCast_self]
  refine (addf_apply _ _ _).trans ?_
  congr 1
  refine (Ideal.matmul_constant_zero_apply dot_S1024x2048_S2048x128_S1024x128_1_0_0_1_n_n none _ _ _).trans ?_
  rw [← Equiv.sum_comp (contrEquiv1 dot_S1024x2048_S2048x128_S1024x128_1_0_0_1_n_n 2048 rfl rfl).symm]
  refine Finset.sum_congr rfl fun r _ => ?_
  have cr := contrEquiv1_symm_val dot_S1024x2048_S2048x128_S1024x128_1_0_0_1_n_n 2048 rfl rfl r
  have hl : dot_S1024x2048_S2048x128_S1024x128_1_0_0_1_n_n.lhsIdx (ix2 (n0 := 1024) (n1 := 128) p q)
      ((contrEquiv1 dot_S1024x2048_S2048x128_S1024x128_1_0_0_1_n_n 2048 rfl rfl).symm r) = ix2 (n0 := 1024) (n1 := 2048) p r := by
    funext ax; apply Fin.ext
    match ax with
    | ⟨0, _⟩ => simp [DotDims.lhsIdx, dot_S1024x2048_S2048x128_S1024x128_1_0_0_1_n_n]; rfl
    | ⟨1, _⟩ => simp [DotDims.lhsIdx, dot_S1024x2048_S2048x128_S1024x128_1_0_0_1_n_n]; exact cr
  have hr : dot_S1024x2048_S2048x128_S1024x128_1_0_0_1_n_n.rhsIdx (ix2 (n0 := 1024) (n1 := 128) p q)
      ((contrEquiv1 dot_S1024x2048_S2048x128_S1024x128_1_0_0_1_n_n 2048 rfl rfl).symm r) = ix2 (n0 := 2048) (n1 := 128) r q := by
    funext ax; apply Fin.ext
    match ax with
    | ⟨0, _⟩ => simp [DotDims.rhsIdx, dot_S1024x2048_S2048x128_S1024x128_1_0_0_1_n_n]; exact cr
    | ⟨1, _⟩ => simp [DotDims.rhsIdx, dot_S1024x2048_S2048x128_S1024x128_1_0_0_1_n_n]; rfl
  rw [hl, hr]
  show (shapeCast S1024x2048 xa shapeCasts_S1024x2048_S1024x2048) (ix2 (n0 := 1024) (n1 := 2048) p r)
      * (shapeCast S2048x128 xb shapeCasts_S2048x128_S2048x128) (ix2 (n0 := 2048) (n1 := 128) r q) = _
  rw [shapeCast_self, shapeCast_self]

/-- The stored output at one element: the accumulator plus the bias of the column. -/
theorem pay1_3_apply (xs : Vec Ideal S1024x128 .f32) (xc : Vec Ideal S1x128 .f32) (p : Fin 1024) (q : Fin 128) :
    k1_pay3 (F := Ideal) xs xc (ix2 (n0 := 1024) (n1 := 128) p q)
      = xs (ix2 (n0 := 1024) (n1 := 128) p q) + xc (ix2 (n0 := 1) (n1 := 128) 0 q) := by
  unfold k1_pay3
  refine (addf_apply _ _ _).trans ?_
  congr 1
  rw [shapeCast_self]
  refine broadcastTo_apply _ _ _ _ (fun a => ?_)
  match a with
  | ⟨0, _⟩ => rfl
  | ⟨1, _⟩ => rfl

/-! ## Sums over the five column tiles -/

theorem psum1_zero (f : Fin 5 → EReal) : (∑ j : Fin 5, if j.val ≤ 0 then f j else 0) = f 0 := by
  simp [Fin.sum_univ_five]

theorem psum1_succ (f : Fin 5 → EReal) (k : ℕ) (hk : k + 1 < 5) :
    (∑ j : Fin 5, if j.val ≤ k + 1 then f j else 0) = (∑ j : Fin 5, if j.val ≤ k then f j else 0) + f ⟨k + 1, hk⟩ := by
  have hk' : k < 4 := by omega
  interval_cases k <;> simp [Fin.sum_univ_five, add_assoc]

theorem psum1_full (f : Fin 5 → EReal) : (∑ j : Fin 5, if j.val ≤ 4 then f j else 0) = ∑ j : Fin 5, f j :=
  Finset.sum_congr rfl fun j _ => if_pos (Nat.le_of_lt_succ j.isLt)

/-- The 10240 columns are five tiles of 2048. -/
theorem sum_tiles1 (g : Fin 10240 → EReal) :
    ∑ s : Fin 10240, g s = ∑ j : Fin 5, ∑ r : Fin 2048, g ⟨2048 * j.val + r.val, by have := j.isLt; have := r.isLt; omega⟩ := by
  rw [← Equiv.sum_comp (finProdFinEquiv : Fin 5 × Fin 2048 ≃ Fin 10240) g, Fintype.sum_prod_type]
  refine Finset.sum_congr rfl fun j _ => Finset.sum_congr rfl fun r _ => ?_
  refine congrArg g (Fin.ext ?_)
  show r.val + 2048 * j.val = 2048 * j.val + r.val
  omega

/-! ## The blocks the points read, through the printed index maps -/

/-- The printed index maps over the fifty points: the adjacency block sits at row tile `t / 5` and column tile `t % 5`, the
    table block at row tile `t % 5`, the bias stays, the output block sits at row tile `t / 5`. -/
theorem idx_facts1 : ∀ t : Fin cfg1.N, win1_0.index t (0 : Fin 2) = t.val / 5 ∧ win1_0.index t (1 : Fin 2) = t.val % 5
    ∧ win1_1.index t (0 : Fin 2) = t.val % 5 ∧ win1_1.index t (1 : Fin 2) = 0
    ∧ win1_2.index t (0 : Fin 2) = 0 ∧ win1_2.index t (1 : Fin 2) = 0
    ∧ win1_3.index t (0 : Fin 2) = t.val / 5 ∧ win1_3.index t (1 : Fin 2) = 0 :=
  (by decide +kernel : ∀ t : Fin grid1.N, _)

/-- The array row of local row `p` at point `t`. -/
def row1 (t : Fin cfg1.N) (p : Fin 1024) : Fin 10240 :=
  ⟨1024 * (t.val / 5) + p.val, by have hN : t.val < 50 := lt_of_lt_of_eq t.isLt (show cfg1.N = 50 from N_1); have := p.isLt; omega⟩

/-- The array column of local column `r` of column tile `j`. -/
def col1 (j : Fin 5) (r : Fin 2048) : Fin 10240 :=
  ⟨2048 * j.val + r.val, by have := j.isLt; have := r.isLt; omega⟩

abbrev blkA1 (c : Dev nD) (t : Fin cfg1.N) : Vec Ideal S1024x2048 .bf16 := iblk1 (F := Ideal) V c 0 t
abbrev blkX1 (c : Dev nD) (t : Fin cfg1.N) : Vec Ideal S2048x128 .bf16 := iblk1 (F := Ideal) V c 1 t
abbrev blkB1 (c : Dev nD) (t : Fin cfg1.N) : Vec Ideal S1x128 .f32 := iblk1 (F := Ideal) V c 2 t

theorem blkA1_apply (c : Dev nD) (t : Fin cfg1.N) (j : Fin 5) (hj : j.val = t.val % 5) (p : Fin 1024) (r : Fin 2048) :
    blkA1 V c t (ix2 (n0 := 1024) (n1 := 2048) p r)
      = V c main_v45 (ix2 (n0 := 10240) (n1 := 10240) (row1 t p) (col1 j r)) := by
  obtain ⟨e0, e1, e2, e3, e4, e5, e6, e7⟩ := idx_facts1 t
  show V c main_v45 (((cfg1.win 0).blk t).view.emb (ix2 (n0 := 1024) (n1 := 2048) p r)) = V c main_v45 _
  congr 1
  funext a; apply Fin.ext
  match a with
  | ⟨0, _⟩ => show win1_0.index t (0 : Fin 2) * 1024 + 1 * p.val = 1024 * (t.val / 5) + p.val; omega
  | ⟨1, _⟩ => show win1_0.index t (1 : Fin 2) * 2048 + 1 * r.val = 2048 * j.val + r.val; omega

theorem blkX1_apply (c : Dev nD) (t : Fin cfg1.N) (j : Fin 5) (hj : j.val = t.val % 5) (r : Fin 2048) (q : Fin 128) :
    blkX1 V c t (ix2 (n0 := 2048) (n1 := 128) r q)
      = V c main_v47 (ix2 (n0 := 10240) (n1 := 128) (col1 j r) q) := by
  obtain ⟨e0, e1, e2, e3, e4, e5, e6, e7⟩ := idx_facts1 t
  show V c main_v47 (((cfg1.win 1).blk t).view.emb (ix2 (n0 := 2048) (n1 := 128) r q)) = V c main_v47 _
  congr 1
  funext a; apply Fin.ext
  match a with
  | ⟨0, _⟩ => show win1_1.index t (0 : Fin 2) * 2048 + 1 * r.val = 2048 * j.val + r.val; omega
  | ⟨1, _⟩ => show win1_1.index t (1 : Fin 2) * 128 + 1 * q.val = q.val; omega

theorem blkB1_apply (c : Dev nD) (t : Fin cfg1.N) (q : Fin 128) :
    blkB1 V c t (ix2 (n0 := 1) (n1 := 128) 0 q) = V c main_v48 (ix2 (n0 := 1) (n1 := 128) 0 q) := by
  obtain ⟨e0, e1, e2, e3, e4, e5, e6, e7⟩ := idx_facts1 t
  show V c main_v48 (((cfg1.win 2).blk t).view.emb (ix2 (n0 := 1) (n1 := 128) 0 q)) = V c main_v48 _
  congr 1
  funext a; apply Fin.ext
  match a with
  | ⟨0, _⟩ => show win1_2.index t (0 : Fin 2) * 1 + 1 * 0 = 0; omega
  | ⟨1, _⟩ => show win1_2.index t (1 : Fin 2) * 128 + 1 * q.val = q.val; omega

/-! ## The accumulator is the partial sum over the column tiles seen so far -/

/-- Column tile `j` of the sum for array row `d` and column `q`. -/
def tile1 (A : S10240x10240.Idx → EReal) (X : S10240x128.Idx → EReal) (d : Fin 10240) (q : Fin 128) (j : Fin 5) : EReal :=
  ∑ r : Fin 2048, A (ix2 (n0 := 10240) (n1 := 10240) d (col1 j r)) * X (ix2 (n0 := 10240) (n1 := 128) (col1 j r) q)

/-- The product of the two blocks of point `t` at one element is the column tile `t % 5` of the sum. -/
theorem blk_prod1 (c : Dev nD) (t : Fin cfg1.N) (j : Fin 5) (hj : j.val = t.val % 5) (p : Fin 1024) (q : Fin 128) :
    ∑ r : Fin 2048, blkA1 V c t (ix2 (n0 := 1024) (n1 := 2048) p r) * blkX1 V c t (ix2 (n0 := 2048) (n1 := 128) r q)
      = tile1 (V c main_v45) (V c main_v47) (row1 t p) q j := by
  unfold tile1
  refine Finset.sum_congr rfl fun r _ => ?_
  rw [blkA1_apply V c t j hj, blkX1_apply V c t j hj]

theorem acc1_reset_val (c : Dev nD) (t : Fin cfg1.N) (hA : t.val % 5 = 0) (p : Fin 1024) (q : Fin 128) :
    k1_pay2 (F := Ideal) (k1_pay1 (F := Ideal)) (blkA1 V c t) (blkX1 V c t) (ix2 (n0 := 1024) (n1 := 128) p q)
      = ∑ j : Fin 5, if j.val ≤ t.val % 5 then tile1 (V c main_v45) (V c main_v47) (row1 t p) q j else 0 := by
  rw [pay1_2_apply, pay1_1_apply, zero_add, hA, psum1_zero]
  exact blk_prod1 V c t 0 hA.symm p q

theorem acc1_inv (c : Dev nD) : ∀ (n : ℕ) (hn : n < cfg1.N) (p : Fin 1024) (q : Fin 128),
    accAt1 (F := Ideal) V c n hn (ix2 (n0 := 1024) (n1 := 128) p q)
      = ∑ j : Fin 5, if j.val ≤ n % 5 then tile1 (V c main_v45) (V c main_v47) (row1 ⟨n, hn⟩ p) q j else 0 := by
  intro n
  induction n with
  | zero =>
    intro hn p q
    refine (congrFun (accAt1_reset (F := Ideal) V c ⟨0, hn⟩ (Nat.zero_mod 5)) _).trans ?_
    exact acc1_reset_val V c ⟨0, hn⟩ (Nat.zero_mod 5) p q
  | succ n ih =>
    intro hn p q
    have hN : n + 1 < 50 := lt_of_lt_of_eq hn (show cfg1.N = 50 from N_1)
    by_cases hA : (n + 1) % 5 = 0
    · refine (congrFun (accAt1_reset (F := Ideal) V c ⟨n + 1, hn⟩ hA) _).trans ?_
      exact acc1_reset_val V c ⟨n + 1, hn⟩ hA p q
    · refine (congrFun (accAt1_step (F := Ideal) V c ⟨n + 1, hn⟩ hA) _).trans ?_
      refine (pay1_2_apply _ _ _ p q).trans ?_
      have hrow : row1 ⟨n + 1, hn⟩ p = row1 ⟨n, Nat.lt_of_succ_lt hn⟩ p :=
        Fin.ext (by show 1024 * ((n + 1) / 5) + p.val = 1024 * (n / 5) + p.val; omega)
      have hk : (n + 1) % 5 = n % 5 + 1 := by omega
      rw [hk, psum1_succ _ _ (by omega), hrow]
      refine congrArg₂ (· + ·) (ih (Nat.lt_of_succ_lt hn) p q) ?_
      rw [← hrow]
      exact blk_prod1 V c ⟨n + 1, hn⟩ ⟨n % 5 + 1, by omega⟩ hk.symm p q

/-! ## What the last column tile's point writes back, and the cover -/

theorem emb1_3 (t : Fin cfg1.N) (p : Fin 1024) (q : Fin 128) :
    ((cfg1.win 3).blk t).view.emb (ix2 (n0 := 1024) (n1 := 128) p q) = ix2 (n0 := 10240) (n1 := 128) (row1 t p) q := by
  obtain ⟨e0, e1, e2, e3, e4, e5, e6, e7⟩ := idx_facts1 t
  funext a; apply Fin.ext
  match a with
  | ⟨0, _⟩ => show win1_3.index t (0 : Fin 2) * 1024 + 1 * p.val = 1024 * (t.val / 5) + p.val; omega
  | ⟨1, _⟩ => show win1_3.index t (1 : Fin 2) * 128 + 1 * q.val = q.val; omega

theorem agg1_apply (A : S10240x10240.Idx → EReal) (X : S10240x128.Idx → EReal) (b : S1x128.Idx → EReal) (d : Fin 10240) (q : Fin 128) :
    Cert.Spec.agg A X b (ix2 (n0 := 10240) (n1 := 128) d q)
      = (∑ j : Fin 5, tile1 A X d q j) + b (ix2 (n0 := 1) (n1 := 128) 0 q) := by
  show (∑ s : Fin 10240, A (ix2 (n0 := 10240) (n1 := 10240) d s) * X (ix2 (n0 := 10240) (n1 := 128) s q)) + b (ix2 (n0 := 1) (n1 := 128) 0 q) = _
  rw [sum_tiles1]
  rfl

theorem flushed1_3_eq (c : Dev nD) (t : Fin cfg1.N) (hf : (cfg1.win 3).flush t = true) :
    (dat1 (F := Ideal) V c).flushed 3 t
      = ((cfg1.win 3).blk t).view.read (Elt Ideal) (Cert.Spec.agg (V c main_v45) (V c main_v47) (V c main_v48)) := by
  have hB : t.val % 5 = 4 := (flush1_3 t).mp hf
  show (cfg1.win 3).cut (grid1.coords t) ((dat1 V c).after 3 t) = _
  rw [after1_3]
  funext (j : S1024x128.Idx)
  obtain ⟨p, q, rfl⟩ : ∃ (p : Fin 1024) (q : Fin 128), j = ix2 (n0 := 1024) (n1 := 128) p q := ⟨j 0, j 1, eq_ix2 j⟩
  show outAt1 (F := Ideal) V c t (ix2 (n0 := 1024) (n1 := 128) p q)
    = Cert.Spec.agg (V c main_v45) (V c main_v47) (V c main_v48) (((cfg1.win 3).blk t).view.emb (ix2 (n0 := 1024) (n1 := 128) p q))
  rw [emb1_3, agg1_apply]
  unfold outAt1
  rw [pay1_3_apply, acc1_inv V c t.val t.isLt p q, hB, psum1_full]
  exact congrArg _ (blkB1_apply V c t q)

theorem mem_blk1_3 (t : Fin cfg1.N) (i : S10240x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v49).slice (win1_3.rect t)).set ↔ _
  rw [View.set_slice_whole, Rect.mem_set_unit]
  exact Iff.rfl

/-- The ten row tiles, each written back at the last column tile's point, cover the 10240 rows. -/
theorem cover1_3_arr (i : S10240x128.Idx) : ∃ t : Fin cfg1.N, (cfg1.win 3).flush t = true ∧ i ∈ ((cfg1.win 3).blk t).view.set := by
  have hi0 : (i 0).val < 10240 := (i 0).isLt
  have hi1 : (i 1).val < 128 := (i 1).isLt
  have hlt : 5 * ((i 0).val / 1024) + 4 < cfg1.N := by rw [show cfg1.N = 50 from N_1]; omega
  refine ⟨⟨5 * ((i 0).val / 1024) + 4, hlt⟩, (flush1_3 _).mpr (by show (5 * ((i 0).val / 1024) + 4) % 5 = 4; omega), ?_⟩
  obtain ⟨e0, e1, e2, e3, e4, e5, e6, e7⟩ := idx_facts1 ⟨5 * ((i 0).val / 1024) + 4, hlt⟩
  have q0 : win1_3.index ⟨5 * ((i 0).val / 1024) + 4, hlt⟩ (0 : Fin 2) = (i 0).val / 1024 := by rw [e6]; show (5 * ((i 0).val / 1024) + 4) / 5 = _; omega
  rw [mem_blk1_3]
  intro a
  match a with
  | ⟨0, _⟩ => show win1_3.index _ (0 : Fin 2) * 1024 ≤ (i 0).val ∧ (i 0).val < win1_3.index _ (0 : Fin 2) * 1024 + 1024; omega
  | ⟨1, _⟩ => show win1_3.index _ (1 : Fin 2) * 128 ≤ (i 1).val ∧ (i 1).val < win1_3.index _ (1 : Fin 2) * 128 + 128; omega

/-- The array after the region's write-backs: index by index, the row of the adjacency against the column of the table, plus the bias. -/
theorem final1 (V : (c : Dev nD) → (b : Ref sig .tc) → Buf (Elt Ideal) ((c : Thread nD τ).loc b)) (c : Dev nD) :
    (dat1 (F := Ideal) V c).arrAt 3 cfg1.N = Cert.Spec.agg (V c main_v45) (V c main_v47) (V c main_v48) :=
  (dat1 (F := Ideal) V c).arrAt_eq_of_cover 3 (Cert.Spec.agg (V c main_v45) (V c main_v47) (V c main_v48))
    (fun t hf => flushed1_3_eq V c t hf) cover1_3_arr

end Cert.KernelIdeal.Hand

end
-- ==== Proof.Agg3Val.lean ====
import proofs.«424741_j64287070486608_2_alg».proof.Proof.Agg3
import proofs.«424741_j64287070486608_2_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! # Region 3 at the extended reals: the written-back array is the adjacency times the table plus the bias row -/

/-- The reset value of the accumulator is zero everywhere. -/
theorem pay3_1_apply (p : Fin 1024) (q : Fin 128) :
    k3_pay1 (F := Ideal) (ix2 (n0 := 1024) (n1 := 128) p q) = 0 := by
  unfold k3_pay1
  rw [shapeCast_self]
  exact Ideal.ofBits_zero_f32

/-- One accumulation step at one element: the accumulator gains row `p` of the adjacency block against column `q` of the
    table block. The format changes are the identity at the extended reals and the matmul's own accumulator is the zero splat. -/
theorem pay3_2_apply (xs : Vec Ideal S1024x128 .f32) (xa : Vec Ideal S1024x2048 .bf16) (xb : Vec Ideal S2048x128 .bf16)
    (p : Fin 1024) (q : Fin 128) :
    k3_pay2 (F := Ideal) xs xa xb (ix2 (n0 := 1024) (n1 := 128) p q)
      = xs (ix2 (n0 := 1024) (n1 := 128) p q)
        + ∑ r : Fin 2048, xa (ix2 (n0 := 1024) (n1 := 2048) p r) * xb (ix2 (n0 := 2048) (n1 := 128) r q) := by
  unfold k3_pay2
  rw [shapeCast_self]
  refine (addf_apply _ _ _).trans ?_
  congr 1
  refine (Ideal.matmul_constant_zero_apply dot_S1024x2048_S2048x128_S1024x128_1_0_0_1_n_n none _ _ _).trans ?_
  rw [← Equiv.sum_comp (contrEquiv1 dot_S1024x2048_S2048x128_S1024x128_1_0_0_1_n_n 2048 rfl rfl).symm]
  refine Finset.sum_congr rfl fun r _ => ?_
  have cr := contrEquiv1_symm_val dot_S1024x2048_S2048x128_S1024x128_1_0_0_1_n_n 2048 rfl rfl r
  have hl : dot_S1024x2048_S2048x128_S1024x128_1_0_0_1_n_n.lhsIdx (ix2 (n0 := 1024) (n1 := 128) p q)
      ((contrEquiv1 dot_S1024x2048_S2048x128_S1024x128_1_0_0_1_n_n 2048 rfl rfl).symm r) = ix2 (n0 := 1024) (n1 := 2048) p r := by
    funext ax; apply Fin.ext
    match ax with
    | ⟨0, _⟩ => simp [DotDims.lhsIdx, dot_S1024x2048_S2048x128_S1024x128_1_0_0_1_n_n]; rfl
    | ⟨1, _⟩ => simp [DotDims.lhsIdx, dot_S1024x2048_S2048x128_S1024x128_1_0_0_1_n_n]; exact cr
  have hr : dot_S1024x2048_S2048x128_S1024x128_1_0_0_1_n_n.rhsIdx (ix2 (n0 := 1024) (n1 := 128) p q)
      ((contrEquiv1 dot_S1024x2048_S2048x128_S1024x128_1_0_0_1_n_n 2048 rfl rfl).symm r) = ix2 (n0 := 2048) (n1 := 128) r q := by
    funext ax; apply Fin.ext
    match ax with
    | ⟨0, _⟩ => simp [DotDims.rhsIdx, dot_S1024x2048_S2048x128_S1024x128_1_0_0_1_n_n]; exact cr
    | ⟨1, _⟩ => simp [DotDims.rhsIdx, dot_S1024x2048_S2048x128_S1024x128_1_0_0_1_n_n]; rfl
  rw [hl, hr]
  show (shapeCast S1024x2048 xa shapeCasts_S1024x2048_S1024x2048) (ix2 (n0 := 1024) (n1 := 2048) p r)
      * (shapeCast S2048x128 xb shapeCasts_S2048x128_S2048x128) (ix2 (n0 := 2048) (n1 := 128) r q) = _
  rw [shapeCast_self, shapeCast_self]

/-- The stored output at one element: the accumulator plus the bias of the column. -/
theorem pay3_3_apply (xs : Vec Ideal S1024x128 .f32) (xc : Vec Ideal S1x128 .f32) (p : Fin 1024) (q : Fin 128) :
    k3_pay3 (F := Ideal) xs xc (ix2 (n0 := 1024) (n1 := 128) p q)
      = xs (ix2 (n0 := 1024) (n1 := 128) p q) + xc (ix2 (n0 := 1) (n1 := 128) 0 q) := by
  unfold k3_pay3
  refine (addf_apply _ _ _).trans ?_
  congr 1
  rw [shapeCast_self]
  refine broadcastTo_apply _ _ _ _ (fun a => ?_)
  match a with
  | ⟨0, _⟩ => rfl
  | ⟨1, _⟩ => rfl

/-! ## Sums over the five column tiles -/

theorem psum3_zero (f : Fin 5 → EReal) : (∑ j : Fin 5, if j.val ≤ 0 then f j else 0) = f 0 := by
  simp [Fin.sum_univ_five]

theorem psum3_succ (f : Fin 5 → EReal) (k : ℕ) (hk : k + 1 < 5) :
    (∑ j : Fin 5, if j.val ≤ k + 1 then f j else 0) = (∑ j : Fin 5, if j.val ≤ k then f j else 0) + f ⟨k + 1, hk⟩ := by
  have hk' : k < 4 := by omega
  interval_cases k <;> simp [Fin.sum_univ_five, add_assoc]

theorem psum3_full (f : Fin 5 → EReal) : (∑ j : Fin 5, if j.val ≤ 4 then f j else 0) = ∑ j : Fin 5, f j :=
  Finset.sum_congr rfl fun j _ => if_pos (Nat.le_of_lt_succ j.isLt)

/-- The 10240 columns are five tiles of 2048. -/
theorem sum_tiles3 (g : Fin 10240 → EReal) :
    ∑ s : Fin 10240, g s = ∑ j : Fin 5, ∑ r : Fin 2048, g ⟨2048 * j.val + r.val, by have := j.isLt; have := r.isLt; omega⟩ := by
  rw [← Equiv.sum_comp (finProdFinEquiv : Fin 5 × Fin 2048 ≃ Fin 10240) g, Fintype.sum_prod_type]
  refine Finset.sum_congr rfl fun j _ => Finset.sum_congr rfl fun r _ => ?_
  refine congrArg g (Fin.ext ?_)
  show r.val + 2048 * j.val = 2048 * j.val + r.val
  omega

/-! ## The blocks the points read, through the printed index maps -/

/-- The printed index maps over the fifty points: the adjacency block sits at row tile `t / 5` and column tile `t % 5`, the
    table block at row tile `t % 5`, the bias stays, the output block sits at row tile `t / 5`. -/
theorem idx_facts3 : ∀ t : Fin cfg3.N, win3_0.index t (0 : Fin 2) = t.val / 5 ∧ win3_0.index t (1 : Fin 2) = t.val % 5
    ∧ win3_1.index t (0 : Fin 2) = t.val % 5 ∧ win3_1.index t (1 : Fin 2) = 0
    ∧ win3_2.index t (0 : Fin 2) = 0 ∧ win3_2.index t (1 : Fin 2) = 0
    ∧ win3_3.index t (0 : Fin 2) = t.val / 5 ∧ win3_3.index t (1 : Fin 2) = 0 :=
  (by decide +kernel : ∀ t : Fin grid3.N, _)

/-- The array row of local row `p` at point `t`. -/
def row3 (t : Fin cfg3.N) (p : Fin 1024) : Fin 10240 :=
  ⟨1024 * (t.val / 5) + p.val, by have hN : t.val < 50 := lt_of_lt_of_eq t.isLt (show cfg3.N = 50 from N_3); have := p.isLt; omega⟩

/-- The array column of local column `r` of column tile `j`. -/
def col3 (j : Fin 5) (r : Fin 2048) : Fin 10240 :=
  ⟨2048 * j.val + r.val, by have := j.isLt; have := r.isLt; omega⟩

abbrev blkA3 (c : Dev nD) (t : Fin cfg3.N) : Vec Ideal S1024x2048 .bf16 := iblk3 (F := Ideal) V c 0 t
abbrev blkX3 (c : Dev nD) (t : Fin cfg3.N) : Vec Ideal S2048x128 .bf16 := iblk3 (F := Ideal) V c 1 t
abbrev blkB3 (c : Dev nD) (t : Fin cfg3.N) : Vec Ideal S1x128 .f32 := iblk3 (F := Ideal) V c 2 t

theorem blkA3_apply (c : Dev nD) (t : Fin cfg3.N) (j : Fin 5) (hj : j.val = t.val % 5) (p : Fin 1024) (r : Fin 2048) :
    blkA3 V c t (ix2 (n0 := 1024) (n1 := 2048) p r)
      = V c main_v45 (ix2 (n0 := 10240) (n1 := 10240) (row3 t p) (col3 j r)) := by
  obtain ⟨e0, e1, e2, e3, e4, e5, e6, e7⟩ := idx_facts3 t
  show V c main_v45 (((cfg3.win 0).blk t).view.emb (ix2 (n0 := 1024) (n1 := 2048) p r)) = V c main_v45 _
  congr 1
  funext a; apply Fin.ext
  match a with
  | ⟨0, _⟩ => show win3_0.index t (0 : Fin 2) * 1024 + 1 * p.val = 1024 * (t.val / 5) + p.val; omega
  | ⟨1, _⟩ => show win3_0.index t (1 : Fin 2) * 2048 + 1 * r.val = 2048 * j.val + r.val; omega

theorem blkX3_apply (c : Dev nD) (t : Fin cfg3.N) (j : Fin 5) (hj : j.val = t.val % 5) (r : Fin 2048) (q : Fin 128) :
    blkX3 V c t (ix2 (n0 := 2048) (n1 := 128) r q)
      = V c main_v57 (ix2 (n0 := 10240) (n1 := 128) (col3 j r) q) := by
  obtain ⟨e0, e1, e2, e3, e4, e5, e6, e7⟩ := idx_facts3 t
  show V c main_v57 (((cfg3.win 1).blk t).view.emb (ix2 (n0 := 2048) (n1 := 128) r q)) = V c main_v57 _
  congr 1
  funext a; apply Fin.ext
  match a with
  | ⟨0, _⟩ => show win3_1.index t (0 : Fin 2) * 2048 + 1 * r.val = 2048 * j.val + r.val; omega
  | ⟨1, _⟩ => show win3_1.index t (1 : Fin 2) * 128 + 1 * q.val = q.val; omega

theorem blkB3_apply (c : Dev nD) (t : Fin cfg3.N) (q : Fin 128) :
    blkB3 V c t (ix2 (n0 := 1) (n1 := 128) 0 q) = V c main_v58 (ix2 (n0 := 1) (n1 := 128) 0 q) := by
  obtain ⟨e0, e1, e2, e3, e4, e5, e6, e7⟩ := idx_facts3 t
  show V c main_v58 (((cfg3.win 2).blk t).view.emb (ix2 (n0 := 1) (n1 := 128) 0 q)) = V c main_v58 _
  congr 1
  funext a; apply Fin.ext
  match a with
  | ⟨0, _⟩ => show win3_2.index t (0 : Fin 2) * 1 + 1 * 0 = 0; omega
  | ⟨1, _⟩ => show win3_2.index t (1 : Fin 2) * 128 + 1 * q.val = q.val; omega

/-! ## The accumulator is the partial sum over the column tiles seen so far -/

/-- Column tile `j` of the sum for array row `d` and column `q`. -/
def tile3 (A : S10240x10240.Idx → EReal) (X : S10240x128.Idx → EReal) (d : Fin 10240) (q : Fin 128) (j : Fin 5) : EReal :=
  ∑ r : Fin 2048, A (ix2 (n0 := 10240) (n1 := 10240) d (col3 j r)) * X (ix2 (n0 := 10240) (n1 := 128) (col3 j r) q)

/-- The product of the two blocks of point `t` at one element is the column tile `t % 5` of the sum. -/
theorem blk_prod3 (c : Dev nD) (t : Fin cfg3.N) (j : Fin 5) (hj : j.val = t.val % 5) (p : Fin 1024) (q : Fin 128) :
    ∑ r : Fin 2048, blkA3 V c t (ix2 (n0 := 1024) (n1 := 2048) p r) * blkX3 V c t (ix2 (n0 := 2048) (n1 := 128) r q)
      = tile3 (V c main_v45) (V c main_v57) (row3 t p) q j := by
  unfold tile3
  refine Finset.sum_congr rfl fun r _ => ?_
  rw [blkA3_apply V c t j hj, blkX3_apply V c t j hj]

theorem acc3_reset_val (c : Dev nD) (t : Fin cfg3.N) (hA : t.val % 5 = 0) (p : Fin 1024) (q : Fin 128) :
    k3_pay2 (F := Ideal) (k3_pay1 (F := Ideal)) (blkA3 V c t) (blkX3 V c t) (ix2 (n0 := 1024) (n1 := 128) p q)
      = ∑ j : Fin 5, if j.val ≤ t.val % 5 then tile3 (V c main_v45) (V c main_v57) (row3 t p) q j else 0 := by
  rw [pay3_2_apply, pay3_1_apply, zero_add, hA, psum3_zero]
  exact blk_prod3 V c t 0 hA.symm p q

theorem acc3_inv (c : Dev nD) : ∀ (n : ℕ) (hn : n < cfg3.N) (p : Fin 1024) (q : Fin 128),
    accAt3 (F := Ideal) V c n hn (ix2 (n0 := 1024) (n1 := 128) p q)
      = ∑ j : Fin 5, if j.val ≤ n % 5 then tile3 (V c main_v45) (V c main_v57) (row3 ⟨n, hn⟩ p) q j else 0 := by
  intro n
  induction n with
  | zero =>
    intro hn p q
    refine (congrFun (accAt3_reset (F := Ideal) V c ⟨0, hn⟩ (Nat.zero_mod 5)) _).trans ?_
    exact acc3_reset_val V c ⟨0, hn⟩ (Nat.zero_mod 5) p q
  | succ n ih =>
    intro hn p q
    have hN : n + 1 < 50 := lt_of_lt_of_eq hn (show cfg3.N = 50 from N_3)
    by_cases hA : (n + 1) % 5 = 0
    · refine (congrFun (accAt3_reset (F := Ideal) V c ⟨n + 1, hn⟩ hA) _).trans ?_
      exact acc3_reset_val V c ⟨n + 1, hn⟩ hA p q
    · refine (congrFun (accAt3_step (F := Ideal) V c ⟨n + 1, hn⟩ hA) _).trans ?_
      refine (pay3_2_apply _ _ _ p q).trans ?_
      have hrow : row3 ⟨n + 1, hn⟩ p = row3 ⟨n, Nat.lt_of_succ_lt hn⟩ p :=
        Fin.ext (by show 1024 * ((n + 1) / 5) + p.val = 1024 * (n / 5) + p.val; omega)
      have hk : (n + 1) % 5 = n % 5 + 1 := by omega
      rw [hk, psum3_succ _ _ (by omega), hrow]
      refine congrArg₂ (· + ·) (ih (Nat.lt_of_succ_lt hn) p q) ?_
      rw [← hrow]
      exact blk_prod3 V c ⟨n + 1, hn⟩ ⟨n % 5 + 1, by omega⟩ hk.symm p q

/-! ## What the last column tile's point writes back, and the cover -/

theorem emb3_3 (t : Fin cfg3.N) (p : Fin 1024) (q : Fin 128) :
    ((cfg3.win 3).blk t).view.emb (ix2 (n0 := 1024) (n1 := 128) p q) = ix2 (n0 := 10240) (n1 := 128) (row3 t p) q := by
  obtain ⟨e0, e1, e2, e3, e4, e5, e6, e7⟩ := idx_facts3 t
  funext a; apply Fin.ext
  match a with
  | ⟨0, _⟩ => show win3_3.index t (0 : Fin 2) * 1024 + 1 * p.val = 1024 * (t.val / 5) + p.val; omega
  | ⟨1, _⟩ => show win3_3.index t (1 : Fin 2) * 128 + 1 * q.val = q.val; omega

theorem agg3_apply (A : S10240x10240.Idx → EReal) (X : S10240x128.Idx → EReal) (b : S1x128.Idx → EReal) (d : Fin 10240) (q : Fin 128) :
    Cert.Spec.agg A X b (ix2 (n0 := 10240) (n1 := 128) d q)
      = (∑ j : Fin 5, tile3 A X d q j) + b (ix2 (n0 := 1) (n1 := 128) 0 q) := by
  show (∑ s : Fin 10240, A (ix2 (n0 := 10240) (n1 := 10240) d s) * X (ix2 (n0 := 10240) (n1 := 128) s q)) + b (ix2 (n0 := 1) (n1 := 128) 0 q) = _
  rw [sum_tiles3]
  rfl

theorem flushed3_3_eq (c : Dev nD) (t : Fin cfg3.N) (hf : (cfg3.win 3).flush t = true) :
    (dat3 (F := Ideal) V c).flushed 3 t
      = ((cfg3.win 3).blk t).view.read (Elt Ideal) (Cert.Spec.agg (V c main_v45) (V c main_v57) (V c main_v58)) := by
  have hB : t.val % 5 = 4 := (flush3_3 t).mp hf
  show (cfg3.win 3).cut (grid3.coords t) ((dat3 V c).after 3 t) = _
  rw [after3_3]
  funext (j : S1024x128.Idx)
  obtain ⟨p, q, rfl⟩ : ∃ (p : Fin 1024) (q : Fin 128), j = ix2 (n0 := 1024) (n1 := 128) p q := ⟨j 0, j 1, eq_ix2 j⟩
  show outAt3 (F := Ideal) V c t (ix2 (n0 := 1024) (n1 := 128) p q)
    = Cert.Spec.agg (V c main_v45) (V c main_v57) (V c main_v58) (((cfg3.win 3).blk t).view.emb (ix2 (n0 := 1024) (n1 := 128) p q))
  rw [emb3_3, agg3_apply]
  unfold outAt3
  rw [pay3_3_apply, acc3_inv V c t.val t.isLt p q, hB, psum3_full]
  exact congrArg _ (blkB3_apply V c t q)

theorem mem_blk3_3 (t : Fin cfg3.N) (i : S10240x128.Idx) :
    i ∈ ((cfg3.win 3).blk t).view.set ↔ ∀ a : Fin 2, win3_3.index t a * S1024x128.size a ≤ (i a).val ∧ (i a).val < win3_3.index t a * S1024x128.size a + S1024x128.size a := by
  show i ∈ ((View.whole main_v59).slice (win3_3.rect t)).set ↔ _
  rw [View.set_slice_whole, Rect.mem_set_unit]
  exact Iff.rfl

/-- The ten row tiles, each written back at the last column tile's point, cover the 10240 rows. -/
theorem cover3_3_arr (i : S10240x128.Idx) : ∃ t : Fin cfg3.N, (cfg3.win 3).flush t = true ∧ i ∈ ((cfg3.win 3).blk t).view.set := by
  have hi0 : (i 0).val < 10240 := (i 0).isLt
  have hi1 : (i 1).val < 128 := (i 1).isLt
  have hlt : 5 * ((i 0).val / 1024) + 4 < cfg3.N := by rw [show cfg3.N = 50 from N_3]; omega
  refine ⟨⟨5 * ((i 0).val / 1024) + 4, hlt⟩, (flush3_3 _).mpr (by show (5 * ((i 0).val / 1024) + 4) % 5 = 4; omega), ?_⟩
  obtain ⟨e0, e1, e2, e3, e4, e5, e6, e7⟩ := idx_facts3 ⟨5 * ((i 0).val / 1024) + 4, hlt⟩
  have q0 : win3_3.index ⟨5 * ((i 0).val / 1024) + 4, hlt⟩ (0 : Fin 2) = (i 0).val / 1024 := by rw [e6]; show (5 * ((i 0).val / 1024) + 4) / 5 = _; omega
  rw [mem_blk3_3]
  intro a
  match a with
  | ⟨0, _⟩ => show win3_3.index _ (0 : Fin 2) * 1024 ≤ (i 0).val ∧ (i 0).val < win3_3.index _ (0 : Fin 2) * 1024 + 1024; omega
  | ⟨1, _⟩ => show win3_3.index _ (1 : Fin 2) * 128 ≤ (i 1).val ∧ (i 1).val < win3_3.index _ (1 : Fin 2) * 128 + 128; omega

/-- The array after the region's write-backs: index by index, the row of the adjacency against the column of the table, plus the bias. -/
theorem final3 (V : (c : Dev nD) → (b : Ref sig .tc) → Buf (Elt Ideal) ((c : Thread nD τ).loc b)) (c : Dev nD) :
    (dat3 (F := Ideal) V c).arrAt 3 cfg3.N = Cert.Spec.agg (V c main_v45) (V c main_v57) (V c main_v58) :=
  (dat3 (F := Ideal) V c).arrAt_eq_of_cover 3 (Cert.Spec.agg (V c main_v45) (V c main_v57) (V c main_v58))
    (fun t hf => flushed3_3_eq V c t hf) cover3_3_arr

end Cert.KernelIdeal.Hand

end
-- ==== Proof.KVal.lean ====
import proofs.«424741_j64287070486608_2_alg».proof.Proof.Run
import proofs.«424741_j64287070486608_2_alg».proof.Proof.Lin0Val
import proofs.«424741_j64287070486608_2_alg».proof.Proof.Lin2Val
import proofs.«424741_j64287070486608_2_alg».proof.Proof.Stages
import proofs.«424741_j64287070486608_2_alg».proof.Proof.KHost
import proofs.«424741_j64287070486608_2_alg».proof.Proof.KHostSmall
import proofs.«424741_j64287070486608_2_alg».proof.Proof.Agg1Val
import proofs.«424741_j64287070486608_2_alg».proof.Proof.Agg3Val
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-! # The kernel's value at the extended reals, read through the thirteen boundaries of its run

Each buffer the last aggregation reads is followed back, boundary by boundary, to where it was written: a host
stretch that does not write it and a region whose windows do not name it leave it as it was; a region's input window
leaves its array as entered; a region's output array is what its write-backs fold to. -/

/-! ## The arguments, at the boundaries where they are read -/

theorem W3_main_arg0 (c : Dev nD) : W3 (F := Ideal) m ρ c (Proc.devRef .tc main_arg0) = m ((c : Thread nD τ).loc main_arg0) :=
  (W3_of m ρ c main_arg0 (by decide)).trans ((W2_of m ρ c main_arg0 (by decide)).trans ((W1_of m ρ c main_arg0 (by decide)).trans rfl))

theorem W4_main_arg2 (c : Dev nD) : W4 (F := Ideal) m ρ c (Proc.devRef .tc main_arg2) = m ((c : Thread nD τ).loc main_arg2) :=
  (W4_of m ρ c main_arg2 (by decide)).trans ((W3_of m ρ c main_arg2 (by decide)).trans
    ((W2_of m ρ c main_arg2 (by decide)).trans ((W1_of m ρ c main_arg2 (by decide)).trans rfl)))

theorem W4_main_arg3 (c : Dev nD) : W4 (F := Ideal) m ρ c (Proc.devRef .tc main_arg3) = m ((c : Thread nD τ).loc main_arg3) :=
  (W4_of m ρ c main_arg3 (by decide)).trans ((W3_of m ρ c main_arg3 (by decide)).trans
    ((W2_of m ρ c main_arg3 (by decide)).trans ((W1_of m ρ c main_arg3 (by decide)).trans rfl)))

theorem W5_main_arg3 (c : Dev nD) : W5 (F := Ideal) m ρ c (Proc.devRef .tc main_arg3) = m ((c : Thread nD τ).loc main_arg3) :=
  (W5_of_ne m ρ c main_arg3 (by decide)).trans (W4_main_arg3 m ρ c)

theorem W4_main_arg4 (c : Dev nD) : W4 (F := Ideal) m ρ c (Proc.devRef .tc main_arg4) = m ((c : Thread nD τ).loc main_arg4) :=
  (W4_of m ρ c main_arg4 (by decide)).trans ((W3_of m ρ c main_arg4 (by decide)).trans
    ((W2_of m ρ c main_arg4 (by decide)).trans ((W1_of m ρ c main_arg4 (by decide)).trans rfl)))

theorem W8_main_arg4 (c : Dev nD) : W8 (F := Ideal) m ρ c (Proc.devRef .tc main_arg4) = m ((c : Thread nD τ).loc main_arg4) :=
  (W8_of m ρ c main_arg4 (by decide)).trans ((W7_of_ne m ρ c main_arg4 (by decide)).trans
    ((W6_of m ρ c main_arg4 (by decide)).trans ((W5_of_ne m ρ c main_arg4 (by decide)).trans (W4_main_arg4 m ρ c))))

theorem W4_main_arg5 (c : Dev nD) : W4 (F := Ideal) m ρ c (Proc.devRef .tc main_arg5) = m ((c : Thread nD τ).loc main_arg5) :=
  (W4_of m ρ c main_arg5 (by decide)).trans ((W3_of m ρ c main_arg5 (by decide)).trans
    ((W2_of m ρ c main_arg5 (by decide)).trans ((W1_of m ρ c main_arg5 (by decide)).trans rfl)))

theorem W9_main_arg5 (c : Dev nD) : W9 (F := Ideal) m ρ c (Proc.devRef .tc main_arg5) = m ((c : Thread nD τ).loc main_arg5) :=
  (W9_of_ne m ρ c main_arg5 (by decide)).trans ((W8_of m ρ c main_arg5 (by decide)).trans ((W7_of_ne m ρ c main_arg5 (by decide)).trans
    ((W6_of m ρ c main_arg5 (by decide)).trans ((W5_of_ne m ρ c main_arg5 (by decide)).trans (W4_main_arg5 m ρ c)))))

/-! ## The dense adjacency: written by the third host stretch, read by both aggregations through an input window -/

theorem W6_main_v45 (c : Dev nD) : W6 (F := Ideal) m ρ c (Proc.devRef .tc main_v45) = W3 m ρ c (Proc.devRef .tc main_v45) :=
  (W6_of m ρ c main_v45 (by decide)).trans ((W5_of_ne m ρ c main_v45 (by decide)).trans (W4_of m ρ c main_v45 (by decide)))

theorem W10_main_v45 (c : Dev nD) : W10 (F := Ideal) m ρ c (Proc.devRef .tc main_v45) = W3 m ρ c (Proc.devRef .tc main_v45) :=
  (W10_of m ρ c main_v45 (by decide)).trans ((W9_of_ne m ρ c main_v45 (by decide)).trans ((W8_of m ρ c main_v45 (by decide)).trans
    ((W7_arr m ρ c 0).trans (((dat1 (V6 m ρ) c).arrAt_in 0 rfl _).trans ((A_eq1 (V6 m ρ) c 0).trans (W6_main_v45 m ρ c))))))

/-! ## The two linear layers' outputs, where the aggregations read them -/

/-- The first linear layer's output as the first aggregation finds it: the padded table times the first weight. -/
theorem W6_main_v47 (c : Dev nD) : W6 (F := Ideal) m ρ c (Proc.devRef .tc main_v47)
    = Cert.Spec.lin (R := 10240) (V4 m ρ c main_v46) (m ((c : Thread nD τ).loc main_arg2)) :=
  (W6_of m ρ c main_v47 (by decide)).trans ((W5_arr m ρ c 2).trans ((final0 (V4 m ρ) c).trans
    (congrArg (Cert.Spec.lin (R := 10240) (V4 m ρ c main_v46)) (W4_main_arg2 m ρ c))))

/-- The second linear layer's output as the second aggregation finds it: the masked table times the second weight. -/
theorem W10_main_v57 (c : Dev nD) : W10 (F := Ideal) m ρ c (Proc.devRef .tc main_v57)
    = Cert.Spec.lin (R := 10240) (V8 m ρ c main_v56) (m ((c : Thread nD τ).loc main_arg4)) :=
  (W10_of m ρ c main_v57 (by decide)).trans ((W9_arr m ρ c 2).trans ((final2 (V8 m ρ) c).trans
    (congrArg (Cert.Spec.lin (R := 10240) (V8 m ρ c main_v56)) (W8_main_arg4 m ρ c))))

/-- The first aggregation's output: the adjacency against the first linear layer's output, plus the first bias row. -/
theorem W7_main_v49 (c : Dev nD) : W7 (F := Ideal) m ρ c (Proc.devRef .tc main_v49)
    = Cert.Spec.agg (V10 m ρ c main_v45) (Cert.Spec.lin (R := 10240) (V4 m ρ c main_v46) (m ((c : Thread nD τ).loc main_arg2))) (V6 m ρ c main_v48) := by
  refine (W7_arr m ρ c 3).trans ((final1 (V6 m ρ) c).trans ?_)
  have h45 : V6 m ρ c main_v45 = V10 m ρ c main_v45 := (W6_main_v45 m ρ c).trans (W10_main_v45 m ρ c).symm
  have h47 : V6 m ρ c main_v47 = Cert.Spec.lin (R := 10240) (V4 m ρ c main_v46) (m ((c : Thread nD τ).loc main_arg2)) := W6_main_v47 m ρ c
  rw [h45, h47]

/-- THE KERNEL'S VALUE: entry (i, q) of the result the run leaves is the two graph-convolution layers of the
    arguments, with the edge weights the host code computes from the edge array. -/
theorem kernel_value (m : (ℓ : Loc nD τ sig) → Buf (Elt Ideal) ℓ) (ρ : Dev nD → PrngReg) (c : Dev nD)
    (hE : Cert.Spec.InRange (m ((c : Thread nD τ).loc main_arg1))) (hw : ∀ e, 0 ≤ nrmK (m ((c : Thread nD τ).loc main_arg1)) e) (i : Fin 10000) (q : Fin 128) :
    W12 (F := Ideal) m ρ c (Proc.devRef .tc main_v60) (ix2 (n0 := 10000) (n1 := 128) i q)
      = Cert.Spec.gcn (m ((c : Thread nD τ).loc main_arg1)) (nrmK (m ((c : Thread nD τ).loc main_arg1))) (m ((c : Thread nD τ).loc main_arg0))
          (m ((c : Thread nD τ).loc main_arg2)) (m ((c : Thread nD τ).loc main_arg3)) (m ((c : Thread nD τ).loc main_arg4)) (m ((c : Thread nD τ).loc main_arg5))
          (ix2 (n0 := 10000) (n1 := 128) i q) := by
  -- the adjacency's entries
  have hA : ∀ d s : Fin 10240, V10 m ρ c main_v45 (ix2 (n0 := 10240) (n1 := 10240) d s)
      = ∑ e ∈ Finset.univ.filter (fun e : Fin 650000 => (Cert.Spec.dstW (m ((c : Thread nD τ).loc main_arg1)) e).toInt = (d.val : ℤ)
          ∧ (Cert.Spec.srcW (m ((c : Thread nD τ).loc main_arg1)) e).toInt = (s.val : ℤ)), nrmK (m ((c : Thread nD τ).loc main_arg1)) e := by
    intro d s
    rw [show V10 m ρ c main_v45 = W3 m ρ c (Proc.devRef .tc main_v45) from W10_main_v45 m ρ c]
    exact A_value (W0 m ρ c) hE d s
  -- the padded table's first 10000 rows
  have hXpad : ∀ (r : Fin 10000) (k : Fin 128), V4 m ρ c main_v46 (ix2 (n0 := 10240) (n1 := 128) ⟨r.val, by omega⟩ k)
      = m ((c : Thread nD τ).loc main_arg0) (ix2 (n0 := 10000) (n1 := 128) r k) := by
    intro r k
    refine (Xpad_value (W3 m ρ c) r k).trans ?_
    rw [W3_main_arg0 m ρ c]
  -- the two bias rows
  have hb1 : ∀ q : Fin 128, V6 m ρ c main_v48 (ix2 (n0 := 1) (n1 := 128) 0 q) = m ((c : Thread nD τ).loc main_arg3) (ix1 (n := 128) q) := by
    intro q
    refine (b1row_value (W5 m ρ c) q).trans ?_
    rw [W5_main_arg3 m ρ c]
  have hb2 : ∀ q : Fin 128, V10 m ρ c main_v58 (ix2 (n0 := 1) (n1 := 128) 0 q) = m ((c : Thread nD τ).loc main_arg5) (ix1 (n := 128) q) := by
    intro q
    refine (b2row_value (W9 m ρ c) q).trans ?_
    rw [W9_main_arg5 m ρ c]
  -- the masked first aggregation
  have hO1m : ∀ (d : Fin 10240) (q : Fin 128), V8 m ρ c main_v56 (ix2 (n0 := 10240) (n1 := 128) d q)
      = Cert.Spec.agg (V10 m ρ c main_v45) (Cert.Spec.lin (R := 10240) (V4 m ρ c main_v46) (m ((c : Thread nD τ).loc main_arg2))) (V6 m ρ c main_v48)
          (ix2 (n0 := 10240) (n1 := 128) d q) * (if d.val < 10000 then 1 else 0) := by
    intro d q
    refine (masked_value (W7 m ρ c) d q).trans ?_
    rw [W7_main_v49 m ρ c]
  have key := Cert.Spec.stages_eq_gcn (m ((c : Thread nD τ).loc main_arg1)) hE (nrmK (m ((c : Thread nD τ).loc main_arg1))) hw
    (V10 m ρ c main_v45) hA (m ((c : Thread nD τ).loc main_arg0)) (V4 m ρ c main_v46) hXpad
    (m ((c : Thread nD τ).loc main_arg2)) (m ((c : Thread nD τ).loc main_arg4)) (m ((c : Thread nD τ).loc main_arg3)) (m ((c : Thread nD τ).loc main_arg5))
    (V6 m ρ c main_v48) (V10 m ρ c main_v58) hb1 hb2 (V8 m ρ c main_v56) hO1m i q
  refine Eq.trans ?_ key
  refine (result_value (W11 m ρ c) i q).trans ?_
  refine congrFun ?_ _
  refine (W11_arr m ρ c 3).trans ((final3 (V10 m ρ) c).trans ?_)
  have h57 : V10 m ρ c main_v57 = Cert.Spec.lin (R := 10240) (V8 m ρ c main_v56) (m ((c : Thread nD τ).loc main_arg4)) := W10_main_v57 m ρ c
  rw [h57]

end Cert.KernelIdeal.Hand

end
-- ==== Proof.lean ====
/-
  The certificate of the two-layer graph convolution: a dense formulation (the normalized adjacency scattered into a
  padded 10240 × 10240 matrix, each layer "table times weight" then "adjacency times table plus bias", both as tiled
  matrix products) against the edge-list formulation (gather the source rows, scale by the edge weight, sum into the
  destination rows).

  Frames. The program is twelve segments, host stretches around four launches; each launch is run from the contents
  the segment before it left, the two aggregation launches carrying their accumulator from grid point to grid point;
  every argument array is read back unchanged through the fold of the segments' contents.

  Values, over the extended reals, for edge words that name nodes (the added range conjunct of the precondition).
  Entry (d, s) of the dense adjacency is the sum of the weights of the edges from s to d; the weights are products of
  two non-negative inverse square roots, so a table entry distributes over that sum, and regrouping the edges by
  source turns "row d of the adjacency against column q of the table" into the sum over the edges into d of the
  source's row entry times the weight: the reference's segment sum. Rows and columns beyond the 10000 nodes carry no
  weight, so the padding never reaches a kept entry; the second layer repeats the first on the first layer's rows.
-/
import proofs.«424741_j64287070486608_2_alg».proof.Defs
import proofs.«424741_j64287070486608_2_alg».proof.Proof.Gen.Kernel
import proofs.«424741_j64287070486608_2_alg».proof.Proof.Gen.KernelIdeal
import proofs.«424741_j64287070486608_2_alg».proof.Proof.Gen.ReferenceIdeal
import proofs.«424741_j64287070486608_2_alg».proof.Proof.Gen.Pre_finite_inputs
import proofs.«424741_j64287070486608_2_alg».proof.Proof.KRun
import proofs.«424741_j64287070486608_2_alg».proof.Proof.Run
import proofs.«424741_j64287070486608_2_alg».proof.Proof.RefRun
import proofs.«424741_j64287070486608_2_alg».proof.Proof.RefVal
import proofs.«424741_j64287070486608_2_alg».proof.Proof.RefNorm
import proofs.«424741_j64287070486608_2_alg».proof.Proof.NormEq
import proofs.«424741_j64287070486608_2_alg».proof.Proof.PreRange
import proofs.«424741_j64287070486608_2_alg».proof.Proof.KVal

noncomputable section

namespace Cert.Proof

open Idealize.ShloMosaic Idealize.SL.Sem

/-- The word-level program runs to the end and leaves its six arguments as launched. -/
theorem frame_k : Cert.frame_Kernel (hKernel := Cert.Kernel.Gen.facts) (hPre_finite_inputs := Cert.Pre_finite_inputs.Gen.facts) :=
  fun m ρ _ => Cert.Kernel.Hand.frame_all (F := Bits) m ρ

/-- So does the program read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame_all (F := Ideal) m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Under the precondition both programs end with the two-layer edge sum `Cert.Spec.gcn` of the shared arguments:
    the kernel's result read through the fold of its twelve segments, the reference's through its run; the two
    programs' edge weights are one function, non-negative entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hE : ∀ c : Dev Cert.KernelIdeal.nD, Cert.Spec.InRange (m ((c.tc : Thread Cert.KernelIdeal.nD Cert.KernelIdeal.τ).loc Cert.KernelIdeal.main_arg1)) :=
    fun c => Cert.Proof.Pre.inRange_KernelIdeal Cert.Pre_finite_inputs.Gen.facts m hpre c
  refine ⟨fun c => Cert.Spec.gcn (m ((c.tc : Thread Cert.KernelIdeal.nD Cert.KernelIdeal.τ).loc Cert.KernelIdeal.main_arg1))
      (Cert.KernelIdeal.Hand.nrmK (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨?_,
      (h c _ (Cert.KernelIdeal.Hand.mem_uc Cert.KernelIdeal.main_arg0 (by decide))).trans (Cert.KernelIdeal.Hand.W12_main_arg0 m ρ c),
      (h c _ (Cert.KernelIdeal.Hand.mem_uc Cert.KernelIdeal.main_arg1 (by decide))).trans (Cert.KernelIdeal.Hand.W12_main_arg1 m ρ c),
      (h c _ (Cert.KernelIdeal.Hand.mem_uc Cert.KernelIdeal.main_arg2 (by decide))).trans (Cert.KernelIdeal.Hand.W12_main_arg2 m ρ c),
      (h c _ (Cert.KernelIdeal.Hand.mem_uc Cert.KernelIdeal.main_arg3 (by decide))).trans (Cert.KernelIdeal.Hand.W12_main_arg3 m ρ c),
      (h c _ (Cert.KernelIdeal.Hand.mem_uc Cert.KernelIdeal.main_arg4 (by decide))).trans (Cert.KernelIdeal.Hand.W12_main_arg4 m ρ c),
      (h c _ (Cert.KernelIdeal.Hand.mem_uc Cert.KernelIdeal.main_arg5 (by decide))).trans (Cert.KernelIdeal.Hand.W12_main_arg5 m ρ c)⟩)
      (Cert.KernelIdeal.Hand.run_all (F := Ideal) m ρ)
    refine (h c _ (Cert.KernelIdeal.Hand.mem_uc Cert.KernelIdeal.main_v60 (by decide))).trans ?_
    funext j
    obtain ⟨i, q, rfl⟩ : ∃ (i : Fin 10000) (q : Fin 128), j = ValueIdx.ix2 (n0 := 10000) (n1 := 128) i q := ⟨j 0, j 1, ValueIdx.eq_ix2 j⟩
    exact Cert.KernelIdeal.Hand.kernel_value m ρ c (hE c)
      (fun e => by rw [Cert.Proof.Norm.nrmK_eq_nrmR]; exact Cert.ReferenceIdeal.Hand.nrmR_nonneg _ e) i q
  · refine (θ_run Cert.ReferenceIdeal.defs _ _).mono (fun r h c => ⟨(h c).1.trans ?_, (h c).2⟩)
      (Cert.ReferenceIdeal.Value.run (F := Ideal) m' ρ')
    have ha := hagree c
    rw [Cert.ReferenceIdeal.Hand.ref_value m' c (by rw [ha.2.1]; exact hE c), ha.1, ha.2.1, ha.2.2.1, ha.2.2.2.1, ha.2.2.2.2.1,
      ha.2.2.2.2.2, ← Cert.Proof.Norm.nrmK_eq_nrmR]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
